-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1700000 : Shape := ⟨1, ![1700000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1700000 : S_.BroadcastsInDim S1700000 (![] : Fin 0 → Fin S1700000.rank)
  reducesTo_S1700000_S_d0 : S1700000.ReducesTo [0] S_

variable [Facts]

def fn_part1 {F : FTy → Type} [FloatOps F] (main_arg3 : IVec S1700000 32) (main_v13 : IVec S_ 1) (main_v15 : IVec S1700000 1) (main_c_5 : IVec S_ 1) : IVec S_ 1 :=
  let main_v16 : IVec S_ 1 := (fun x v => Host.reduce IntOp.andi x v reducesTo_S1700000_S_d0 h_S_) main_v15 main_c_5
  let main_v17 : IVec S_ 1 := andi main_v13 main_v16
  let main_c_6 : IVec S_ 32 := constantI S_ 32 100000#32
  let main_v18 : IVec S1700000 32 := broadcastInDim S1700000 ![] bcast_S_S1700000 main_c_6
  let main_v19 : IVec S1700000 1 := cmpi .slt main_arg3 main_v18
  let main_c_7 : IVec S_ 1 := constantI S_ 1 1#1
  let main_v20 : IVec S_ 1 := (fun x v => Host.reduce IntOp.andi x v reducesTo_S1700000_S_d0 h_S_) main_v19 main_c_7
  let main_v21 : IVec S_ 1 := andi main_v17 main_v20
  main_v21

def fn {F : FTy → Type} [FloatOps F] (main_arg0 : FVec F S100000x128 .f32) (main_arg1 : FVec F S128x128 .f32) (main_arg2 : FVec F S128 .f32) (main_arg3 : IVec S1700000 32) (main_arg4 : IVec S1700000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 0#32
  let main_v14 : IVec S1700000 32 := broadcastInDim S1700000 ![] bcast_S_S1700000 main_c_4
  let main_v15 : IVec S1700000 1 := cmpi .sge main_arg3 main_v14
  let main_c_5 : IVec S_ 1 := constantI S_ 1 1#1
  fn_part1 (F := F) main_arg3 main_v13 main_v15 main_c_5
-- ==== Kernel.lean ====
abbrev S100000x128 : Shape := ⟨2, ![100000, 128]⟩
abbrev S128x128 : Shape := ⟨2, ![128, 128]⟩
abbrev S128 : Shape := ⟨1, ![128]⟩
abbrev S1700000 : Shape := ⟨1, ![1700000]⟩
abbrev S_ : Shape := ⟨0, ![]⟩
abbrev S100000 : Shape := ⟨1, ![100000]⟩
abbrev S1700000x1 : Shape := ⟨2, ![1700000, 1]⟩
abbrev S100000x1 : Shape := ⟨2, ![100000, 1]⟩
abbrev S3936 : Shape := ⟨1, ![3936]⟩
abbrev S1703936 : Shape := ⟨1, ![1703936]⟩
abbrev S2000x128 : Shape := ⟨2, ![2000, 128]⟩
abbrev S1703936x128 : Shape := ⟨2, ![1703936, 128]⟩
abbrev S4096 : Shape := ⟨1, ![4096]⟩
abbrev S4096x128 : Shape := ⟨2, ![4096, 128]⟩
abbrev S4096x1 : Shape := ⟨2, ![4096, 1]⟩
abbrev S1x2000 : Shape := ⟨2, ![1, 2000]⟩
abbrev S4096x2000 : Shape := ⟨2, ![4096, 2000]⟩
abbrev S2000x1 : Shape := ⟨2, ![2000, 1]⟩
abbrev S1x4096 : Shape := ⟨2, ![1, 4096]⟩
abbrev S2000x4096 : Shape := ⟨2, ![2000, 4096]⟩
abbrev S1x128 : Shape := ⟨2, ![1, 128]⟩

abbrev nBuf : Space → Nat
  | .hbm => 29
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S1700000, .i32⟩
  | .hbm, ⟨4, _⟩ => ⟨S1700000, .i32⟩
  | .hbm, ⟨5, _⟩ => ⟨S_, .f32⟩
  | .hbm, ⟨6, _⟩ => ⟨S1700000, .f32⟩
  | .hbm, ⟨7, _⟩ => ⟨S_, .f32⟩
  | .hbm, ⟨8, _⟩ => ⟨S100000, .f32⟩
  | .hbm, ⟨9, _⟩ => ⟨S1700000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S100000, .i1⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S3936, .i32⟩
  | .hbm, ⟨24, _⟩ => ⟨S1703936, .i32⟩
  | .hbm, ⟨25, _⟩ => ⟨S1703936, .i32⟩
  | .hbm, ⟨26, _⟩ => ⟨S100000x128, .bf16⟩
  | .hbm, ⟨27, _⟩ => ⟨S1703936x128, .bf16⟩
  | .hbm, ⟨28, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .bf16⟩
  | .local _ .vmem, ⟨4, _⟩ => ⟨S2000x128, .bf16⟩
  | .local _ .vmem, ⟨5, _⟩ => ⟨S4096, .i32⟩
  | .local _ .vmem, ⟨6, _⟩ => ⟨S4096, .i32⟩
  | .local _ .vmem, ⟨7, _⟩ => ⟨S2000x128, .bf16⟩
  | .local _ .vmem, ⟨8, _⟩ => ⟨S2000x128, .bf16⟩
  | .local _ .vmem, ⟨9, _⟩ => ⟨S4096x128, .bf16⟩
  | .local _ .vmem, ⟨10, _⟩ => ⟨S4096x128, .bf16⟩
  | .local _ .vmem, ⟨11, _⟩ => ⟨S4096x128, .f32⟩
  | .local _ .vmem, ⟨12, _⟩ => ⟨S4096, .i32⟩
  | .local _ .vmem, ⟨13, _⟩ => ⟨S4096, .i32⟩
  | .local _ .vmem, ⟨14, _⟩ => ⟨S4096x128, .bf16⟩
  | .local _ .vmem, ⟨15, _⟩ => ⟨S4096x128, .bf16⟩
  | .local _ .vmem, ⟨16, _⟩ => ⟨S2000x1, .f32⟩
  | .local _ .vmem, ⟨17, _⟩ => ⟨S2000x1, .f32⟩
  | .local _ .vmem, ⟨18, _⟩ => ⟨S128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_call0_v0 : Ref sig .tc := ⟨.hbm, 18, rfl⟩
abbrev main_call0_v1 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc2_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem4_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![416, 50], ![false, false]⟩

def k1_cond2 (i : grid1.Coords) : BitVec 1 :=
  let arg1 : BitVec 32 := BitVec.ofNat 32 (i 1).val
  let c49_i32 : BitVec 32 := 49#32
  let v24 : BitVec 1 := Scalar.cmpi .eq arg1 c49_i32
  let v25 : BitVec 32 := Scalar.extui v24
  let c0_i32_7 : BitVec 32 := 0#32
  let v26 : BitVec 1 := Scalar.cmpi .ne v25 c0_i32_7
  v26

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![50, 416], ![false, false]⟩

def k2_cond2 (i : grid2.Coords) : BitVec 1 :=
  let arg1 : BitVec 32 := BitVec.ofNat 32 (i 1).val
  let c415_i32 : BitVec 32 := 415#32
  let v24 : BitVec 1 := Scalar.cmpi .eq arg1 c415_i32
  let v25 : BitVec 32 := Scalar.extui v24
  let c0_i32_7 : BitVec 32 := 0#32
  let v26 : BitVec 1 := Scalar.cmpi .ne v25 c0_i32_7
  v26

def cc2_transform_0 (i : grid2.Coords) : Fin 1 → Nat :=
  let arg0 : BitVec 32 := BitVec.ofNat 32 (i 0).val
  let arg1 : BitVec 32 := BitVec.ofNat 32 (i 1).val
  let c0_i32 : BitVec 32 := 0#32
  ![arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S4096 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S4096x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S_S3936 : S_.BroadcastsInDim S3936 (![] : Fin 0 → Fin S3936.rank)
  concatenates_S1700000_S3936_S1703936_d0 : Shape.Concatenates [S1700000, S3936] S1703936 0
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S2000x128_S2000x128_0_0 : (Rect.unit (s := S2000x128) ![0, 0] S2000x128.size inb_S2000x128_S2000x128_0_0).PackedRows (EltTy.packing .bf16)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096_S4096_0 : ∀ a, (![0] : Fin 1 → Nat) a + S4096.size a ≤ S4096.size a
  h_S4096 : 0 < S4096.numel
  shapeCasts_S4096_S4096 : S4096.ShapeCasts S4096
  shapeCasts_S4096_S4096x1 : S4096.ShapeCasts S4096x1
  iota_S1x2000_d1_w32 : S1x2000.Iotas .tc 32 [1]
  broadcasts_S4096x1_S4096x2000 : S4096x1.Broadcasts S4096x2000
  broadcasts_S1x2000_S4096x2000 : S1x2000.Broadcasts S4096x2000
  natLt_1_32 : 1 < 32
  shapeCasts_S2000x128_S2000x128 : S2000x128.ShapeCasts S2000x128
  packedbf16_S4096x128_S4096x128_0_0 : (Rect.unit (s := S4096x128) ![0, 0] S4096x128.size inb_S4096x128_S4096x128_0_0).PackedRows (EltTy.packing .bf16)
  shapeCasts_S4096_S1x4096 : S4096.ShapeCasts S1x4096
  iota_S2000x1_d0_w32 : S2000x1.Iotas .tc 32 [0]
  broadcasts_S2000x1_S2000x4096 : S2000x1.Broadcasts S2000x4096
  broadcasts_S1x4096_S2000x4096 : S1x4096.Broadcasts S2000x4096
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  scatter_S100000_S1700000x1_S1700000_n_0_0_1_wf : ScatterDims.WF S100000 S1700000x1 S1700000 [] [0] [0] 1
  dot_S2000x128_S128x128_S2000x128_1_0_0_1_n_n_wf : DotDims.WF S2000x128 S128x128 S2000x128 [1] [0] [0] [1] [] []
  dot_S4096x2000_S2000x128_S4096x128_1_0_0_1_n_n_wf : DotDims.WF S4096x2000 S2000x128 S4096x128 [1] [0] [0] [1] [] []
  dot_S2000x4096_S4096x128_S2000x128_1_0_0_1_n_n_wf : DotDims.WF S2000x4096 S4096x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .bf16 = 32 ∨ (Rect.block (s := S100000x128) S2000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096.size a ≤ S1703936.size a
  hwx1_0 : ∀ i : grid1.Coords, EltTy.bits .i32 = 32 ∨ (Rect.block (s := S1703936) S4096.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .bf16 = 32 ∨ (Rect.block (s := S100000x128) S2000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S1703936x128.size a
  hwx1_2 : ∀ i : grid1.Coords, EltTy.bits .bf16 = 32 ∨ (Rect.block (s := S1703936x128) S4096x128.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096.size a ≤ S1703936.size a
  hwx2_0 : ∀ i : grid2.Coords, EltTy.bits .i32 = 32 ∨ (Rect.block (s := S1703936) S4096.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S1703936x128.size a
  hwx2_1 : ∀ i : grid2.Coords, EltTy.bits .bf16 = 32 ∨ (Rect.block (s := S1703936x128) S4096x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S100000x128.size a
  hwx2_4 : ∀ i : grid2.Coords, EltTy.bits .f32 = 32 ∨ (Rect.block (s := S100000x128) S2000x128.size (cc2_transform_4 i) (hinb2_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S4096x2000_S2000x128_S4096x128_1_0_0_1_n_n : DotDims S4096x2000 S2000x128 S4096x128 where
  lhsContracting := [1]
  rhsContracting := [0]
  lhsNonContracting := [0]
  rhsNonContracting := [1]
  lhsBatch := []
  rhsBatch := []
  wf := dot_S4096x2000_S2000x128_S4096x128_1_0_0_1_n_n_wf
def dot_S2000x4096_S4096x128_S2000x128_1_0_0_1_n_n : DotDims S2000x4096 S4096x128 S2000x128 where
  lhsContracting := [1]
  rhsContracting := [0]
  lhsNonContracting := [0]
  rhsNonContracting := [1]
  lhsBatch := []
  rhsBatch := []
  wf := dot_S2000x4096_S4096x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v11) S4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S4096x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v12) S4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S4096x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg2) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v15) S2000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 36
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S1700000, .i32⟩
  | .hbm, ⟨4, _⟩ => ⟨S1700000, .i32⟩
  | .hbm, ⟨5, _⟩ => ⟨S_, .i32⟩
  | .hbm, ⟨6, _⟩ => ⟨S1700000, .i32⟩
  | .hbm, ⟨7, _⟩ => ⟨S1700000, .i1⟩
  | .hbm, ⟨8, _⟩ => ⟨S_, .i32⟩
  | .hbm, ⟨9, _⟩ => ⟨S1700000, .i32⟩
  | .hbm, ⟨10, _⟩ => ⟨S1700000, .i32⟩
  | .hbm, ⟨11, _⟩ => ⟨S1700000, .i32⟩
  | .hbm, ⟨12, _⟩ => ⟨S1700000x1, .i32⟩
  | .hbm, ⟨13, _⟩ => ⟨S1700000x128, .f32⟩
  | .hbm, ⟨14, _⟩ => ⟨S_, .f32⟩
  | .hbm, ⟨15, _⟩ => ⟨S100000x128, .f32⟩
  | .hbm, ⟨16, _⟩ => ⟨S1700000x1, .i32⟩
  | .hbm, ⟨17, _⟩ => ⟨S100000x128, .f32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S100000_S1700000x1_S1700000_n_0_0_1_wf : ScatterDims.WF S100000 S1700000x1 S1700000 [] [0] [0] 1
  dot_S100000x128_S128x128_S100000x128_1_0_0_1_n_n_wf : DotDims.WF S100000x128 S128x128 S100000x128 [1] [0] [0] [1] [] []

variable [Facts₀]

def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.K.Dat.lean ====
/-
  The proof data of the idealized kernel's three pipelines, each at a parameter `V`: the TensorCore's buffer
  contents when the region is entered.

  Region 0 (the projection) stores, at every point, the payload of its two input blocks.
  Region 1 (the gather) keeps a scratch accumulator across the 50 node chunks of one edge block: at chunk 0 it is
  reset to zero and the chunk's one-hot product added, at a later chunk the product is added to what the chunk before
  left; the output block is the accumulator after the last chunk, and the output window is idle before that.
  Region 2 (the scatter) does the same across the 416 edge blocks of one node chunk, and its output is the
  accumulator after the last block scaled by the node factors plus the bias.
  `sAt1` / `sAt2` say what the scratch holds after each point, by recursion on the point; the invariant before a point
  that is not the first holds the scratch at that, and the other scoped buffers as the scoped rest with the scratch taken out.
-/
import proofs.«419787_j49813030699305_2_alg».proof.Proof.Gen.Kernel.Launch
import proofs.«419787_j49813030699305_2_alg».proof.Proof.Gen.Kernel.Skeleton
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Frame

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: the projection -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- After the body at point `t`: the inputs at their blocks, the output at the payload of the two. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (iblk0 V c 0 t) (iblk0 V c 1 t) := by dsimp only [dat0]

/-! ## Region 1: the gather -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch accumulator of region 1, whole. -/
abbrev scM1 : Memref sig .tc .vmem S4096x128 .f32 := Memref.whole cc1_scratch0

/-- What the accumulator holds after the body at position `n`: the chunk's product added to zero at the first chunk
    of an edge block, to what the position before left otherwise. -/
def sAt1 (c : Dev nD) : (n : ℕ) → n < cfg1.N → Vec F S4096x128 .f32
  | 0, hn => k1_pay2 (grid1.coords ⟨0, hn⟩) (iblk1 V c 0 ⟨0, hn⟩) (iblk1 V c 1 ⟨0, hn⟩) k1_pay1
  | n + 1, hn =>
    k1_pay2 (grid1.coords ⟨n + 1, hn⟩) (iblk1 V c 0 ⟨n + 1, hn⟩) (iblk1 V c 1 ⟨n + 1, hn⟩)
      (if (n + 1) % 50 = 0 then k1_pay1 else sAt1 c n (Nat.lt_of_succ_lt hn))

theorem sAt1_reset (c : Dev nD) (t : Fin cfg1.N) (h : t.val % 50 = 0) :
    sAt1 V c t.val t.isLt = k1_pay2 (grid1.coords t) (iblk1 V c 0 t) (iblk1 V c 1 t) k1_pay1 := by
  obtain ⟨n, hn⟩ := t
  cases n with
  | zero => rfl
  | succ n => exact congrArg (k1_pay2 _ _ _) (if_pos h)

theorem sAt1_acc (c : Dev nD) (t : Fin cfg1.N) (h : ¬ t.val % 50 = 0) :
    sAt1 V c t.val t.isLt = k1_pay2 (grid1.coords t) (iblk1 V c 0 t) (iblk1 V c 1 t)
      (sAt1 V c (t.val - 1) (Nat.lt_of_le_of_lt (Nat.sub_le _ _) t.isLt)) := by
  obtain ⟨n, hn⟩ := t
  cases n with
  | zero => exact absurd (Nat.zero_mod _) h
  | succ n => exact congrArg (k1_pay2 _ _ _) (if_neg h)

/-- The invariant before position `n`: the class's before the first point; afterwards the accumulator at what the
    position before left, the other scoped buffers (the scoped rest with the accumulator taken out), the generator register. -/
def PhiS1 (c : Dev nD) : (n : ℕ) → n ≤ cfg1.N → sProp 𝕄
  | 0, _ => Pipeline.ΦA spec1 c
  | n + 1, hn => iprop(owns (c : Thread nD τ) scM1 fullShare (sAt1 V c n hn)
      ∗ (iprop(∃ f, owns (c : Thread nD τ) scM1 fullShare f) -∗ Pipeline.scopedRest (Ix := Unit) (Name := ℕ) (U := UR sig nD τ) (Lvl := ℕ) (Val := Elt F) spec1 c)
      ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare (sAt1 V c n hn)
      ∗ (iprop(∃ f, owns (c : Thread nD τ) scM1 fullShare f) -∗ Pipeline.scopedRest (Ix := Unit) (Name := ℕ) (U := UR sig nD τ) (Lvl := ℕ) (Val := Elt F) spec1 c)
      ∗ (∃ r, prngReg c r)) := rfl

theorem PhiS1_pos (c : Dev nD) (n : ℕ) (h : n ≤ cfg1.N) (hz : n ≠ 0) :
    PhiS1 V c n h = iprop(owns (c : Thread nD τ) scM1 fullShare (sAt1 V c (n - 1) (by omega))
      ∗ (iprop(∃ f, owns (c : Thread nD τ) scM1 fullShare f) -∗ Pipeline.scopedRest (Ix := Unit) (Name := ℕ) (U := UR sig nD τ) (Lvl := ℕ) (Val := Elt F) spec1 c)
      ∗ (∃ r, prngReg c r)) := by
  cases n with
  | zero => exact absurd rfl hz
  | succ n => rfl

/-- After the body at point `t`: the inputs at their blocks; the output at the accumulator's payload (read only where the
    window is live: after the last chunk of an edge block). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (sAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (sAt1 V c t.val t.isLt) := by dsimp only [dat1]
theorem Phi1_castSucc (c : Dev nD) (t : Fin cfg1.N) :
    (dat1 V c).Φ t.castSucc = PhiS1 V c t.val (Nat.le_of_lt t.isLt) := by
  dsimp only [dat1]; simp only [Fin.coe_castSucc]
theorem Phi1_succ (c : Dev nD) (t : Fin cfg1.N) :
    (dat1 V c).Φ t.succ = PhiS1 V c (t.val + 1) t.isLt := rfl

/-! ## Region 2: the scatter -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The scratch accumulator of region 2, whole. -/
abbrev scM2 : Memref sig .tc .vmem S2000x128 .f32 := Memref.whole cc2_scratch0

/-- What the accumulator holds after the body at position `n`: the edge block's product added to zero at the first
    block of a node chunk, to what the position before left otherwise. -/
def sAt2 (c : Dev nD) : (n : ℕ) → n < cfg2.N → Vec F S2000x128 .f32
  | 0, hn => k2_pay2 (grid2.coords ⟨0, hn⟩) (iblk2 V c 0 ⟨0, hn⟩) (iblk2 V c 1 ⟨0, hn⟩) k2_pay1
  | n + 1, hn =>
    k2_pay2 (grid2.coords ⟨n + 1, hn⟩) (iblk2 V c 0 ⟨n + 1, hn⟩) (iblk2 V c 1 ⟨n + 1, hn⟩)
      (if (n + 1) % 416 = 0 then k2_pay1 else sAt2 c n (Nat.lt_of_succ_lt hn))

theorem sAt2_reset (c : Dev nD) (t : Fin cfg2.N) (h : t.val % 416 = 0) :
    sAt2 V c t.val t.isLt = k2_pay2 (grid2.coords t) (iblk2 V c 0 t) (iblk2 V c 1 t) k2_pay1 := by
  obtain ⟨n, hn⟩ := t
  cases n with
  | zero => rfl
  | succ n => exact congrArg (k2_pay2 _ _ _) (if_pos h)

theorem sAt2_acc (c : Dev nD) (t : Fin cfg2.N) (h : ¬ t.val % 416 = 0) :
    sAt2 V c t.val t.isLt = k2_pay2 (grid2.coords t) (iblk2 V c 0 t) (iblk2 V c 1 t)
      (sAt2 V c (t.val - 1) (Nat.lt_of_le_of_lt (Nat.sub_le _ _) t.isLt)) := by
  obtain ⟨n, hn⟩ := t
  cases n with
  | zero => exact absurd (Nat.zero_mod _) h
  | succ n => exact congrArg (k2_pay2 _ _ _) (if_neg h)

def PhiS2 (c : Dev nD) : (n : ℕ) → n ≤ cfg2.N → sProp 𝕄
  | 0, _ => Pipeline.ΦA spec2 c
  | n + 1, hn => iprop(owns (c : Thread nD τ) scM2 fullShare (sAt2 V c n hn)
      ∗ (iprop(∃ f, owns (c : Thread nD τ) scM2 fullShare f) -∗ Pipeline.scopedRest (Ix := Unit) (Name := ℕ) (U := UR sig nD τ) (Lvl := ℕ) (Val := Elt F) spec2 c)
      ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(owns (c : Thread nD τ) scM2 fullShare (sAt2 V c n hn)
      ∗ (iprop(∃ f, owns (c : Thread nD τ) scM2 fullShare f) -∗ Pipeline.scopedRest (Ix := Unit) (Name := ℕ) (U := UR sig nD τ) (Lvl := ℕ) (Val := Elt F) spec2 c)
      ∗ (∃ r, prngReg c r)) := rfl

theorem PhiS2_pos (c : Dev nD) (n : ℕ) (h : n ≤ cfg2.N) (hz : n ≠ 0) :
    PhiS2 V c n h = iprop(owns (c : Thread nD τ) scM2 fullShare (sAt2 V c (n - 1) (by omega))
      ∗ (iprop(∃ f, owns (c : Thread nD τ) scM2 fullShare f) -∗ Pipeline.scopedRest (Ix := Unit) (Name := ℕ) (U := UR sig nD τ) (Lvl := ℕ) (Val := Elt F) spec2 c)
      ∗ (∃ r, prngReg c r)) := by
  cases n with
  | zero => exact absurd rfl hz
  | succ n => rfl

/-- After the body at point `t`: the inputs at their blocks; the output at the payload of the node factors' block, the
    accumulator and the bias (read only where the window is live: after the last edge block of a node chunk). -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay3 (iblk2 V c 2 t) (sAt2 V c t.val t.isLt) (iblk2 V c 3 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = k2_pay3 (iblk2 V c 2 t) (sAt2 V c t.val t.isLt) (iblk2 V c 3 t) := by dsimp only [dat2]
theorem Phi2_castSucc (c : Dev nD) (t : Fin cfg2.N) :
    (dat2 V c).Φ t.castSucc = PhiS2 V c t.val (Nat.le_of_lt t.isLt) := by
  dsimp only [dat2]; simp only [Fin.coe_castSucc]
theorem Phi2_succ (c : Dev nD) (t : Fin cfg2.N) :
    (dat2 V c).Φ t.succ = PhiS2 V c (t.val + 1) t.isLt := rfl

end Cert.Kernel.Frame

end
-- ==== Proof.K.Fold.lean ====
/-
  The TensorCore's buffer contents at each boundary of the idealized kernel's @main: the launch memory, then each of
  the three stretches of host operations applied, then each region's arrays at what its write-backs leave.
-/
import proofs.«419787_j49813030699305_2_alg».proof.Proof.K.Dat

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s buffers at launch. -/
abbrev W0 (c : Dev nD) : Valuation τ sig (Elt F) := fun b => m (c, b)
/-- After the first stretch (the degree histogram and its reciprocal). -/
abbrev W1 (c : Dev nD) : Valuation τ sig (Elt F) := StableHlo.after hostOps0 (W0 m c)
/-- After the second stretch (the guarded select). -/
abbrev W2 (c : Dev nD) : Valuation τ sig (Elt F) := StableHlo.after hostOps0_1 (W1 m c)
/-- After the third stretch (the padded edge lists): region 0's entry. -/
abbrev W3 (c : Dev nD) : Valuation τ sig (Elt F) := StableHlo.after hostOps0_2 (W2 m c)
/-- The same read at the TensorCore's references. -/
abbrev V3 : (c : Dev nD) → (b : Ref sig .tc) → Buf (Elt F) ((c : Thread nD τ).loc b) := fun c b => W3 m c b
/-- At region 0's exit: its arrays at what the pipeline leaves, every other buffer as entered. -/
def W4 (c : Dev nD) : Valuation τ sig (Elt F) :=
  Pipeline.withArrays spec0 c (W3 m c) fun w => (dat0 (V3 m) c).arrAt w cfg0.N
abbrev V4 : (c : Dev nD) → (b : Ref sig .tc) → Buf (Elt F) ((c : Thread nD τ).loc b) := fun c b => W4 m c b
/-- At region 1's exit. -/
def W5 (c : Dev nD) : Valuation τ sig (Elt F) :=
  Pipeline.withArrays spec1 c (W4 m c) fun w => (dat1 (V4 m) c).arrAt w cfg1.N
abbrev V5 : (c : Dev nD) → (b : Ref sig .tc) → Buf (Elt F) ((c : Thread nD τ).loc b) := fun c b => W5 m c b
/-- At region 2's exit: the end of @main. -/
def W6 (c : Dev nD) : Valuation τ sig (Elt F) :=
  Pipeline.withArrays spec2 c (W5 m c) fun w => (dat2 (V5 m) c).arrAt w cfg2.N
abbrev V6 : (c : Dev nD) → (b : Ref sig .tc) → Buf (Elt F) ((c : Thread nD τ).loc b) := fun c b => W6 m c b

end Cert.Kernel.Frame

end
-- ==== Proof.K.FoldLemmas.lean ====
/- What the boundaries' contents hold at the buffers the certificate reads: each region's result at what its pipeline
   leaves, every other buffer handed on unchanged, the arguments as launched. -/
import proofs.«419787_j49813030699305_2_alg».proof.Proof.K.Fold
import proofs.«419787_j49813030699305_2_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## A host stretch leaves every buffer it does not write -/

theorem W1_of (c : Dev nD) (r : Ref sig .tc) (h : r ∉ hostOps0_W) :
    W1 m c (Proc.devRef .tc r) = W0 m c (Proc.devRef .tc r) :=
  StableHlo.after_of_writes_sub hostOps0 _ hostOps0_writes h
theorem W2_of (c : Dev nD) (r : Ref sig .tc) (h : r ∉ hostOps0_1_W) :
    W2 m c (Proc.devRef .tc r) = W1 m c (Proc.devRef .tc r) :=
  StableHlo.after_of_writes_sub hostOps0_1 _ hostOps0_1_writes h
theorem W3_of (c : Dev nD) (r : Ref sig .tc) (h : r ∉ hostOps0_2_W) :
    W3 m c (Proc.devRef .tc r) = W2 m c (Proc.devRef .tc r) :=
  StableHlo.after_of_writes_sub hostOps0_2 _ hostOps0_2_writes h

/-- A buffer none of the three stretches writes is, at region 0's entry, as launched. -/
theorem W3_launch (c : Dev nD) (r : Ref sig .tc) (h0 : r ∉ hostOps0_W) (h1 : r ∉ hostOps0_1_W) (h2 : r ∉ hostOps0_2_W) :
    W3 m c (Proc.devRef .tc r) = m ((c : Thread nD τ).loc r) :=
  (W3_of m c r h2).trans <| (W2_of m c r h1).trans <| (W1_of m c r h0).trans rfl

/-! ## A region leaves its arrays at what its write-backs fold to, and every other buffer as entered -/

theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb

/-- At a region's exit each of its arrays holds what the pipeline leaves and every other buffer what it held at entry. -/
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)
theorem hF1 (c : Dev nD) (w : Fin cfg1.W) : (dat1 (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ## The buffers the certificate reads -/

theorem W6_v15 (c : Dev nD) : W6 m c (Proc.devRef .tc main_v15) = (dat2 (V5 m) c).arrAt 4 cfg2.N := W6_arr m c 4
theorem V5_v14 (c : Dev nD) : V5 m c main_v14 = (dat1 (V4 m) c).arrAt 2 cfg1.N := W5_arr m c 2
theorem V4_v13 (c : Dev nD) : V4 m c main_v13 = (dat0 (V3 m) c).arrAt 2 cfg0.N := W4_arr m c 2
theorem V5_v12 (c : Dev nD) : V5 m c main_v12 = V3 m c main_v12 :=
  (W5_of_ne m c main_v12 (by decide)).trans (W4_of_ne m c main_v12 (by decide))
theorem V5_v9 (c : Dev nD) : V5 m c main_v9 = V3 m c main_v9 :=
  (W5_of_ne m c main_v9 (by decide)).trans (W4_of_ne m c main_v9 (by decide))
theorem V5_arg2 (c : Dev nD) : V5 m c main_arg2 = m ((c : Thread nD τ).loc main_arg2) :=
  (W5_of_ne m c main_arg2 (by decide)).trans <| (W4_of_ne m c main_arg2 (by decide)).trans <|
    W3_launch m c main_arg2 (by decide) (by decide) (by decide)
theorem V4_v11 (c : Dev nD) : V4 m c main_v11 = V3 m c main_v11 := W4_of_ne m c main_v11 (by decide)
theorem V3_arg0 (c : Dev nD) : V3 m c main_arg0 = m ((c : Thread nD τ).loc main_arg0) :=
  W3_launch m c main_arg0 (by decide) (by decide) (by decide)
theorem V3_arg1 (c : Dev nD) : V3 m c main_arg1 = m ((c : Thread nD τ).loc main_arg1) :=
  W3_launch m c main_arg1 (by decide) (by decide) (by decide)
/-- Region 0 reads `main_arg0` through an input window: its array is left as entered. -/
theorem W6_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := W5_of_ne m c main_arg0 (by decide)
    _ = W3 m c (Proc.devRef .tc main_arg0) :=
        (W4_arr m c 0).trans (((dat0 (V3 m) c).arrAt_in 0 rfl _).trans (A_eq0 (V3 m) c 0))
    _ = m ((c : Thread nD τ).loc main_arg0) := V3_arg0 m c
theorem W6_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := W5_of_ne m c main_arg1 (by decide)
    _ = W3 m c (Proc.devRef .tc main_arg1) :=
        (W4_arr m c 1).trans (((dat0 (V3 m) c).arrAt_in 1 rfl _).trans (A_eq0 (V3 m) c 1))
    _ = m ((c : Thread nD τ).loc main_arg1) := V3_arg1 m c
/-- Region 2 reads `main_arg2` through an input window. -/
theorem W6_arg2 (c : Dev nD) : W6 m c (Proc.devRef .tc main_arg2) = m ((c : Thread nD τ).loc main_arg2) :=
  calc W6 m c (Proc.devRef .tc main_arg2)
    _ = W5 m c (Proc.devRef .tc main_arg2) :=
        (W6_arr m c 3).trans (((dat2 (V5 m) c).arrAt_in 3 rfl _).trans (A_eq2 (V5 m) c 3))
    _ = m ((c : Thread nD τ).loc main_arg2) := V5_arg2 m c
theorem W6_arg3 (c : Dev nD) : W6 m c (Proc.devRef .tc main_arg3) = m ((c : Thread nD τ).loc main_arg3) :=
  (W6_of_ne m c main_arg3 (by decide)).trans <| (W5_of_ne m c main_arg3 (by decide)).trans <|
    (W4_of_ne m c main_arg3 (by decide)).trans <| W3_launch m c main_arg3 (by decide) (by decide) (by decide)
theorem W6_arg4 (c : Dev nD) : W6 m c (Proc.devRef .tc main_arg4) = m ((c : Thread nD τ).loc main_arg4) :=
  (W6_of_ne m c main_arg4 (by decide)).trans <| (W5_of_ne m c main_arg4 (by decide)).trans <|
    (W4_of_ne m c main_arg4 (by decide)).trans <| W3_launch m c main_arg4 (by decide) (by decide) (by decide)

end Cert.Kernel.Frame

end
-- ==== Proof.K.Oblig0.lean ====
/- Region 0's body obligation. -/
import proofs.«419787_j49813030699305_2_alg».proof.Proof.K.Dat
import proofs.«419787_j49813030699305_2_alg».proof.Proof.Gen.Kernel.Points
import Idealize.ShloMosaic.Lib.Pipeline.Value
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the input windows' buffers hold before the body -/

/-- Input window 0 (fetched at every point) holds its block at every point: the window is uncut and never idle, and the
    body leaves its block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (fetched at the first point only) holds its block at every point, fetched there or not: its block
    index never moves, the window is uncut and never idle, and the body leaves its block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

/-! ## The body's one store -/

/-- The whole rectangle of the output buffer: the body's one store writes it. -/
abbrev rOut0 : Rect S2000x128 := Rect.unit (s := S2000x128) ![0, 0] S2000x128.size inb_S2000x128_S2000x128_0_0

/-- The one store tiles the output buffer, so it covers it. -/
theorem cover0_2 (p0 : Vec F S2000x128 .bf16) (y : S2000x128.Idx) :
    ∃ pc ∈ ([⟨rOut0, p0⟩] : List (View.Piece (Elt F) S2000x128 .bf16)), y ∈ pc.1.set :=
  View.cover_of_tiled [⟨rOut0, p0⟩] S2000x128.size (by rfl) y

/-- The origin of a rank-2 shape, as the constant-zero index. -/
theorem hz0 : (![0, 0] : Fin 2 → Nat) = fun _ => 0 := funext fun a => by fin_cases a <;> rfl

/-! ## The body's triple -/

set_option maxHeartbeats 1000000 in
/-- The kernel body on whole staging memrefs, the two inputs' at read contents and the output's at anything, runs to the
    continuation holding the inputs' as they were and the output's at the payload of the two inputs. -/
theorem sound_kernel0 (c : Dev nD) (E : Set ℕ) (i : grid0.Coords)
    (arg1 : Memref sig .tc .vmem S2000x128 .f32) (harg1 : arg1.IsWhole)
    (arg2 : Memref sig .tc .vmem S128x128 .f32) (harg2 : arg2.IsWhole)
    (arg3 : Memref sig .tc .vmem S2000x128 .bf16) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover0_2 _), View.canon_unit_zero hz0]
  simp only [View.readAt_eq_ld, View.ld_unit_zero (S := S2000x128) hz0, View.ld_unit_zero (S := S128x128) hz0]

/-! ## The body obligation, at a generic point -/

/-- What the body is called with at point `t`: the invariant, what the core owes, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What the body returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for region 0's proof data, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.K.Oblig1.lean ====
/-
  Region 1's body obligation.

  At grid point (edge block, node chunk) the gather body adds the chunk's one-hot product to a scratch accumulator that
  lives across the 50 chunks of one edge block: at chunk 0 it first resets the accumulator to zero, at chunk 49 it also
  stores the accumulator, rounded, whole into the output block's staging buffer. So a point is in one of three cases,
  told apart by the chunk coordinate `t mod 50`; each case's run of the body is proved once for any staging memrefs,
  with the accumulator's contents after it stated explicitly, and the obligation at a point is the case's run between
  the invariant before the point and the invariant after it.
-/
import proofs.«419787_j49813030699305_2_alg».proof.Proof.K.Dat
import proofs.«419787_j49813030699305_2_alg».proof.Proof.Gen.Kernel.Points
import Idealize.ShloMosaic.Lib.Pipeline.Value
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

namespace Obl1

/-! ## The body's two branch conditions, from the grid coordinates -/

/-- The condition of the reset: the chunk coordinate is 0. -/
abbrev cond1_0 (i : grid1.Coords) : Prop := (Scalar.cmpi .ne (Scalar.extui (Scalar.cmpi .eq (BitVec.ofNat 32 (i 1).val) 0#32)) 0#32) = 1#1
/-- The condition of the output store: the chunk coordinate is 49. -/
abbrev cond1_1 (i : grid1.Coords) : Prop := k1_cond2 i = 1#1

/-! ## The body on any staging memrefs, case by case

Every load and store of the body goes through the whole-shape rectangle at zero offsets, so a load reads the
buffer's contents and a store leaves its payload; a load of the accumulator after a store into it reads the payload
stored. -/

/-- Zero offsets, however spelt. -/
theorem hz1 : (![0] : Fin 1 → Nat) = fun _ => 0 := funext fun a => by fin_cases a <;> rfl
theorem hz2 : (![0, 0] : Fin 2 → Nat) = fun _ => 0 := funext fun a => by fin_cases a <;> rfl

set_option maxHeartbeats 1000000 in
/-- A middle chunk: the product of the chunk is added to what the accumulator held; the output buffer is not touched. -/
theorem run1_mid (c : Dev nD) (i : grid1.Coords) (arg2 : Memref sig .tc .vmem S4096 .i32) (harg2 : arg2.IsWhole) (arg3 : Memref sig .tc .vmem S2000x128 .bf16) (harg3 : arg3.IsWhole) (arg4 : Memref sig .tc .vmem S4096x128 .bf16) (harg4 : arg4.IsWhole) (arg5 : Memref sig .tc .vmem S4096x128 .f32) (harg5 : arg5.IsWhole)
    (hc0 : ¬cond1_0 i) (hc1 : ¬cond1_1 i)
    (x0 : Vec F S4096 .i32) (x1 : Vec F S2000x128 .bf16) (xs : Vec F S4096x128 .f32) (xi2 : Vec F S4096x128 .bf16) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs
        ∗ (iprop(owns (c : Thread nD τ) arg2 fullShare x0 ∗ owns (c : Thread nD τ) arg3 fullShare x1 ∗ owns (c : Thread nD τ) arg4 fullShare xi2 ∗ owns (c : Thread nD τ) arg5 fullShare (k1_pay2 i x0 x1 xs)) -∗ K ⟨⟩))
      ⊢ wp frame (wpE (defs₀ (F := F)) Variants.none c none) E (cc1__gather_kernel i arg2 harg2 arg3 harg3 arg4 harg4 arg5 harg5) K := by
  simp only [cc1__gather_kernel_eq_skeleton]; unfold cc1__gather_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  iexists _; isplitr
  swap; · iexact HS
  ipureintro
  rw [View.read_writes_eq_canon _ _ _ (fun y => ⟨_, List.mem_singleton_self _, View.mem_set_unit_zero hz2 inb_S4096x128_S4096x128_0_0 y⟩), View.canon_unit_zero hz2]
  simp only [View.readAt_eq_ld, harg2.read_unread, harg3.read_unread, harg5.read_unread, View.ld_unit_zero (S := S4096) hz1, View.ld_unit_zero (S := S2000x128) hz2, View.ld_unit_zero (S := S4096x128) hz2]

set_option maxHeartbeats 1000000 in
/-- The first chunk of an edge block: the accumulator is zeroed, then the chunk's product added; the output buffer is not touched. -/
theorem run1_first (c : Dev nD) (i : grid1.Coords) (arg2 : Memref sig .tc .vmem S4096 .i32) (harg2 : arg2.IsWhole) (arg3 : Memref sig .tc .vmem S2000x128 .bf16) (harg3 : arg3.IsWhole) (arg4 : Memref sig .tc .vmem S4096x128 .bf16) (harg4 : arg4.IsWhole) (arg5 : Memref sig .tc .vmem S4096x128 .f32) (harg5 : arg5.IsWhole)
    (hc0 : cond1_0 i) (hc1 : ¬cond1_1 i)
    (x0 : Vec F S4096 .i32) (x1 : Vec F S2000x128 .bf16) (xi2 : Vec F S4096x128 .bf16) (E : Set ℕ) (K : PUnit → sProp 𝕄) :
    iprop(owns (c : Thread nD τ) arg2 fullShare x0 ∗ owns (c : Thread nD τ) arg3 fullShare x1 ∗ owns (c : Thread nD τ) arg4 fullShare xi2 ∗ (∃ d, owns (c : Thread nD τ) arg5 fullShare d)
        ∗ (iprop(owns (c : Thread nD τ) arg2 fullShare x0 ∗ owns (c : Thread nD τ) arg3 fullShare x1 ∗ owns (c : Thread nD τ) arg4 fullShare xi2 ∗ owns (c : Thread nD τ) arg5 fullShare (k1_pay2 i x0 x1 k1_pay1)) -∗ K ⟨⟩))
      ⊢ wp frame (wpE (defs₀ (F := F)) Variants.none c none) E (cc1__gather_kernel i arg2 harg2 arg3 harg3 arg4 harg4 arg5 harg5) K := by
  simp only [cc1__gather_kernel_eq_skeleton]; unfold cc1__gather_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  iexists _; isplitr
  swap; · iexact HS
  ipureintro
  sl_unfold_words
  rw [View.read_writes_eq_canon _ _ _ (fun y => ⟨_, List.mem_cons.mpr (Or.inl rfl), View.mem_set_unit_zero hz2 inb_S4096x128_S4096x128_0_0 y⟩), View.canon_cons_unit_zero (S := S4096x128) hz2]
  simp only [View.readAt_eq_ld, harg2.read_unread, harg3.read_unread, View.ld_unit_zero (S := S4096) hz1, View.ld_unit_zero (S := S2000x128) hz2, View.readCov_unit_zero (S := S4096x128) _ hz2]

set_option maxHeartbeats 1000000 in
/-- The last chunk of an edge block: the chunk's product is added to the accumulator, and the accumulator, rounded, stored whole into the output buffer. -/
theorem run1_last (c : Dev nD) (i : grid1.Coords) (arg2 : Memref sig .tc .vmem S4096 .i32) (harg2 : arg2.IsWhole) (arg3 : Memref sig .tc .vmem S2000x128 .bf16) (harg3 : arg3.IsWhole) (arg4 : Memref sig .tc .vmem S4096x128 .bf16) (harg4 : arg4.IsWhole) (arg5 : Memref sig .tc .vmem S4096x128 .f32) (harg5 : arg5.IsWhole)
    (hc0 : ¬cond1_0 i) (hc1 : cond1_1 i)
    (x0 : Vec F S4096 .i32) (x1 : Vec F S2000x128 .bf16) (xs : Vec F S4096x128 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k1_pay3 (k1_pay2 i x0 x1 xs)) ∗ owns (c : Thread nD τ) arg5 fullShare (k1_pay2 i x0 x1 xs)) -∗ K ⟨⟩))
      ⊢ wp frame (wpE (defs₀ (F := F)) Variants.none c none) E (cc1__gather_kernel i arg2 harg2 arg3 harg3 arg4 harg4 arg5 harg5) K := by
  simp only [cc1__gather_kernel_eq_skeleton]; unfold cc1__gather_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (fun y => ⟨_, List.mem_singleton_self _, View.mem_set_unit_zero hz2 inb_S4096x128_S4096x128_0_0 y⟩), View.canon_unit_zero hz2]
    simp only [View.readAt_eq_ld, harg2.read_unread, harg3.read_unread, harg5.read_unread, View.ld_unit_zero (S := S4096) hz1, View.ld_unit_zero (S := S2000x128) hz2, View.ld_unit_zero (S := S4096x128) hz2, View.readCov_unit_zero (S := S4096x128) _ hz2]
  iexists _; isplitr
  swap; · iexact HS
  ipureintro
  sl_unfold_words
  rw [View.read_writes_eq_canon _ _ _ (fun y => ⟨_, List.mem_singleton_self _, View.mem_set_unit_zero hz2 inb_S4096x128_S4096x128_0_0 y⟩), View.canon_unit_zero hz2]
  simp only [View.readAt_eq_ld, harg2.read_unread, harg3.read_unread, harg5.read_unread, View.ld_unit_zero (S := S4096) hz1, View.ld_unit_zero (S := S2000x128) hz2, View.ld_unit_zero (S := S4096x128) hz2]

/-! ## The branch conditions in closed form -/

/-- The chunk coordinate of point `t` is `t mod 50`: the grid is walked with the chunk axis fastest. -/
theorem coord1_val (t : Fin grid1.N) : ((grid1.coords t) 1).val = t.val % 50 := by
  show t.val / grid1.stride 1 % 50 = t.val % 50
  rw [show grid1.stride 1 = 1 from by decide, Nat.div_one]

/-- The first condition, as a function of the chunk coordinate alone, holds at chunk 0 only; -/
theorem cond_first_iff : ∀ n : Fin 50, ((Scalar.cmpi .ne (Scalar.extui (Scalar.cmpi .eq (BitVec.ofNat 32 n.val) 0#32)) 0#32) = 1#1) ↔ n.val = 0 := by decide +kernel
/-- the last, at chunk 49 only. -/
theorem cond_last_iff : ∀ n : Fin 50, ((Scalar.cmpi .ne (Scalar.extui (Scalar.cmpi .eq (BitVec.ofNat 32 n.val) 49#32)) 0#32) = 1#1) ↔ n.val = 49 := by decide +kernel

theorem hcond1_0 (t : Fin cfg1.N) : cond1_0 (grid1.coords t) ↔ t.val % 50 = 0 := by
  have h := cond_first_iff ⟨t.val % 50, Nat.mod_lt _ (by decide)⟩
  show (Scalar.cmpi .ne (Scalar.extui (Scalar.cmpi .eq (BitVec.ofNat 32 ((grid1.coords t) 1).val) 0#32)) 0#32) = 1#1 ↔ _
  rw [coord1_val t]; exact h

theorem hcond1_1 (t : Fin cfg1.N) : cond1_1 (grid1.coords t) ↔ t.val % 50 = 49 := by
  have h := cond_last_iff ⟨t.val % 50, Nat.mod_lt _ (by decide)⟩
  show (Scalar.cmpi .ne (Scalar.extui (Scalar.cmpi .eq (BitVec.ofNat 32 ((grid1.coords t) 1).val) 49#32)) 0#32) = 1#1 ↔ _
  rw [coord1_val t]; exact h

/-! ## Where the windows are idle -/

theorem liveAt1_0 (t : Fin cfg1.N) : cfg1.idle 0 (grid1.coords t) = false := rfl
theorem liveAt1_1 (t : Fin cfg1.N) : cfg1.idle 1 (grid1.coords t) = false := rfl
/-- The output window is idle wherever the last condition fails, -/
theorem idleAt1_2 (t : Fin cfg1.N) (h : ¬cond1_1 (grid1.coords t)) : cfg1.idle 2 (grid1.coords t) = true := by
  show (!(k1_cond2 (grid1.coords t) == 1#1)) = true
  cases hb : (k1_cond2 (grid1.coords t) == 1#1)
  · rfl
  · exact absurd (eq_of_beq hb) h
/-- live where it holds, -/
theorem liveAt1_2 (t : Fin cfg1.N) (h : cond1_1 (grid1.coords t)) : cfg1.idle 2 (grid1.coords t) = false := by
  show (!(k1_cond2 (grid1.coords t) == 1#1)) = false
  rw [show k1_cond2 (grid1.coords t) = 1#1 from h]; rfl
/-- and not written back before the last chunk. -/
theorem noFlush1_2 (t : Fin cfg1.N) (h : ¬t.val % 50 = 49) : (cfg1.win 2).flush t = false :=
  Bool.eq_false_iff.mpr fun hf => h ((flush1_2 t).mp hf)

/-! ## The input windows hold their blocks -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-! ## The body obligation at a generic point -/

/-- Each window's current staging memref at point `t`, as the pipeline passes it to the body, and its wholeness. -/
abbrev ms1_0 (t : Fin cfg1.N) : Memref sig .tc .vmem S4096 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x128 .bf16 := win1_2.stage (cfg1.slots t 2)
abbrev hs1_2 (t : Fin cfg1.N) : (ms1_2 t).IsWhole := hstage1_2 ((cfg1.slots t 2).cast nbuf1_2)

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The input buffers hold their blocks; the chunk coordinate says which of the three cases the
    point is in. At the first point of the grid the accumulator, holding arbitrary contents, is taken out of the scoped
    rest, and the other fifteen scoped buffers are kept as the promise to give the scoped rest back in exchange for the
    accumulator with arbitrary contents; at a later point the invariant holds the accumulator with the contents the point
    before left, and that promise and the generator register pass through unchanged. After the body the accumulator holds
    the point's explicit contents; the output buffer is handed back as found before the last chunk, and holds the
    accumulator rounded after it. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1]
  rw [show (dat1 V c).owesAt () t.succ = (dat1 V c).owesAt () t.castSucc from rfl]
  rw [Phi1_succ, PhiS1_succ, Phi1_castSucc]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  by_cases h0 : t.val % 50 = 0
  · -- the first chunk of an edge block
    have h2 : ¬t.val % 50 = 49 := by omega
    have hc0 : cond1_0 (grid1.coords t) := (hcond1_0 t).mpr h0
    have hc1 : ¬cond1_1 (grid1.coords t) := fun h => h2 ((hcond1_1 t).mp h)
    rw [Dat.leavesExact_idle (dat1 V c) 2 t (idleAt1_2 t hc1) (noFlush1_2 t h2)]
    rw [sAt1_reset V c t h0]
    by_cases hz : t.val = 0
    · rw [PhiS1_zero V c _ _ hz]; unfold Pipeline.ΦA; rw [scopedRest1_eq]
      iintro ⟨⟨⟨B0, B1, B2, B3, B4, ⟨%fS, HS⟩, B6, B7, B8, B9, B10, B11, B12, B13, B14, B15⟩, Hg⟩, Ho, ⟨%d0, H0⟩, ⟨%d1, H1⟩, ⟨%d2, H2⟩⟩
      iapply (run1_first c (grid1.coords t) _ _ _ _ _ _ _ _ hc0 hc1 (iblk1 V c 0 t) (iblk1 V c 1 t) _ Set.univ _)
      isplitl [H0]; · iexact H0
      isplitl [H1]; · iexact H1
      isplitl [H2]; · iexact H2
      isplitl [HS]
      · iexists fS; simp only [scM1, owns_whole]; iexact HS
      iintro ⟨H0, H1, H2, HS⟩
      isplitr [Ho H0 H1 H2]
      · isplitl [HS]; · iexact HS
        isplitr [Hg]
        · simp only [scM1, owns_whole]
          iintro ⟨%fS', HS'⟩
          isplitl [B0]; · iexact B0
          isplitl [B1]; · iexact B1
          isplitl [B2]; · iexact B2
          isplitl [B3]; · iexact B3
          isplitl [B4]; · iexact B4
          isplitl [HS']; · iexists fS'; iexact HS'
          isplitl [B6]; · iexact B6
          isplitl [B7]; · iexact B7
          isplitl [B8]; · iexact B8
          isplitl [B9]; · iexact B9
          isplitl [B10]; · iexact B10
          isplitl [B11]; · iexact B11
          isplitl [B12]; · iexact B12
          isplitl [B13]; · iexact B13
          isplitl [B14]; · iexact B14
          iexact B15
        · iexact Hg
      isplitl [Ho]; · iexact Ho
      isplitl [H0]; · iexact H0
      isplitl [H1]; · iexact H1
      iexists _; iexact H2
    · rw [PhiS1_pos V c _ _ hz]
      iintro ⟨⟨HS, Hw, Hg⟩, Ho, ⟨%d0, H0⟩, ⟨%d1, H1⟩, ⟨%d2, H2⟩⟩
      iapply (run1_first c (grid1.coords t) _ _ _ _ _ _ _ _ hc0 hc1 (iblk1 V c 0 t) (iblk1 V c 1 t) _ Set.univ _)
      isplitl [H0]; · iexact H0
      isplitl [H1]; · iexact H1
      isplitl [H2]; · iexact H2
      isplitl [HS]; · iexists _; iexact HS
      iintro ⟨H0, H1, H2, HS⟩
      isplitl [HS Hw Hg]
      · isplitl [HS]; · iexact HS
        isplitl [Hw]; · iexact Hw
        iexact Hg
      isplitl [Ho]; · iexact Ho
      isplitl [H0]; · iexact H0
      isplitl [H1]; · iexact H1
      iexists _; iexact H2
  · have hz : t.val ≠ 0 := fun e => h0 (by rw [e])
    have hc0 : ¬cond1_0 (grid1.coords t) := fun h => h0 ((hcond1_0 t).mp h)
    rw [sAt1_acc V c t h0, PhiS1_pos V c _ _ hz]
    by_cases h2 : t.val % 50 = 49
    · -- the last chunk: the output block is stored
      have hc1 : cond1_1 (grid1.coords t) := (hcond1_1 t).mpr h2
      rw [show (dat1 V c).leavesExact 2 t = owns (c : Thread nD τ) (ms1_2 t) fullShare ((dat1 V c).after 2 t) from by
          unfold Dat.leavesExact; rw [liveAt1_2 t hc1], after1_2, sAt1_acc V c t h0]
      iintro ⟨⟨HS, Hw, Hg⟩, Ho, ⟨%d0, H0⟩, ⟨%d1, H1⟩, ⟨%d2, H2⟩⟩
      iapply (run1_last c (grid1.coords t) _ _ _ _ _ _ _ _ hc0 hc1 (iblk1 V c 0 t) (iblk1 V c 1 t) _ Set.univ _)
      isplitl [H0]; · iexact H0
      isplitl [H1]; · iexact H1
      isplitl [H2]; · iexists _; iexact H2
      isplitl [HS]; · iexact HS
      iintro ⟨H0, H1, H2, HS⟩
      isplitl [HS Hw Hg]
      · isplitl [HS]; · iexact HS
        isplitl [Hw]; · iexact Hw
        iexact Hg
      isplitl [Ho]; · iexact Ho
      isplitl [H0]; · iexact H0
      isplitl [H1]; · iexact H1
      iexact H2
    · -- a middle chunk
      have hc1 : ¬cond1_1 (grid1.coords t) := fun h => h2 ((hcond1_1 t).mp h)
      rw [Dat.leavesExact_idle (dat1 V c) 2 t (idleAt1_2 t hc1) (noFlush1_2 t h2)]
      iintro ⟨⟨HS, Hw, Hg⟩, Ho, ⟨%d0, H0⟩, ⟨%d1, H1⟩, ⟨%d2, H2⟩⟩
      iapply (run1_mid c (grid1.coords t) _ _ _ _ _ _ _ _ hc0 hc1 (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HS Hw Hg]
      · isplitl [HS]; · iexact HS
        isplitl [Hw]; · iexact Hw
        iexact Hg
      isplitl [Ho]; · iexact Ho
      isplitl [H0]; · iexact H0
      isplitl [H1]; · iexact H1
      iexists _; iexact H2

end Obl1

open Obl1 in
/-- The library's body obligation for region 1's proof data, at every point. -/
theorem body_obligation1 (c : Dev nD) : BodyObligation (dat1 (F := F) V c) (defs₀ (F := F)) Variants.none () Set.univ := fun t => by
  rw [bigSep_W1, bigSep_W1]
  exact sound_body V c t

end Cert.Kernel.Frame

end
-- ==== Proof.K.Oblig2.lean ====
/-
  Region 2's body obligation (the scatter).

  At grid point (node chunk, edge block) the body: at edge block 0 stores zeros whole into the accumulator; adds the
  block's one-hot product (destination indices against the gathered rows) to the accumulator, stored whole; and at edge
  block 415 stores whole into the output buffer the accumulator scaled by the node factors plus the bias. So a point is in
  one of three cases by its position in the node chunk: first block (reset and accumulate), a middle block (accumulate),
  last block (accumulate and output); 416 > 1, so first and last are different points.

  Each case is run once on any whole staging memrefs, its post naming the accumulator's (and the output buffer's) contents
  over the payloads: a whole store read back is its payload. At a point, the closed forms of the two conditions over the
  grid select the case; the four input windows hold their blocks and are handed back as found; the output window is live
  only at a last block, and elsewhere idle and not written back, so its buffer is handed back untouched. The invariant
  gives the accumulator — out of the scoped rest before the very first point, at what the point before left afterwards —
  and takes it back at this point's contents, which is the recursion `sAt2`: its reset equation at a first block, its
  accumulation equation elsewhere. The other scoped buffers (as what takes the accumulator back to make the scoped rest)
  and the generator register pass through.
-/
import proofs.«419787_j49813030699305_2_alg».proof.Proof.K.Dat
import proofs.«419787_j49813030699305_2_alg».proof.Proof.Gen.Kernel.Points
import Idealize.ShloMosaic.Lib.Pipeline.Value
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

namespace Obl2

/-! ## The body's two conditions, in closed form over the grid -/

/-- The first conditional's condition (the edge-block coordinate is 0), the scalar chain substituted. -/
abbrev cond2_0 (i : grid2.Coords) : Prop :=
  (Scalar.cmpi .ne (Scalar.extui (Scalar.cmpi .eq (BitVec.ofNat 32 (i 1).val) 0#32)) 0#32) = 1#1
/-- The second conditional's condition (the edge-block coordinate is 415). -/
abbrev cond2_1 (i : grid2.Coords) : Prop := k2_cond2 i = 1#1

/-- The first holds exactly at the first edge block of a node chunk. -/
theorem hcond2_0 : ∀ t : Fin cfg2.N, cond2_0 (grid2.coords t) ↔ t.val % 416 = 0 :=
  (by decide +kernel : ∀ t : Fin grid2.N, cond2_0 (grid2.coords t) ↔ t.val % 416 = 0)
/-- The second holds exactly at the last edge block of a node chunk. -/
theorem hcond2_1 : ∀ t : Fin cfg2.N, cond2_1 (grid2.coords t) ↔ t.val % 416 = 415 :=
  (by decide +kernel : ∀ t : Fin grid2.N, cond2_1 (grid2.coords t) ↔ t.val % 416 = 415)

/-! ## The body on any whole staging memrefs, case by case

Each case is stated with the accumulator's (and, in the last case, the output buffer's) contents after the body
written out over the payloads: what the body stores whole, read back, is the payload. -/

theorem hz1 : (![0] : Fin 1 → Nat) = fun _ => 0 := by funext a; fin_cases a; rfl
theorem hz2 : (![0, 0] : Fin 2 → Nat) = fun _ => 0 := by funext a; fin_cases a <;> rfl

set_option maxHeartbeats 1000000 in
/-- First edge block of a node chunk (and not the last): the accumulator, at anything, is zeroed, then the block's
    product is added to the zeros; the output buffer and the node-factor and bias blocks are not touched. -/
theorem kernelRun2_A (c : Dev nD) (i : grid2.Coords)
    (arg2 : Memref sig .tc .vmem S4096 .i32) (harg2 : arg2.IsWhole) (arg3 : Memref sig .tc .vmem S4096x128 .bf16) (harg3 : arg3.IsWhole)
    (arg4 : Memref sig .tc .vmem S2000x1 .f32) (harg4 : arg4.IsWhole) (arg5 : Memref sig .tc .vmem S128 .f32) (harg5 : arg5.IsWhole)
    (arg6 : Memref sig .tc .vmem S2000x128 .f32) (harg6 : arg6.IsWhole) (arg7 : Memref sig .tc .vmem S2000x128 .f32) (harg7 : arg7.IsWhole)
    (hc0 : cond2_0 i) (hc1 : ¬cond2_1 i)
    (x0 : Vec F S4096 .i32) (x1 : Vec F S4096x128 .bf16)
    (E : Set ℕ) (K : PUnit → sProp 𝕄) :
    iprop(owns (c : Thread nD τ) arg2 fullShare x0 ∗ owns (c : Thread nD τ) arg3 fullShare x1 ∗ (∃ d, owns (c : Thread nD τ) arg7 fullShare d)
        ∗ (iprop(owns (c : Thread nD τ) arg2 fullShare x0 ∗ owns (c : Thread nD τ) arg3 fullShare x1
            ∗ owns (c : Thread nD τ) arg7 fullShare (k2_pay2 i x0 x1 k2_pay1)) -∗ K ⟨⟩))
      ⊢ wp frame (wpE (defs₀ (F := F)) Variants.none c none) E (cc2__scatter_kernel i arg2 harg2 arg3 harg3 arg4 harg4 arg5 harg5 arg6 harg6 arg7 harg7) K := by
  simp only [cc2__scatter_kernel_eq_skeleton]; unfold cc2__scatter_kernel_skel
  unfold owns
  iintro ⟨⟨%f0, %hf0, H0⟩, ⟨%f1, %hf1, H1⟩, ⟨%ds0, %fs0, -, HS0⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  sl_unfold_words
  rw [View.read_writes_eq_canon _ _ _ (fun y => ⟨_, List.mem_cons.mpr (Or.inl rfl), View.mem_set_unit_zero hz2 inb_S2000x128_S2000x128_0_0 y⟩)]
  rw [View.canon_cons_unit_zero (S := S2000x128) hz2]
  simp only [View.readAt_eq_ld, harg2.read_unread, harg3.read_unread, View.ld_unit_zero (S := S4096) hz1,
    View.ld_unit_zero (S := S4096x128) hz2, View.readCov_unit_zero (S := S2000x128) _ hz2]

set_option maxHeartbeats 1000000 in
/-- A middle edge block: the block's product is added to what the accumulator held. -/
theorem kernelRun2_B (c : Dev nD) (i : grid2.Coords)
    (arg2 : Memref sig .tc .vmem S4096 .i32) (harg2 : arg2.IsWhole) (arg3 : Memref sig .tc .vmem S4096x128 .bf16) (harg3 : arg3.IsWhole)
    (arg4 : Memref sig .tc .vmem S2000x1 .f32) (harg4 : arg4.IsWhole) (arg5 : Memref sig .tc .vmem S128 .f32) (harg5 : arg5.IsWhole)
    (arg6 : Memref sig .tc .vmem S2000x128 .f32) (harg6 : arg6.IsWhole) (arg7 : Memref sig .tc .vmem S2000x128 .f32) (harg7 : arg7.IsWhole)
    (hc0 : ¬cond2_0 i) (hc1 : ¬cond2_1 i)
    (x0 : Vec F S4096 .i32) (x1 : Vec F S4096x128 .bf16) (xs : Vec F S2000x128 .f32)
    (E : Set ℕ) (K : PUnit → sProp 𝕄) :
    iprop(owns (c : Thread nD τ) arg2 fullShare x0 ∗ owns (c : Thread nD τ) arg3 fullShare x1 ∗ owns (c : Thread nD τ) arg7 fullShare xs
        ∗ (iprop(owns (c : Thread nD τ) arg2 fullShare x0 ∗ owns (c : Thread nD τ) arg3 fullShare x1
            ∗ owns (c : Thread nD τ) arg7 fullShare (k2_pay2 i x0 x1 xs)) -∗ K ⟨⟩))
      ⊢ wp frame (wpE (defs₀ (F := F)) Variants.none c none) E (cc2__scatter_kernel i arg2 harg2 arg3 harg3 arg4 harg4 arg5 harg5 arg6 harg6 arg7 harg7) K := by
  simp only [cc2__scatter_kernel_eq_skeleton]; unfold cc2__scatter_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg7.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  sl_unfold_words
  rw [View.read_writes_eq_canon _ _ _ (fun y => ⟨_, List.mem_cons.mpr (Or.inl rfl), View.mem_set_unit_zero hz2 inb_S2000x128_S2000x128_0_0 y⟩)]
  rw [View.canon_cons_unit_zero (S := S2000x128) hz2]
  simp only [View.readAt_eq_ld, harg2.read_unread, harg3.read_unread, harg7.read_unread, View.ld_unit_zero (S := S4096) hz1,
    View.ld_unit_zero (S := S4096x128) hz2, View.ld_unit_zero (S := S2000x128) hz2]

set_option maxHeartbeats 1000000 in
/-- The last edge block of a node chunk: the block's product is added to what the accumulator held, and the output
    buffer, at anything, is stored whole at the accumulator scaled by the node factors plus the bias. -/
theorem kernelRun2_C (c : Dev nD) (i : grid2.Coords)
    (arg2 : Memref sig .tc .vmem S4096 .i32) (harg2 : arg2.IsWhole) (arg3 : Memref sig .tc .vmem S4096x128 .bf16) (harg3 : arg3.IsWhole)
    (arg4 : Memref sig .tc .vmem S2000x1 .f32) (harg4 : arg4.IsWhole) (arg5 : Memref sig .tc .vmem S128 .f32) (harg5 : arg5.IsWhole)
    (arg6 : Memref sig .tc .vmem S2000x128 .f32) (harg6 : arg6.IsWhole) (arg7 : Memref sig .tc .vmem S2000x128 .f32) (harg7 : arg7.IsWhole)
    (hc0 : ¬cond2_0 i) (hc1 : cond2_1 i)
    (x0 : Vec F S4096 .i32) (x1 : Vec F S4096x128 .bf16) (x2 : Vec F S2000x1 .f32) (x3 : Vec F S128 .f32) (xs : Vec F S2000x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (k2_pay3 x2 (k2_pay2 i x0 x1 xs) x3)
            ∗ owns (c : Thread nD τ) arg7 fullShare (k2_pay2 i x0 x1 xs)) -∗ K ⟨⟩))
      ⊢ wp frame (wpE (defs₀ (F := F)) Variants.none c none) E (cc2__scatter_kernel i arg2 harg2 arg3 harg3 arg4 harg4 arg5 harg5 arg6 harg6 arg7 harg7) K := by
  simp only [cc2__scatter_kernel_eq_skeleton]; unfold cc2__scatter_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
  obtain rfl := harg2.eq_unread hf0; obtain rfl := harg3.eq_unread hf1; obtain rfl := harg4.eq_unread hf2
  obtain rfl := harg5.eq_unread hf3; obtain rfl := harg7.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    rw [View.read_writes_eq_canon _ _ _ (fun y => ⟨_, List.mem_cons.mpr (Or.inl rfl), View.mem_set_unit_zero hz2 inb_S2000x128_S2000x128_0_0 y⟩)]
    rw [View.canon_cons_unit_zero (S := S2000x128) hz2]
    simp only [View.readAt_eq_ld, harg2.read_unread, harg3.read_unread, harg4.read_unread, harg5.read_unread, harg7.read_unread,
      View.ld_unit_zero (S := S4096) hz1, View.ld_unit_zero (S := S128) hz1, View.ld_unit_zero (S := S4096x128) hz2,
      View.ld_unit_zero (S := S2000x1) hz2, View.ld_unit_zero (S := S2000x128) hz2, View.readCov_unit_zero (S := S2000x128) _ hz2]
  iexists _; isplitr
  swap; · iexact HS0
  ipureintro
  sl_unfold_words
  rw [View.read_writes_eq_canon _ _ _ (fun y => ⟨_, List.mem_cons.mpr (Or.inl rfl), View.mem_set_unit_zero hz2 inb_S2000x128_S2000x128_0_0 y⟩)]
  rw [View.canon_cons_unit_zero (S := S2000x128) hz2]
  simp only [View.readAt_eq_ld, harg2.read_unread, harg3.read_unread, harg7.read_unread, View.ld_unit_zero (S := S4096) hz1,
    View.ld_unit_zero (S := S4096x128) hz2, View.ld_unit_zero (S := S2000x128) hz2]

/-! ## Where the windows are idle, and the staging memrefs at a point -/

theorem liveAt2_0 (t : Fin cfg2.N) : cfg2.idle 0 (grid2.coords t) = false := rfl
theorem liveAt2_1 (t : Fin cfg2.N) : cfg2.idle 1 (grid2.coords t) = false := rfl
theorem liveAt2_2 (t : Fin cfg2.N) : cfg2.idle 2 (grid2.coords t) = false := rfl
theorem liveAt2_3 (t : Fin cfg2.N) : cfg2.idle 3 (grid2.coords t) = false := rfl
/-- Where the second condition fails the output window is idle, -/
theorem idleAt2_4 (t : Fin cfg2.N) (h : ¬cond2_1 (grid2.coords t)) : cfg2.idle 4 (grid2.coords t) = true := by
  show (!(k2_cond2 (grid2.coords t) == 1#1)) = true
  rw [beq_eq_false_iff_ne.mpr h]; rfl
/-- where it holds, live; -/
theorem liveAt2_4 (t : Fin cfg2.N) (h : cond2_1 (grid2.coords t)) : cfg2.idle 4 (grid2.coords t) = false := by
  show (!(k2_cond2 (grid2.coords t) == 1#1)) = false
  rw [show k2_cond2 (grid2.coords t) = 1#1 from h]; rfl
/-- and off the last edge block of a node chunk its block is not written back. -/
theorem noFlush2_4 (t : Fin cfg2.N) (h : ¬t.val % 416 = 415) : (cfg2.win 4).flush t = false :=
  Bool.eq_false_iff.mpr fun hf => h ((flush2_4 t).mp hf)

/-- Each window's current staging memref at point `t`, as the pipeline passes it to the body, and its wholeness. -/
abbrev ms2_0 (t : Fin cfg2.N) : Memref sig .tc .vmem S4096 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2000x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2000x128 .f32 := win2_4.stage (cfg2.slots t 4)
abbrev hs2_4 (t : Fin cfg2.N) : (ms2_4 t).IsWhole := hstage2_4 ((cfg2.slots t 4).cast nbuf2_4)

/-! ## What the body finds in the input windows, and leaves there -/

/-- An input's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
      (fun t => by rw [after2_3]; unfold Dat.blockOf iblk2; rw [A_eq2]; try rfl) t d).trans
    (by unfold Dat.fetched Dat.blockOf iblk2; rw [A_eq2]; try rfl)

/-- The obligation's post for an input window, which is never idle: its buffer at its block. -/
theorem leaves2_0 (c : Dev nD) (t : Fin cfg2.N) :
    (dat2 V c).leavesExact 0 t = owns (c : Thread nD τ) (ms2_0 t) fullShare (iblk2 V c 0 t) := by
  rw [← after2_0 V c t]
theorem leaves2_1 (c : Dev nD) (t : Fin cfg2.N) :
    (dat2 V c).leavesExact 1 t = owns (c : Thread nD τ) (ms2_1 t) fullShare (iblk2 V c 1 t) := by
  rw [← after2_1 V c t]
theorem leaves2_2 (c : Dev nD) (t : Fin cfg2.N) :
    (dat2 V c).leavesExact 2 t = owns (c : Thread nD τ) (ms2_2 t) fullShare (iblk2 V c 2 t) := by
  rw [← after2_2 V c t]
theorem leaves2_3 (c : Dev nD) (t : Fin cfg2.N) :
    (dat2 V c).leavesExact 3 t = owns (c : Thread nD τ) (ms2_3 t) fullShare (iblk2 V c 3 t) := by
  rw [← after2_3 V c t]
/-- For the output window where it is live: its buffer at the output payload. -/
theorem leaves2_4 (c : Dev nD) (t : Fin cfg2.N) (h : cond2_1 (grid2.coords t)) :
    (dat2 V c).leavesExact 4 t = owns (c : Thread nD τ) (ms2_4 t) fullShare
      (k2_pay3 (iblk2 V c 2 t) (sAt2 V c t.val t.isLt) (iblk2 V c 3 t)) := by
  rw [← after2_4 V c t]; unfold Dat.leavesExact; rw [liveAt2_4 t h]

/-! ## The accumulator out of the scoped rest -/

/-- The scoped rest hands out the accumulator at some contents, and what is left takes it back at any contents. -/
theorem scoped2_take (c : Dev nD) :
    (Pipeline.scopedRest (Ix := Unit) (Name := ℕ) (U := UR sig nD τ) (Lvl := ℕ) (Val := Elt F) spec2 c : sProp 𝕄)
      ⊢ iprop((∃ d, owns (c : Thread nD τ) scM2 fullShare d)
          ∗ (iprop(∃ f, owns (c : Thread nD τ) scM2 fullShare f)
              -∗ Pipeline.scopedRest (Ix := Unit) (Name := ℕ) (U := UR sig nD τ) (Lvl := ℕ) (Val := Elt F) spec2 c)) := by
  rw [scopedRest2_eq]
  simp only [scM2, owns_whole]
  iintro ⟨H1, H2, H3, H4, H5, H6, H7, H8, H9, H10, H11, H12, HS⟩
  isplitl [HS]; · iexact HS
  iintro HS
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact HS

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point. The inputs' memrefs hold their blocks; the point's position in its node chunk selects the
    case. At the first edge block the accumulator comes at anything (out of the scoped rest before the very first point,
    at what the point before left otherwise) and is left at the block's product added to zeros; at a later block it comes
    at what the point before left and is left at the block's product added to that; at the last block the output buffer is
    moreover stored at the output payload, and elsewhere handed back as found. The other scoped buffers (as what takes the
    accumulator back) and the generator register pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [Phi2_succ, PhiS2_succ, Phi2_castSucc]
  rw [leaves2_0, leaves2_1, leaves2_2, leaves2_3]
  by_cases h0 : t.val % 416 = 0
  · have h1 : ¬t.val % 416 = 415 := by omega
    rw [Dat.leavesExact_idle (dat2 V c) 4 t (idleAt2_4 t (fun h => h1 ((hcond2_1 t).mp h))) (noFlush2_4 t h1)]
    rw [sAt2_reset V c t h0]
    by_cases hz : t.val = 0
    · rw [PhiS2_zero V c _ _ hz]; unfold Pipeline.ΦA
      iintro ⟨⟨Hsc, Hg⟩, Ho, ⟨%d0, H0⟩, ⟨%d1, H1⟩, ⟨%d2, H2⟩, ⟨%d3, H3⟩, ⟨%d4, H4⟩⟩
      ihave Hsc' := (scoped2_take (F := F) c) $$ Hsc
      icases Hsc' with ⟨HS, Hw⟩
      iapply (kernelRun2_A c (grid2.coords t) (ms2_0 t) (hs2_0 t) (ms2_1 t) (hs2_1 t) (ms2_2 t) (hs2_2 t) (ms2_3 t) (hs2_3 t)
        (ms2_4 t) (hs2_4 t) scM2 (Memref.isWhole_whole _) ((hcond2_0 t).mpr h0) (fun h => h1 ((hcond2_1 t).mp h))
        (iblk2 V c 0 t) (iblk2 V c 1 t) Set.univ _)
      isplitl [H0]; · iexact H0
      isplitl [H1]; · iexact H1
      isplitl [HS]; · iexact HS
      iintro ⟨H0, H1, HS⟩
      isplitl [HS Hw Hg]
      · isplitl [HS]; · iexact HS
        isplitl [Hw]; · iexact Hw
        iexact Hg
      isplitl [Ho]; · iexact Ho
      isplitl [H0]; · iexact H0
      isplitl [H1]; · iexact H1
      isplitl [H2]; · iexact H2
      isplitl [H3]; · iexact H3
      iexists _; iexact H4
    · rw [PhiS2_pos V c _ _ hz]
      iintro ⟨⟨HS, Hw, Hg⟩, Ho, ⟨%d0, H0⟩, ⟨%d1, H1⟩, ⟨%d2, H2⟩, ⟨%d3, H3⟩, ⟨%d4, H4⟩⟩
      iapply (kernelRun2_A c (grid2.coords t) (ms2_0 t) (hs2_0 t) (ms2_1 t) (hs2_1 t) (ms2_2 t) (hs2_2 t) (ms2_3 t) (hs2_3 t)
        (ms2_4 t) (hs2_4 t) scM2 (Memref.isWhole_whole _) ((hcond2_0 t).mpr h0) (fun h => h1 ((hcond2_1 t).mp h))
        (iblk2 V c 0 t) (iblk2 V c 1 t) Set.univ _)
      isplitl [H0]; · iexact H0
      isplitl [H1]; · iexact H1
      isplitl [HS]; · iexists _; iexact HS
      iintro ⟨H0, H1, HS⟩
      isplitl [HS Hw Hg]
      · isplitl [HS]; · iexact HS
        isplitl [Hw]; · iexact Hw
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [PhiS2_pos V c _ _ hz, sAt2_acc V c t h0]
    by_cases h1 : t.val % 416 = 415
    · rw [leaves2_4 V c t ((hcond2_1 t).mpr h1), sAt2_acc V c t h0]
      iintro ⟨⟨HS, Hw, Hg⟩, Ho, ⟨%d0, H0⟩, ⟨%d1, H1⟩, ⟨%d2, H2⟩, ⟨%d3, H3⟩, ⟨%d4, H4⟩⟩
      iapply (kernelRun2_C c (grid2.coords t) (ms2_0 t) (hs2_0 t) (ms2_1 t) (hs2_1 t) (ms2_2 t) (hs2_2 t) (ms2_3 t) (hs2_3 t)
        (ms2_4 t) (hs2_4 t) scM2 (Memref.isWhole_whole _) (fun h => h0 ((hcond2_0 t).mp h)) ((hcond2_1 t).mpr h1)
        (iblk2 V c 0 t) (iblk2 V c 1 t) (iblk2 V c 2 t) (iblk2 V c 3 t)
        (sAt2 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hw Hg]
      · isplitl [HS]; · iexact HS
        isplitl [Hw]; · iexact Hw
        iexact Hg
      isplitl [Ho]; · iexact Ho
      isplitl [H0]; · iexact H0
      isplitl [H1]; · iexact H1
      isplitl [H2]; · iexact H2
      isplitl [H3]; · iexact H3
      iexact H4
    · rw [Dat.leavesExact_idle (dat2 V c) 4 t (idleAt2_4 t (fun h => h1 ((hcond2_1 t).mp h))) (noFlush2_4 t h1)]
      iintro ⟨⟨HS, Hw, Hg⟩, Ho, ⟨%d0, H0⟩, ⟨%d1, H1⟩, ⟨%d2, H2⟩, ⟨%d3, H3⟩, ⟨%d4, H4⟩⟩
      iapply (kernelRun2_B c (grid2.coords t) (ms2_0 t) (hs2_0 t) (ms2_1 t) (hs2_1 t) (ms2_2 t) (hs2_2 t) (ms2_3 t) (hs2_3 t)
        (ms2_4 t) (hs2_4 t) scM2 (Memref.isWhole_whole _) (fun h => h0 ((hcond2_0 t).mp h)) (fun h => h1 ((hcond2_1 t).mp h))
        (iblk2 V c 0 t) (iblk2 V c 1 t)
        (sAt2 V c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [HS Hw Hg]
      · isplitl [HS]; · iexact HS
        isplitl [Hw]; · iexact Hw
        iexact Hg
      isplitl [Ho]; · iexact Ho
      isplitl [H0]; · iexact H0
      isplitl [H1]; · iexact H1
      isplitl [H2]; · iexact H2
      isplitl [H3]; · iexact H3
      iexists _; iexact H4

end Obl2

open Obl2 in
/-- The library's body obligation for region 2's proof data, at every point. -/
theorem body_obligation2 (c : Dev nD) : BodyObligation (dat2 (F := F) V c) (defs₀ (F := F)) Variants.none () Set.univ := fun t => by
  rw [bigSep_W2, bigSep_W2]
  exact sound_body2 V c t

end Cert.Kernel.Frame

end
-- ==== Proof.K.Run.lean ====
/- The run of the idealized kernel's @main over its six segments. -/
import proofs.«419787_j49813030699305_2_alg».proof.Proof.K.FoldLemmas
import proofs.«419787_j49813030699305_2_alg».proof.Proof.K.Oblig0
import proofs.«419787_j49813030699305_2_alg».proof.Proof.K.Oblig1
import proofs.«419787_j49813030699305_2_alg».proof.Proof.K.Oblig2
import proofs.«419787_j49813030699305_2_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V4 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it is left
    with those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the `owes`: every unscoped buffer at the last boundary's contents `W6`, the
    generator register at some state. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- REGION 0 over the thread state: entered from every unscoped buffer at `W3`, left at `W4`. Its arrays are split
    out of the unscoped buffers and put back at the exit contents; the generator register goes into the invariant and
    comes out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W4`, left at `W5`. Its arrays are split
    out of the unscoped buffers and put back at the exit contents; the generator register goes into the invariant and
    comes out (the scratch accumulator, held apart at the last point, is given back to the scoped rest); nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none,
      show (pdats m 1 c).Φ (Fin.last _) = PhiS1 (V4 m) c cfg1.N (Nat.le_refl _) from rfl,
      PhiS1_pos (V4 m) c cfg1.N (Nat.le_refl _) (by rw [show cfg1.N = grid1.N from rfl, N_1]; decide)]
    iintro ⟨Hs, Hw, Hp⟩
    isplitl [Hp]; · iexact Hp
    isplitr; · iempintro
    iapply Hw
    iexists _; iexact Hs
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`. Its arrays are split
    out of the unscoped buffers and put back at the exit contents; the generator register goes into the invariant and
    comes out (the scratch accumulator, held apart at the last point, is given back to the scoped rest); nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none,
      show (pdats m 2 c).Φ (Fin.last _) = PhiS2 (V5 m) c cfg2.N (Nat.le_refl _) from rfl,
      PhiS2_pos (V5 m) c cfg2.N (Nat.le_refl _) (by rw [show cfg2.N = grid2.N from rfl, N_2]; decide)]
    iintro ⟨Hs, Hw, Hp⟩
    isplitl [Hp]; · iexact Hp
    isplitr; · iempintro
    iapply Hw
    iexists _; iexact Hs
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order: the three host stretches from their boundaries' contents, then the three regions. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .region (reg1 m),
    .region (reg2 m) ]
/-- @main is the run of the segments. -/
theorem main_run (c : Dev nD) : main (F := F) c = Pipeline.Seg.run (segs m) := (main_chain c).trans (by chain_rfl)

set_option backward.isDefEq.respectTransparency.types false in
/-- Every weakly fair execution of @main from `m` with zero counters terminates, nothing faulting, and every final
    memory holds each unscoped TensorCore buffer at the last boundary's contents `W6`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

end Cert.Kernel.Frame

end
-- ==== Proof.KI.Dat.lean ====
/-
  The proof data of the idealized kernel's three pipelines, each at a parameter `V`: the TensorCore's buffer
  contents when the region is entered.

  Region 0 (the projection) stores, at every point, the payload of its two input blocks.
  Region 1 (the gather) keeps a scratch accumulator across the 50 node chunks of one edge block: at chunk 0 it is
  reset to zero and the chunk's one-hot product added, at a later chunk the product is added to what the chunk before
  left; the output block is the accumulator after the last chunk, and the output window is idle before that.
  Region 2 (the scatter) does the same across the 416 edge blocks of one node chunk, and its output is the
  accumulator after the last block scaled by the node factors plus the bias.
  `sAt1` / `sAt2` say what the scratch holds after each point, by recursion on the point; the invariant before a point
  that is not the first holds the scratch at that, and the other scoped buffers as the scoped rest with the scratch taken out.
-/
import proofs.«419787_j49813030699305_2_alg».proof.Proof.Gen.KernelIdeal.Launch
import proofs.«419787_j49813030699305_2_alg».proof.Proof.Gen.KernelIdeal.Skeleton
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Frame

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: the projection -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- After the body at point `t`: the inputs at their blocks, the output at the payload of the two. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (iblk0 V c 0 t) (iblk0 V c 1 t) := by dsimp only [dat0]

/-! ## Region 1: the gather -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch accumulator of region 1, whole. -/
abbrev scM1 : Memref sig .tc .vmem S4096x128 .f32 := Memref.whole cc1_scratch0

/-- What the accumulator holds after the body at position `n`: the chunk's product added to zero at the first chunk
    of an edge block, to what the position before left otherwise. -/
def sAt1 (c : Dev nD) : (n : ℕ) → n < cfg1.N → Vec F S4096x128 .f32
  | 0, hn => k1_pay2 (grid1.coords ⟨0, hn⟩) (iblk1 V c 0 ⟨0, hn⟩) (iblk1 V c 1 ⟨0, hn⟩) k1_pay1
  | n + 1, hn =>
    k1_pay2 (grid1.coords ⟨n + 1, hn⟩) (iblk1 V c 0 ⟨n + 1, hn⟩) (iblk1 V c 1 ⟨n + 1, hn⟩)
      (if (n + 1) % 50 = 0 then k1_pay1 else sAt1 c n (Nat.lt_of_succ_lt hn))

theorem sAt1_reset (c : Dev nD) (t : Fin cfg1.N) (h : t.val % 50 = 0) :
    sAt1 V c t.val t.isLt = k1_pay2 (grid1.coords t) (iblk1 V c 0 t) (iblk1 V c 1 t) k1_pay1 := by
  obtain ⟨n, hn⟩ := t
  cases n with
  | zero => rfl
  | succ n => exact congrArg (k1_pay2 _ _ _) (if_pos h)

theorem sAt1_acc (c : Dev nD) (t : Fin cfg1.N) (h : ¬ t.val % 50 = 0) :
    sAt1 V c t.val t.isLt = k1_pay2 (grid1.coords t) (iblk1 V c 0 t) (iblk1 V c 1 t)
      (sAt1 V c (t.val - 1) (Nat.lt_of_le_of_lt (Nat.sub_le _ _) t.isLt)) := by
  obtain ⟨n, hn⟩ := t
  cases n with
  | zero => exact absurd (Nat.zero_mod _) h
  | succ n => exact congrArg (k1_pay2 _ _ _) (if_neg h)

/-- The invariant before position `n`: the class's before the first point; afterwards the accumulator at what the
    position before left, the other scoped buffers (the scoped rest with the accumulator taken out), the generator register. -/
def PhiS1 (c : Dev nD) : (n : ℕ) → n ≤ cfg1.N → sProp 𝕄
  | 0, _ => Pipeline.ΦA spec1 c
  | n + 1, hn => iprop(owns (c : Thread nD τ) scM1 fullShare (sAt1 V c n hn)
      ∗ (iprop(∃ f, owns (c : Thread nD τ) scM1 fullShare f) -∗ Pipeline.scopedRest (Ix := Unit) (Name := ℕ) (U := UR sig nD τ) (Lvl := ℕ) (Val := Elt F) spec1 c)
      ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare (sAt1 V c n hn)
      ∗ (iprop(∃ f, owns (c : Thread nD τ) scM1 fullShare f) -∗ Pipeline.scopedRest (Ix := Unit) (Name := ℕ) (U := UR sig nD τ) (Lvl := ℕ) (Val := Elt F) spec1 c)
      ∗ (∃ r, prngReg c r)) := rfl

theorem PhiS1_pos (c : Dev nD) (n : ℕ) (h : n ≤ cfg1.N) (hz : n ≠ 0) :
    PhiS1 V c n h = iprop(owns (c : Thread nD τ) scM1 fullShare (sAt1 V c (n - 1) (by omega))
      ∗ (iprop(∃ f, owns (c : Thread nD τ) scM1 fullShare f) -∗ Pipeline.scopedRest (Ix := Unit) (Name := ℕ) (U := UR sig nD τ) (Lvl := ℕ) (Val := Elt F) spec1 c)
      ∗ (∃ r, prngReg c r)) := by
  cases n with
  | zero => exact absurd rfl hz
  | succ n => rfl

/-- After the body at point `t`: the inputs at their blocks; the output at the accumulator's payload (read only where the
    window is live: after the last chunk of an edge block). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (sAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (sAt1 V c t.val t.isLt) := by dsimp only [dat1]
theorem Phi1_castSucc (c : Dev nD) (t : Fin cfg1.N) :
    (dat1 V c).Φ t.castSucc = PhiS1 V c t.val (Nat.le_of_lt t.isLt) := by
  dsimp only [dat1]; simp only [Fin.coe_castSucc]
theorem Phi1_succ (c : Dev nD) (t : Fin cfg1.N) :
    (dat1 V c).Φ t.succ = PhiS1 V c (t.val + 1) t.isLt := rfl

/-! ## Region 2: the scatter -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The scratch accumulator of region 2, whole. -/
abbrev scM2 : Memref sig .tc .vmem S2000x128 .f32 := Memref.whole cc2_scratch0

/-- What the accumulator holds after the body at position `n`: the edge block's product added to zero at the first
    block of a node chunk, to what the position before left otherwise. -/
def sAt2 (c : Dev nD) : (n : ℕ) → n < cfg2.N → Vec F S2000x128 .f32
  | 0, hn => k2_pay2 (grid2.coords ⟨0, hn⟩) (iblk2 V c 0 ⟨0, hn⟩) (iblk2 V c 1 ⟨0, hn⟩) k2_pay1
  | n + 1, hn =>
    k2_pay2 (grid2.coords ⟨n + 1, hn⟩) (iblk2 V c 0 ⟨n + 1, hn⟩) (iblk2 V c 1 ⟨n + 1, hn⟩)
      (if (n + 1) % 416 = 0 then k2_pay1 else sAt2 c n (Nat.lt_of_succ_lt hn))

theorem sAt2_reset (c : Dev nD) (t : Fin cfg2.N) (h : t.val % 416 = 0) :
    sAt2 V c t.val t.isLt = k2_pay2 (grid2.coords t) (iblk2 V c 0 t) (iblk2 V c 1 t) k2_pay1 := by
  obtain ⟨n, hn⟩ := t
  cases n with
  | zero => rfl
  | succ n => exact congrArg (k2_pay2 _ _ _) (if_pos h)

theorem sAt2_acc (c : Dev nD) (t : Fin cfg2.N) (h : ¬ t.val % 416 = 0) :
    sAt2 V c t.val t.isLt = k2_pay2 (grid2.coords t) (iblk2 V c 0 t) (iblk2 V c 1 t)
      (sAt2 V c (t.val - 1) (Nat.lt_of_le_of_lt (Nat.sub_le _ _) t.isLt)) := by
  obtain ⟨n, hn⟩ := t
  cases n with
  | zero => exact absurd (Nat.zero_mod _) h
  | succ n => exact congrArg (k2_pay2 _ _ _) (if_neg h)

def PhiS2 (c : Dev nD) : (n : ℕ) → n ≤ cfg2.N → sProp 𝕄
  | 0, _ => Pipeline.ΦA spec2 c
  | n + 1, hn => iprop(owns (c : Thread nD τ) scM2 fullShare (sAt2 V c n hn)
      ∗ (iprop(∃ f, owns (c : Thread nD τ) scM2 fullShare f) -∗ Pipeline.scopedRest (Ix := Unit) (Name := ℕ) (U := UR sig nD τ) (Lvl := ℕ) (Val := Elt F) spec2 c)
      ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(owns (c : Thread nD τ) scM2 fullShare (sAt2 V c n hn)
      ∗ (iprop(∃ f, owns (c : Thread nD τ) scM2 fullShare f) -∗ Pipeline.scopedRest (Ix := Unit) (Name := ℕ) (U := UR sig nD τ) (Lvl := ℕ) (Val := Elt F) spec2 c)
      ∗ (∃ r, prngReg c r)) := rfl

theorem PhiS2_pos (c : Dev nD) (n : ℕ) (h : n ≤ cfg2.N) (hz : n ≠ 0) :
    PhiS2 V c n h = iprop(owns (c : Thread nD τ) scM2 fullShare (sAt2 V c (n - 1) (by omega))
      ∗ (iprop(∃ f, owns (c : Thread nD τ) scM2 fullShare f) -∗ Pipeline.scopedRest (Ix := Unit) (Name := ℕ) (U := UR sig nD τ) (Lvl := ℕ) (Val := Elt F) spec2 c)
      ∗ (∃ r, prngReg c r)) := by
  cases n with
  | zero => exact absurd rfl hz
  | succ n => rfl

/-- After the body at point `t`: the inputs at their blocks; the output at the payload of the node factors' block, the
    accumulator and the bias (read only where the window is live: after the last edge block of a node chunk). -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay3 (iblk2 V c 2 t) (sAt2 V c t.val t.isLt) (iblk2 V c 3 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = k2_pay3 (iblk2 V c 2 t) (sAt2 V c t.val t.isLt) (iblk2 V c 3 t) := by dsimp only [dat2]
theorem Phi2_castSucc (c : Dev nD) (t : Fin cfg2.N) :
    (dat2 V c).Φ t.castSucc = PhiS2 V c t.val (Nat.le_of_lt t.isLt) := by
  dsimp only [dat2]; simp only [Fin.coe_castSucc]
theorem Phi2_succ (c : Dev nD) (t : Fin cfg2.N) :
    (dat2 V c).Φ t.succ = PhiS2 V c (t.val + 1) t.isLt := rfl

end Cert.KernelIdeal.Frame

end
-- ==== Proof.KI.Fold.lean ====
/-
  The TensorCore's buffer contents at each boundary of the idealized kernel's @main: the launch memory, then each of
  the three stretches of host operations applied, then each region's arrays at what its write-backs leave.
-/
import proofs.«419787_j49813030699305_2_alg».proof.Proof.KI.Dat

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s buffers at launch. -/
abbrev W0 (c : Dev nD) : Valuation τ sig (Elt F) := fun b => m (c, b)
/-- After the first stretch (the degree histogram and its reciprocal). -/
abbrev W1 (c : Dev nD) : Valuation τ sig (Elt F) := StableHlo.after hostOps0 (W0 m c)
/-- After the second stretch (the guarded select). -/
abbrev W2 (c : Dev nD) : Valuation τ sig (Elt F) := StableHlo.after hostOps0_1 (W1 m c)
/-- After the third stretch (the padded edge lists): region 0's entry. -/
abbrev W3 (c : Dev nD) : Valuation τ sig (Elt F) := StableHlo.after hostOps0_2 (W2 m c)
/-- The same read at the TensorCore's references. -/
abbrev V3 : (c : Dev nD) → (b : Ref sig .tc) → Buf (Elt F) ((c : Thread nD τ).loc b) := fun c b => W3 m c b
/-- At region 0's exit: its arrays at what the pipeline leaves, every other buffer as entered. -/
def W4 (c : Dev nD) : Valuation τ sig (Elt F) :=
  Pipeline.withArrays spec0 c (W3 m c) fun w => (dat0 (V3 m) c).arrAt w cfg0.N
abbrev V4 : (c : Dev nD) → (b : Ref sig .tc) → Buf (Elt F) ((c : Thread nD τ).loc b) := fun c b => W4 m c b
/-- At region 1's exit. -/
def W5 (c : Dev nD) : Valuation τ sig (Elt F) :=
  Pipeline.withArrays spec1 c (W4 m c) fun w => (dat1 (V4 m) c).arrAt w cfg1.N
abbrev V5 : (c : Dev nD) → (b : Ref sig .tc) → Buf (Elt F) ((c : Thread nD τ).loc b) := fun c b => W5 m c b
/-- At region 2's exit: the end of @main. -/
def W6 (c : Dev nD) : Valuation τ sig (Elt F) :=
  Pipeline.withArrays spec2 c (W5 m c) fun w => (dat2 (V5 m) c).arrAt w cfg2.N
abbrev V6 : (c : Dev nD) → (b : Ref sig .tc) → Buf (Elt F) ((c : Thread nD τ).loc b) := fun c b => W6 m c b

end Cert.KernelIdeal.Frame

end
-- ==== Proof.KI.FoldLemmas.lean ====
/- What the boundaries' contents hold at the buffers the certificate reads: each region's result at what its pipeline
   leaves, every other buffer handed on unchanged, the arguments as launched. -/
import proofs.«419787_j49813030699305_2_alg».proof.Proof.KI.Fold
import proofs.«419787_j49813030699305_2_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## A host stretch leaves every buffer it does not write -/

theorem W1_of (c : Dev nD) (r : Ref sig .tc) (h : r ∉ hostOps0_W) :
    W1 m c (Proc.devRef .tc r) = W0 m c (Proc.devRef .tc r) :=
  StableHlo.after_of_writes_sub hostOps0 _ hostOps0_writes h
theorem W2_of (c : Dev nD) (r : Ref sig .tc) (h : r ∉ hostOps0_1_W) :
    W2 m c (Proc.devRef .tc r) = W1 m c (Proc.devRef .tc r) :=
  StableHlo.after_of_writes_sub hostOps0_1 _ hostOps0_1_writes h
theorem W3_of (c : Dev nD) (r : Ref sig .tc) (h : r ∉ hostOps0_2_W) :
    W3 m c (Proc.devRef .tc r) = W2 m c (Proc.devRef .tc r) :=
  StableHlo.after_of_writes_sub hostOps0_2 _ hostOps0_2_writes h

/-- A buffer none of the three stretches writes is, at region 0's entry, as launched. -/
theorem W3_launch (c : Dev nD) (r : Ref sig .tc) (h0 : r ∉ hostOps0_W) (h1 : r ∉ hostOps0_1_W) (h2 : r ∉ hostOps0_2_W) :
    W3 m c (Proc.devRef .tc r) = m ((c : Thread nD τ).loc r) :=
  (W3_of m c r h2).trans <| (W2_of m c r h1).trans <| (W1_of m c r h0).trans rfl

/-! ## A region leaves its arrays at what its write-backs fold to, and every other buffer as entered -/

theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb

/-- At a region's exit each of its arrays holds what the pipeline leaves and every other buffer what it held at entry. -/
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)
theorem hF1 (c : Dev nD) (w : Fin cfg1.W) : (dat1 (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ## The buffers the certificate reads -/

theorem W6_v15 (c : Dev nD) : W6 m c (Proc.devRef .tc main_v15) = (dat2 (V5 m) c).arrAt 4 cfg2.N := W6_arr m c 4
theorem V5_v14 (c : Dev nD) : V5 m c main_v14 = (dat1 (V4 m) c).arrAt 2 cfg1.N := W5_arr m c 2
theorem V4_v13 (c : Dev nD) : V4 m c main_v13 = (dat0 (V3 m) c).arrAt 2 cfg0.N := W4_arr m c 2
theorem V5_v12 (c : Dev nD) : V5 m c main_v12 = V3 m c main_v12 :=
  (W5_of_ne m c main_v12 (by decide)).trans (W4_of_ne m c main_v12 (by decide))
theorem V5_v9 (c : Dev nD) : V5 m c main_v9 = V3 m c main_v9 :=
  (W5_of_ne m c main_v9 (by decide)).trans (W4_of_ne m c main_v9 (by decide))
theorem V5_arg2 (c : Dev nD) : V5 m c main_arg2 = m ((c : Thread nD τ).loc main_arg2) :=
  (W5_of_ne m c main_arg2 (by decide)).trans <| (W4_of_ne m c main_arg2 (by decide)).trans <|
    W3_launch m c main_arg2 (by decide) (by decide) (by decide)
theorem V4_v11 (c : Dev nD) : V4 m c main_v11 = V3 m c main_v11 := W4_of_ne m c main_v11 (by decide)
theorem V3_arg0 (c : Dev nD) : V3 m c main_arg0 = m ((c : Thread nD τ).loc main_arg0) :=
  W3_launch m c main_arg0 (by decide) (by decide) (by decide)
theorem V3_arg1 (c : Dev nD) : V3 m c main_arg1 = m ((c : Thread nD τ).loc main_arg1) :=
  W3_launch m c main_arg1 (by decide) (by decide) (by decide)
/-- Region 0 reads `main_arg0` through an input window: its array is left as entered. -/
theorem W6_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := W5_of_ne m c main_arg0 (by decide)
    _ = W3 m c (Proc.devRef .tc main_arg0) :=
        (W4_arr m c 0).trans (((dat0 (V3 m) c).arrAt_in 0 rfl _).trans (A_eq0 (V3 m) c 0))
    _ = m ((c : Thread nD τ).loc main_arg0) := V3_arg0 m c
theorem W6_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := W5_of_ne m c main_arg1 (by decide)
    _ = W3 m c (Proc.devRef .tc main_arg1) :=
        (W4_arr m c 1).trans (((dat0 (V3 m) c).arrAt_in 1 rfl _).trans (A_eq0 (V3 m) c 1))
    _ = m ((c : Thread nD τ).loc main_arg1) := V3_arg1 m c
/-- Region 2 reads `main_arg2` through an input window. -/
theorem W6_arg2 (c : Dev nD) : W6 m c (Proc.devRef .tc main_arg2) = m ((c : Thread nD τ).loc main_arg2) :=
  calc W6 m c (Proc.devRef .tc main_arg2)
    _ = W5 m c (Proc.devRef .tc main_arg2) :=
        (W6_arr m c 3).trans (((dat2 (V5 m) c).arrAt_in 3 rfl _).trans (A_eq2 (V5 m) c 3))
    _ = m ((c : Thread nD τ).loc main_arg2) := V5_arg2 m c
theorem W6_arg3 (c : Dev nD) : W6 m c (Proc.devRef .tc main_arg3) = m ((c : Thread nD τ).loc main_arg3) :=
  (W6_of_ne m c main_arg3 (by decide)).trans <| (W5_of_ne m c main_arg3 (by decide)).trans <|
    (W4_of_ne m c main_arg3 (by decide)).trans <| W3_launch m c main_arg3 (by decide) (by decide) (by decide)
theorem W6_arg4 (c : Dev nD) : W6 m c (Proc.devRef .tc main_arg4) = m ((c : Thread nD τ).loc main_arg4) :=
  (W6_of_ne m c main_arg4 (by decide)).trans <| (W5_of_ne m c main_arg4 (by decide)).trans <|
    (W4_of_ne m c main_arg4 (by decide)).trans <| W3_launch m c main_arg4 (by decide) (by decide) (by decide)

end Cert.KernelIdeal.Frame

end
-- ==== Proof.KI.Oblig0.lean ====
/- Region 0's body obligation. -/
import proofs.«419787_j49813030699305_2_alg».proof.Proof.KI.Dat
import proofs.«419787_j49813030699305_2_alg».proof.Proof.Gen.KernelIdeal.Points
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the input windows' buffers hold before the body -/

/-- Input window 0 (fetched at every point) holds its block at every point: the window is uncut and never idle, and the
    body leaves its block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (fetched at the first point only) holds its block at every point, fetched there or not: its block
    index never moves, the window is uncut and never idle, and the body leaves its block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

/-! ## The body's one store -/

/-- The whole rectangle of the output buffer: the body's one store writes it. -/
abbrev rOut0 : Rect S2000x128 := Rect.unit (s := S2000x128) ![0, 0] S2000x128.size inb_S2000x128_S2000x128_0_0

/-- The one store tiles the output buffer, so it covers it. -/
theorem cover0_2 (p0 : Vec F S2000x128 .bf16) (y : S2000x128.Idx) :
    ∃ pc ∈ ([⟨rOut0, p0⟩] : List (View.Piece (Elt F) S2000x128 .bf16)), y ∈ pc.1.set :=
  View.cover_of_tiled [⟨rOut0, p0⟩] S2000x128.size (by rfl) y

/-- The origin of a rank-2 shape, as the constant-zero index. -/
theorem hz0 : (![0, 0] : Fin 2 → Nat) = fun _ => 0 := funext fun a => by fin_cases a <;> rfl

/-! ## The body's triple -/

set_option maxHeartbeats 1000000 in
/-- The kernel body on whole staging memrefs, the two inputs' at read contents and the output's at anything, runs to the
    continuation holding the inputs' as they were and the output's at the payload of the two inputs. -/
theorem sound_kernel0 (c : Dev nD) (E : Set ℕ) (i : grid0.Coords)
    (arg1 : Memref sig .tc .vmem S2000x128 .f32) (harg1 : arg1.IsWhole)
    (arg2 : Memref sig .tc .vmem S128x128 .f32) (harg2 : arg2.IsWhole)
    (arg3 : Memref sig .tc .vmem S2000x128 .bf16) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover0_2 _), View.canon_unit_zero hz0]
  simp only [View.readAt_eq_ld, View.ld_unit_zero (S := S2000x128) hz0, View.ld_unit_zero (S := S128x128) hz0]

/-! ## The body obligation, at a generic point -/

/-- What the body is called with at point `t`: the invariant, what the core owes, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What the body returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for region 0's proof data, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KI.Oblig1.lean ====
/-
  Region 1's body obligation.

  At grid point (edge block, node chunk) the gather body adds the chunk's one-hot product to a scratch accumulator that
  lives across the 50 chunks of one edge block: at chunk 0 it first resets the accumulator to zero, at chunk 49 it also
  stores the accumulator, rounded, whole into the output block's staging buffer. So a point is in one of three cases,
  told apart by the chunk coordinate `t mod 50`; each case's run of the body is proved once for any staging memrefs,
  with the accumulator's contents after it stated explicitly, and the obligation at a point is the case's run between
  the invariant before the point and the invariant after it.
-/
import proofs.«419787_j49813030699305_2_alg».proof.Proof.KI.Dat
import proofs.«419787_j49813030699305_2_alg».proof.Proof.Gen.KernelIdeal.Points
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

namespace Obl1

/-! ## The body's two branch conditions, from the grid coordinates -/

/-- The condition of the reset: the chunk coordinate is 0. -/
abbrev cond1_0 (i : grid1.Coords) : Prop := (Scalar.cmpi .ne (Scalar.extui (Scalar.cmpi .eq (BitVec.ofNat 32 (i 1).val) 0#32)) 0#32) = 1#1
/-- The condition of the output store: the chunk coordinate is 49. -/
abbrev cond1_1 (i : grid1.Coords) : Prop := k1_cond2 i = 1#1

/-! ## The body on any staging memrefs, case by case

Every load and store of the body goes through the whole-shape rectangle at zero offsets, so a load reads the
buffer's contents and a store leaves its payload; a load of the accumulator after a store into it reads the payload
stored. -/

/-- Zero offsets, however spelt. -/
theorem hz1 : (![0] : Fin 1 → Nat) = fun _ => 0 := funext fun a => by fin_cases a <;> rfl
theorem hz2 : (![0, 0] : Fin 2 → Nat) = fun _ => 0 := funext fun a => by fin_cases a <;> rfl

set_option maxHeartbeats 1000000 in
/-- A middle chunk: the product of the chunk is added to what the accumulator held; the output buffer is not touched. -/
theorem run1_mid (c : Dev nD) (i : grid1.Coords) (arg2 : Memref sig .tc .vmem S4096 .i32) (harg2 : arg2.IsWhole) (arg3 : Memref sig .tc .vmem S2000x128 .bf16) (harg3 : arg3.IsWhole) (arg4 : Memref sig .tc .vmem S4096x128 .bf16) (harg4 : arg4.IsWhole) (arg5 : Memref sig .tc .vmem S4096x128 .f32) (harg5 : arg5.IsWhole)
    (hc0 : ¬cond1_0 i) (hc1 : ¬cond1_1 i)
    (x0 : Vec F S4096 .i32) (x1 : Vec F S2000x128 .bf16) (xs : Vec F S4096x128 .f32) (xi2 : Vec F S4096x128 .bf16) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs
        ∗ (iprop(owns (c : Thread nD τ) arg2 fullShare x0 ∗ owns (c : Thread nD τ) arg3 fullShare x1 ∗ owns (c : Thread nD τ) arg4 fullShare xi2 ∗ owns (c : Thread nD τ) arg5 fullShare (k1_pay2 i x0 x1 xs)) -∗ K ⟨⟩))
      ⊢ wp frame (wpE (defs₀ (F := F)) Variants.none c none) E (cc1__gather_kernel i arg2 harg2 arg3 harg3 arg4 harg4 arg5 harg5) K := by
  simp only [cc1__gather_kernel_eq_skeleton]; unfold cc1__gather_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  iexists _; isplitr
  swap; · iexact HS
  ipureintro
  rw [View.read_writes_eq_canon _ _ _ (fun y => ⟨_, List.mem_singleton_self _, View.mem_set_unit_zero hz2 inb_S4096x128_S4096x128_0_0 y⟩), View.canon_unit_zero hz2]
  simp only [View.readAt_eq_ld, harg2.read_unread, harg3.read_unread, harg5.read_unread, View.ld_unit_zero (S := S4096) hz1, View.ld_unit_zero (S := S2000x128) hz2, View.ld_unit_zero (S := S4096x128) hz2]

set_option maxHeartbeats 1000000 in
/-- The first chunk of an edge block: the accumulator is zeroed, then the chunk's product added; the output buffer is not touched. -/
theorem run1_first (c : Dev nD) (i : grid1.Coords) (arg2 : Memref sig .tc .vmem S4096 .i32) (harg2 : arg2.IsWhole) (arg3 : Memref sig .tc .vmem S2000x128 .bf16) (harg3 : arg3.IsWhole) (arg4 : Memref sig .tc .vmem S4096x128 .bf16) (harg4 : arg4.IsWhole) (arg5 : Memref sig .tc .vmem S4096x128 .f32) (harg5 : arg5.IsWhole)
    (hc0 : cond1_0 i) (hc1 : ¬cond1_1 i)
    (x0 : Vec F S4096 .i32) (x1 : Vec F S2000x128 .bf16) (xi2 : Vec F S4096x128 .bf16) (E : Set ℕ) (K : PUnit → sProp 𝕄) :
    iprop(owns (c : Thread nD τ) arg2 fullShare x0 ∗ owns (c : Thread nD τ) arg3 fullShare x1 ∗ owns (c : Thread nD τ) arg4 fullShare xi2 ∗ (∃ d, owns (c : Thread nD τ) arg5 fullShare d)
        ∗ (iprop(owns (c : Thread nD τ) arg2 fullShare x0 ∗ owns (c : Thread nD τ) arg3 fullShare x1 ∗ owns (c : Thread nD τ) arg4 fullShare xi2 ∗ owns (c : Thread nD τ) arg5 fullShare (k1_pay2 i x0 x1 k1_pay1)) -∗ K ⟨⟩))
      ⊢ wp frame (wpE (defs₀ (F := F)) Variants.none c none) E (cc1__gather_kernel i arg2 harg2 arg3 harg3 arg4 harg4 arg5 harg5) K := by
  simp only [cc1__gather_kernel_eq_skeleton]; unfold cc1__gather_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  iexists _; isplitr
  swap; · iexact HS
  ipureintro
  sl_unfold_words
  rw [View.read_writes_eq_canon _ _ _ (fun y => ⟨_, List.mem_cons.mpr (Or.inl rfl), View.mem_set_unit_zero hz2 inb_S4096x128_S4096x128_0_0 y⟩), View.canon_cons_unit_zero (S := S4096x128) hz2]
  simp only [View.readAt_eq_ld, harg2.read_unread, harg3.read_unread, View.ld_unit_zero (S := S4096) hz1, View.ld_unit_zero (S := S2000x128) hz2, View.readCov_unit_zero (S := S4096x128) _ hz2]

set_option maxHeartbeats 1000000 in
/-- The last chunk of an edge block: the chunk's product is added to the accumulator, and the accumulator, rounded, stored whole into the output buffer. -/
theorem run1_last (c : Dev nD) (i : grid1.Coords) (arg2 : Memref sig .tc .vmem S4096 .i32) (harg2 : arg2.IsWhole) (arg3 : Memref sig .tc .vmem S2000x128 .bf16) (harg3 : arg3.IsWhole) (arg4 : Memref sig .tc .vmem S4096x128 .bf16) (harg4 : arg4.IsWhole) (arg5 : Memref sig .tc .vmem S4096x128 .f32) (harg5 : arg5.IsWhole)
    (hc0 : ¬cond1_0 i) (hc1 : cond1_1 i)
    (x0 : Vec F S4096 .i32) (x1 : Vec F S2000x128 .bf16) (xs : Vec F S4096x128 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k1_pay3 (k1_pay2 i x0 x1 xs)) ∗ owns (c : Thread nD τ) arg5 fullShare (k1_pay2 i x0 x1 xs)) -∗ K ⟨⟩))
      ⊢ wp frame (wpE (defs₀ (F := F)) Variants.none c none) E (cc1__gather_kernel i arg2 harg2 arg3 harg3 arg4 harg4 arg5 harg5) K := by
  simp only [cc1__gather_kernel_eq_skeleton]; unfold cc1__gather_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (fun y => ⟨_, List.mem_singleton_self _, View.mem_set_unit_zero hz2 inb_S4096x128_S4096x128_0_0 y⟩), View.canon_unit_zero hz2]
    simp only [View.readAt_eq_ld, harg2.read_unread, harg3.read_unread, harg5.read_unread, View.ld_unit_zero (S := S4096) hz1, View.ld_unit_zero (S := S2000x128) hz2, View.ld_unit_zero (S := S4096x128) hz2, View.readCov_unit_zero (S := S4096x128) _ hz2]
  iexists _; isplitr
  swap; · iexact HS
  ipureintro
  sl_unfold_words
  rw [View.read_writes_eq_canon _ _ _ (fun y => ⟨_, List.mem_singleton_self _, View.mem_set_unit_zero hz2 inb_S4096x128_S4096x128_0_0 y⟩), View.canon_unit_zero hz2]
  simp only [View.readAt_eq_ld, harg2.read_unread, harg3.read_unread, harg5.read_unread, View.ld_unit_zero (S := S4096) hz1, View.ld_unit_zero (S := S2000x128) hz2, View.ld_unit_zero (S := S4096x128) hz2]

/-! ## The branch conditions in closed form -/

/-- The chunk coordinate of point `t` is `t mod 50`: the grid is walked with the chunk axis fastest. -/
theorem coord1_val (t : Fin grid1.N) : ((grid1.coords t) 1).val = t.val % 50 := by
  show t.val / grid1.stride 1 % 50 = t.val % 50
  rw [show grid1.stride 1 = 1 from by decide, Nat.div_one]

/-- The first condition, as a function of the chunk coordinate alone, holds at chunk 0 only; -/
theorem cond_first_iff : ∀ n : Fin 50, ((Scalar.cmpi .ne (Scalar.extui (Scalar.cmpi .eq (BitVec.ofNat 32 n.val) 0#32)) 0#32) = 1#1) ↔ n.val = 0 := by decide +kernel
/-- the last, at chunk 49 only. -/
theorem cond_last_iff : ∀ n : Fin 50, ((Scalar.cmpi .ne (Scalar.extui (Scalar.cmpi .eq (BitVec.ofNat 32 n.val) 49#32)) 0#32) = 1#1) ↔ n.val = 49 := by decide +kernel

theorem hcond1_0 (t : Fin cfg1.N) : cond1_0 (grid1.coords t) ↔ t.val % 50 = 0 := by
  have h := cond_first_iff ⟨t.val % 50, Nat.mod_lt _ (by decide)⟩
  show (Scalar.cmpi .ne (Scalar.extui (Scalar.cmpi .eq (BitVec.ofNat 32 ((grid1.coords t) 1).val) 0#32)) 0#32) = 1#1 ↔ _
  rw [coord1_val t]; exact h

theorem hcond1_1 (t : Fin cfg1.N) : cond1_1 (grid1.coords t) ↔ t.val % 50 = 49 := by
  have h := cond_last_iff ⟨t.val % 50, Nat.mod_lt _ (by decide)⟩
  show (Scalar.cmpi .ne (Scalar.extui (Scalar.cmpi .eq (BitVec.ofNat 32 ((grid1.coords t) 1).val) 49#32)) 0#32) = 1#1 ↔ _
  rw [coord1_val t]; exact h

/-! ## Where the windows are idle -/

theorem liveAt1_0 (t : Fin cfg1.N) : cfg1.idle 0 (grid1.coords t) = false := rfl
theorem liveAt1_1 (t : Fin cfg1.N) : cfg1.idle 1 (grid1.coords t) = false := rfl
/-- The output window is idle wherever the last condition fails, -/
theorem idleAt1_2 (t : Fin cfg1.N) (h : ¬cond1_1 (grid1.coords t)) : cfg1.idle 2 (grid1.coords t) = true := by
  show (!(k1_cond2 (grid1.coords t) == 1#1)) = true
  cases hb : (k1_cond2 (grid1.coords t) == 1#1)
  · rfl
  · exact absurd (eq_of_beq hb) h
/-- live where it holds, -/
theorem liveAt1_2 (t : Fin cfg1.N) (h : cond1_1 (grid1.coords t)) : cfg1.idle 2 (grid1.coords t) = false := by
  show (!(k1_cond2 (grid1.coords t) == 1#1)) = false
  rw [show k1_cond2 (grid1.coords t) = 1#1 from h]; rfl
/-- and not written back before the last chunk. -/
theorem noFlush1_2 (t : Fin cfg1.N) (h : ¬t.val % 50 = 49) : (cfg1.win 2).flush t = false :=
  Bool.eq_false_iff.mpr fun hf => h ((flush1_2 t).mp hf)

/-! ## The input windows hold their blocks -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-! ## The body obligation at a generic point -/

/-- Each window's current staging memref at point `t`, as the pipeline passes it to the body, and its wholeness. -/
abbrev ms1_0 (t : Fin cfg1.N) : Memref sig .tc .vmem S4096 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x128 .bf16 := win1_2.stage (cfg1.slots t 2)
abbrev hs1_2 (t : Fin cfg1.N) : (ms1_2 t).IsWhole := hstage1_2 ((cfg1.slots t 2).cast nbuf1_2)

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The input buffers hold their blocks; the chunk coordinate says which of the three cases the
    point is in. At the first point of the grid the accumulator, holding arbitrary contents, is taken out of the scoped
    rest, and the other fifteen scoped buffers are kept as the promise to give the scoped rest back in exchange for the
    accumulator with arbitrary contents; at a later point the invariant holds the accumulator with the contents the point
    before left, and that promise and the generator register pass through unchanged. After the body the accumulator holds
    the point's explicit contents; the output buffer is handed back as found before the last chunk, and holds the
    accumulator rounded after it. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1]
  rw [show (dat1 V c).owesAt () t.succ = (dat1 V c).owesAt () t.castSucc from rfl]
  rw [Phi1_succ, PhiS1_succ, Phi1_castSucc]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  by_cases h0 : t.val % 50 = 0
  · -- the first chunk of an edge block
    have h2 : ¬t.val % 50 = 49 := by omega
    have hc0 : cond1_0 (grid1.coords t) := (hcond1_0 t).mpr h0
    have hc1 : ¬cond1_1 (grid1.coords t) := fun h => h2 ((hcond1_1 t).mp h)
    rw [Dat.leavesExact_idle (dat1 V c) 2 t (idleAt1_2 t hc1) (noFlush1_2 t h2)]
    rw [sAt1_reset V c t h0]
    by_cases hz : t.val = 0
    · rw [PhiS1_zero V c _ _ hz]; unfold Pipeline.ΦA; rw [scopedRest1_eq]
      iintro ⟨⟨⟨B0, B1, B2, B3, B4, ⟨%fS, HS⟩, B6, B7, B8, B9, B10, B11, B12, B13, B14, B15⟩, Hg⟩, Ho, ⟨%d0, H0⟩, ⟨%d1, H1⟩, ⟨%d2, H2⟩⟩
      iapply (run1_first c (grid1.coords t) _ _ _ _ _ _ _ _ hc0 hc1 (iblk1 V c 0 t) (iblk1 V c 1 t) _ Set.univ _)
      isplitl [H0]; · iexact H0
      isplitl [H1]; · iexact H1
      isplitl [H2]; · iexact H2
      isplitl [HS]
      · iexists fS; simp only [scM1, owns_whole]; iexact HS
      iintro ⟨H0, H1, H2, HS⟩
      isplitr [Ho H0 H1 H2]
      · isplitl [HS]; · iexact HS
        isplitr [Hg]
        · simp only [scM1, owns_whole]
          iintro ⟨%fS', HS'⟩
          isplitl [B0]; · iexact B0
          isplitl [B1]; · iexact B1
          isplitl [B2]; · iexact B2
          isplitl [B3]; · iexact B3
          isplitl [B4]; · iexact B4
          isplitl [HS']; · iexists fS'; iexact HS'
          isplitl [B6]; · iexact B6
          isplitl [B7]; · iexact B7
          isplitl [B8]; · iexact B8
          isplitl [B9]; · iexact B9
          isplitl [B10]; · iexact B10
          isplitl [B11]; · iexact B11
          isplitl [B12]; · iexact B12
          isplitl [B13]; · iexact B13
          isplitl [B14]; · iexact B14
          iexact B15
        · iexact Hg
      isplitl [Ho]; · iexact Ho
      isplitl [H0]; · iexact H0
      isplitl [H1]; · iexact H1
      iexists _; iexact H2
    · rw [PhiS1_pos V c _ _ hz]
      iintro ⟨⟨HS, Hw, Hg⟩, Ho, ⟨%d0, H0⟩, ⟨%d1, H1⟩, ⟨%d2, H2⟩⟩
      iapply (run1_first c (grid1.coords t) _ _ _ _ _ _ _ _ hc0 hc1 (iblk1 V c 0 t) (iblk1 V c 1 t) _ Set.univ _)
      isplitl [H0]; · iexact H0
      isplitl [H1]; · iexact H1
      isplitl [H2]; · iexact H2
      isplitl [HS]; · iexists _; iexact HS
      iintro ⟨H0, H1, H2, HS⟩
      isplitl [HS Hw Hg]
      · isplitl [HS]; · iexact HS
        isplitl [Hw]; · iexact Hw
        iexact Hg
      isplitl [Ho]; · iexact Ho
      isplitl [H0]; · iexact H0
      isplitl [H1]; · iexact H1
      iexists _; iexact H2
  · have hz : t.val ≠ 0 := fun e => h0 (by rw [e])
    have hc0 : ¬cond1_0 (grid1.coords t) := fun h => h0 ((hcond1_0 t).mp h)
    rw [sAt1_acc V c t h0, PhiS1_pos V c _ _ hz]
    by_cases h2 : t.val % 50 = 49
    · -- the last chunk: the output block is stored
      have hc1 : cond1_1 (grid1.coords t) := (hcond1_1 t).mpr h2
      rw [show (dat1 V c).leavesExact 2 t = owns (c : Thread nD τ) (ms1_2 t) fullShare ((dat1 V c).after 2 t) from by
          unfold Dat.leavesExact; rw [liveAt1_2 t hc1], after1_2, sAt1_acc V c t h0]
      iintro ⟨⟨HS, Hw, Hg⟩, Ho, ⟨%d0, H0⟩, ⟨%d1, H1⟩, ⟨%d2, H2⟩⟩
      iapply (run1_last c (grid1.coords t) _ _ _ _ _ _ _ _ hc0 hc1 (iblk1 V c 0 t) (iblk1 V c 1 t) _ Set.univ _)
      isplitl [H0]; · iexact H0
      isplitl [H1]; · iexact H1
      isplitl [H2]; · iexists _; iexact H2
      isplitl [HS]; · iexact HS
      iintro ⟨H0, H1, H2, HS⟩
      isplitl [HS Hw Hg]
      · isplitl [HS]; · iexact HS
        isplitl [Hw]; · iexact Hw
        iexact Hg
      isplitl [Ho]; · iexact Ho
      isplitl [H0]; · iexact H0
      isplitl [H1]; · iexact H1
      iexact H2
    · -- a middle chunk
      have hc1 : ¬cond1_1 (grid1.coords t) := fun h => h2 ((hcond1_1 t).mp h)
      rw [Dat.leavesExact_idle (dat1 V c) 2 t (idleAt1_2 t hc1) (noFlush1_2 t h2)]
      iintro ⟨⟨HS, Hw, Hg⟩, Ho, ⟨%d0, H0⟩, ⟨%d1, H1⟩, ⟨%d2, H2⟩⟩
      iapply (run1_mid c (grid1.coords t) _ _ _ _ _ _ _ _ hc0 hc1 (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HS Hw Hg]
      · isplitl [HS]; · iexact HS
        isplitl [Hw]; · iexact Hw
        iexact Hg
      isplitl [Ho]; · iexact Ho
      isplitl [H0]; · iexact H0
      isplitl [H1]; · iexact H1
      iexists _; iexact H2

end Obl1

open Obl1 in
/-- The library's body obligation for region 1's proof data, at every point. -/
theorem body_obligation1 (c : Dev nD) : BodyObligation (dat1 (F := F) V c) (defs₀ (F := F)) Variants.none () Set.univ := fun t => by
  rw [bigSep_W1, bigSep_W1]
  exact sound_body V c t

end Cert.KernelIdeal.Frame

end
-- ==== Proof.KI.Oblig2.lean ====
/-
  Region 2's body obligation (the scatter).

  At grid point (node chunk, edge block) the body: at edge block 0 stores zeros whole into the accumulator; adds the
  block's one-hot product (destination indices against the gathered rows) to the accumulator, stored whole; and at edge
  block 415 stores whole into the output buffer the accumulator scaled by the node factors plus the bias. So a point is in
  one of three cases by its position in the node chunk: first block (reset and accumulate), a middle block (accumulate),
  last block (accumulate and output); 416 > 1, so first and last are different points.

  Each case is run once on any whole staging memrefs, its post naming the accumulator's (and the output buffer's) contents
  over the payloads: a whole store read back is its payload. At a point, the closed forms of the two conditions over the
  grid select the case; the four input windows hold their blocks and are handed back as found; the output window is live
  only at a last block, and elsewhere idle and not written back, so its buffer is handed back untouched. The invariant
  gives the accumulator — out of the scoped rest before the very first point, at what the point before left afterwards —
  and takes it back at this point's contents, which is the recursion `sAt2`: its reset equation at a first block, its
  accumulation equation elsewhere. The other scoped buffers (as what takes the accumulator back to make the scoped rest)
  and the generator register pass through.
-/
import proofs.«419787_j49813030699305_2_alg».proof.Proof.KI.Dat
import proofs.«419787_j49813030699305_2_alg».proof.Proof.Gen.KernelIdeal.Points
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

namespace Obl2

/-! ## The body's two conditions, in closed form over the grid -/

/-- The first conditional's condition (the edge-block coordinate is 0), the scalar chain substituted. -/
abbrev cond2_0 (i : grid2.Coords) : Prop :=
  (Scalar.cmpi .ne (Scalar.extui (Scalar.cmpi .eq (BitVec.ofNat 32 (i 1).val) 0#32)) 0#32) = 1#1
/-- The second conditional's condition (the edge-block coordinate is 415). -/
abbrev cond2_1 (i : grid2.Coords) : Prop := k2_cond2 i = 1#1

/-- The first holds exactly at the first edge block of a node chunk. -/
theorem hcond2_0 : ∀ t : Fin cfg2.N, cond2_0 (grid2.coords t) ↔ t.val % 416 = 0 :=
  (by decide +kernel : ∀ t : Fin grid2.N, cond2_0 (grid2.coords t) ↔ t.val % 416 = 0)
/-- The second holds exactly at the last edge block of a node chunk. -/
theorem hcond2_1 : ∀ t : Fin cfg2.N, cond2_1 (grid2.coords t) ↔ t.val % 416 = 415 :=
  (by decide +kernel : ∀ t : Fin grid2.N, cond2_1 (grid2.coords t) ↔ t.val % 416 = 415)

/-! ## The body on any whole staging memrefs, case by case

Each case is stated with the accumulator's (and, in the last case, the output buffer's) contents after the body
written out over the payloads: what the body stores whole, read back, is the payload. -/

theorem hz1 : (![0] : Fin 1 → Nat) = fun _ => 0 := by funext a; fin_cases a; rfl
theorem hz2 : (![0, 0] : Fin 2 → Nat) = fun _ => 0 := by funext a; fin_cases a <;> rfl

set_option maxHeartbeats 1000000 in
/-- First edge block of a node chunk (and not the last): the accumulator, at anything, is zeroed, then the block's
    product is added to the zeros; the output buffer and the node-factor and bias blocks are not touched. -/
theorem kernelRun2_A (c : Dev nD) (i : grid2.Coords)
    (arg2 : Memref sig .tc .vmem S4096 .i32) (harg2 : arg2.IsWhole) (arg3 : Memref sig .tc .vmem S4096x128 .bf16) (harg3 : arg3.IsWhole)
    (arg4 : Memref sig .tc .vmem S2000x1 .f32) (harg4 : arg4.IsWhole) (arg5 : Memref sig .tc .vmem S128 .f32) (harg5 : arg5.IsWhole)
    (arg6 : Memref sig .tc .vmem S2000x128 .f32) (harg6 : arg6.IsWhole) (arg7 : Memref sig .tc .vmem S2000x128 .f32) (harg7 : arg7.IsWhole)
    (hc0 : cond2_0 i) (hc1 : ¬cond2_1 i)
    (x0 : Vec F S4096 .i32) (x1 : Vec F S4096x128 .bf16)
    (E : Set ℕ) (K : PUnit → sProp 𝕄) :
    iprop(owns (c : Thread nD τ) arg2 fullShare x0 ∗ owns (c : Thread nD τ) arg3 fullShare x1 ∗ (∃ d, owns (c : Thread nD τ) arg7 fullShare d)
        ∗ (iprop(owns (c : Thread nD τ) arg2 fullShare x0 ∗ owns (c : Thread nD τ) arg3 fullShare x1
            ∗ owns (c : Thread nD τ) arg7 fullShare (k2_pay2 i x0 x1 k2_pay1)) -∗ K ⟨⟩))
      ⊢ wp frame (wpE (defs₀ (F := F)) Variants.none c none) E (cc2__scatter_kernel i arg2 harg2 arg3 harg3 arg4 harg4 arg5 harg5 arg6 harg6 arg7 harg7) K := by
  simp only [cc2__scatter_kernel_eq_skeleton]; unfold cc2__scatter_kernel_skel
  unfold owns
  iintro ⟨⟨%f0, %hf0, H0⟩, ⟨%f1, %hf1, H1⟩, ⟨%ds0, %fs0, -, HS0⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  sl_unfold_words
  rw [View.read_writes_eq_canon _ _ _ (fun y => ⟨_, List.mem_cons.mpr (Or.inl rfl), View.mem_set_unit_zero hz2 inb_S2000x128_S2000x128_0_0 y⟩)]
  rw [View.canon_cons_unit_zero (S := S2000x128) hz2]
  simp only [View.readAt_eq_ld, harg2.read_unread, harg3.read_unread, View.ld_unit_zero (S := S4096) hz1,
    View.ld_unit_zero (S := S4096x128) hz2, View.readCov_unit_zero (S := S2000x128) _ hz2]

set_option maxHeartbeats 1000000 in
/-- A middle edge block: the block's product is added to what the accumulator held. -/
theorem kernelRun2_B (c : Dev nD) (i : grid2.Coords)
    (arg2 : Memref sig .tc .vmem S4096 .i32) (harg2 : arg2.IsWhole) (arg3 : Memref sig .tc .vmem S4096x128 .bf16) (harg3 : arg3.IsWhole)
    (arg4 : Memref sig .tc .vmem S2000x1 .f32) (harg4 : arg4.IsWhole) (arg5 : Memref sig .tc .vmem S128 .f32) (harg5 : arg5.IsWhole)
    (arg6 : Memref sig .tc .vmem S2000x128 .f32) (harg6 : arg6.IsWhole) (arg7 : Memref sig .tc .vmem S2000x128 .f32) (harg7 : arg7.IsWhole)
    (hc0 : ¬cond2_0 i) (hc1 : ¬cond2_1 i)
    (x0 : Vec F S4096 .i32) (x1 : Vec F S4096x128 .bf16) (xs : Vec F S2000x128 .f32)
    (E : Set ℕ) (K : PUnit → sProp 𝕄) :
    iprop(owns (c : Thread nD τ) arg2 fullShare x0 ∗ owns (c : Thread nD τ) arg3 fullShare x1 ∗ owns (c : Thread nD τ) arg7 fullShare xs
        ∗ (iprop(owns (c : Thread nD τ) arg2 fullShare x0 ∗ owns (c : Thread nD τ) arg3 fullShare x1
            ∗ owns (c : Thread nD τ) arg7 fullShare (k2_pay2 i x0 x1 xs)) -∗ K ⟨⟩))
      ⊢ wp frame (wpE (defs₀ (F := F)) Variants.none c none) E (cc2__scatter_kernel i arg2 harg2 arg3 harg3 arg4 harg4 arg5 harg5 arg6 harg6 arg7 harg7) K := by
  simp only [cc2__scatter_kernel_eq_skeleton]; unfold cc2__scatter_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg7.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  sl_unfold_words
  rw [View.read_writes_eq_canon _ _ _ (fun y => ⟨_, List.mem_cons.mpr (Or.inl rfl), View.mem_set_unit_zero hz2 inb_S2000x128_S2000x128_0_0 y⟩)]
  rw [View.canon_cons_unit_zero (S := S2000x128) hz2]
  simp only [View.readAt_eq_ld, harg2.read_unread, harg3.read_unread, harg7.read_unread, View.ld_unit_zero (S := S4096) hz1,
    View.ld_unit_zero (S := S4096x128) hz2, View.ld_unit_zero (S := S2000x128) hz2]

set_option maxHeartbeats 1000000 in
/-- The last edge block of a node chunk: the block's product is added to what the accumulator held, and the output
    buffer, at anything, is stored whole at the accumulator scaled by the node factors plus the bias. -/
theorem kernelRun2_C (c : Dev nD) (i : grid2.Coords)
    (arg2 : Memref sig .tc .vmem S4096 .i32) (harg2 : arg2.IsWhole) (arg3 : Memref sig .tc .vmem S4096x128 .bf16) (harg3 : arg3.IsWhole)
    (arg4 : Memref sig .tc .vmem S2000x1 .f32) (harg4 : arg4.IsWhole) (arg5 : Memref sig .tc .vmem S128 .f32) (harg5 : arg5.IsWhole)
    (arg6 : Memref sig .tc .vmem S2000x128 .f32) (harg6 : arg6.IsWhole) (arg7 : Memref sig .tc .vmem S2000x128 .f32) (harg7 : arg7.IsWhole)
    (hc0 : ¬cond2_0 i) (hc1 : cond2_1 i)
    (x0 : Vec F S4096 .i32) (x1 : Vec F S4096x128 .bf16) (x2 : Vec F S2000x1 .f32) (x3 : Vec F S128 .f32) (xs : Vec F S2000x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (k2_pay3 x2 (k2_pay2 i x0 x1 xs) x3)
            ∗ owns (c : Thread nD τ) arg7 fullShare (k2_pay2 i x0 x1 xs)) -∗ K ⟨⟩))
      ⊢ wp frame (wpE (defs₀ (F := F)) Variants.none c none) E (cc2__scatter_kernel i arg2 harg2 arg3 harg3 arg4 harg4 arg5 harg5 arg6 harg6 arg7 harg7) K := by
  simp only [cc2__scatter_kernel_eq_skeleton]; unfold cc2__scatter_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
  obtain rfl := harg2.eq_unread hf0; obtain rfl := harg3.eq_unread hf1; obtain rfl := harg4.eq_unread hf2
  obtain rfl := harg5.eq_unread hf3; obtain rfl := harg7.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    rw [View.read_writes_eq_canon _ _ _ (fun y => ⟨_, List.mem_cons.mpr (Or.inl rfl), View.mem_set_unit_zero hz2 inb_S2000x128_S2000x128_0_0 y⟩)]
    rw [View.canon_cons_unit_zero (S := S2000x128) hz2]
    simp only [View.readAt_eq_ld, harg2.read_unread, harg3.read_unread, harg4.read_unread, harg5.read_unread, harg7.read_unread,
      View.ld_unit_zero (S := S4096) hz1, View.ld_unit_zero (S := S128) hz1, View.ld_unit_zero (S := S4096x128) hz2,
      View.ld_unit_zero (S := S2000x1) hz2, View.ld_unit_zero (S := S2000x128) hz2, View.readCov_unit_zero (S := S2000x128) _ hz2]
  iexists _; isplitr
  swap; · iexact HS0
  ipureintro
  sl_unfold_words
  rw [View.read_writes_eq_canon _ _ _ (fun y => ⟨_, List.mem_cons.mpr (Or.inl rfl), View.mem_set_unit_zero hz2 inb_S2000x128_S2000x128_0_0 y⟩)]
  rw [View.canon_cons_unit_zero (S := S2000x128) hz2]
  simp only [View.readAt_eq_ld, harg2.read_unread, harg3.read_unread, harg7.read_unread, View.ld_unit_zero (S := S4096) hz1,
    View.ld_unit_zero (S := S4096x128) hz2, View.ld_unit_zero (S := S2000x128) hz2]

/-! ## Where the windows are idle, and the staging memrefs at a point -/

theorem liveAt2_0 (t : Fin cfg2.N) : cfg2.idle 0 (grid2.coords t) = false := rfl
theorem liveAt2_1 (t : Fin cfg2.N) : cfg2.idle 1 (grid2.coords t) = false := rfl
theorem liveAt2_2 (t : Fin cfg2.N) : cfg2.idle 2 (grid2.coords t) = false := rfl
theorem liveAt2_3 (t : Fin cfg2.N) : cfg2.idle 3 (grid2.coords t) = false := rfl
/-- Where the second condition fails the output window is idle, -/
theorem idleAt2_4 (t : Fin cfg2.N) (h : ¬cond2_1 (grid2.coords t)) : cfg2.idle 4 (grid2.coords t) = true := by
  show (!(k2_cond2 (grid2.coords t) == 1#1)) = true
  rw [beq_eq_false_iff_ne.mpr h]; rfl
/-- where it holds, live; -/
theorem liveAt2_4 (t : Fin cfg2.N) (h : cond2_1 (grid2.coords t)) : cfg2.idle 4 (grid2.coords t) = false := by
  show (!(k2_cond2 (grid2.coords t) == 1#1)) = false
  rw [show k2_cond2 (grid2.coords t) = 1#1 from h]; rfl
/-- and off the last edge block of a node chunk its block is not written back. -/
theorem noFlush2_4 (t : Fin cfg2.N) (h : ¬t.val % 416 = 415) : (cfg2.win 4).flush t = false :=
  Bool.eq_false_iff.mpr fun hf => h ((flush2_4 t).mp hf)

/-- Each window's current staging memref at point `t`, as the pipeline passes it to the body, and its wholeness. -/
abbrev ms2_0 (t : Fin cfg2.N) : Memref sig .tc .vmem S4096 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2000x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2000x128 .f32 := win2_4.stage (cfg2.slots t 4)
abbrev hs2_4 (t : Fin cfg2.N) : (ms2_4 t).IsWhole := hstage2_4 ((cfg2.slots t 4).cast nbuf2_4)

/-! ## What the body finds in the input windows, and leaves there -/

/-- An input's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
      (fun t => by rw [after2_3]; unfold Dat.blockOf iblk2; rw [A_eq2]; try rfl) t d).trans
    (by unfold Dat.fetched Dat.blockOf iblk2; rw [A_eq2]; try rfl)

/-- The obligation's post for an input window, which is never idle: its buffer at its block. -/
theorem leaves2_0 (c : Dev nD) (t : Fin cfg2.N) :
    (dat2 V c).leavesExact 0 t = owns (c : Thread nD τ) (ms2_0 t) fullShare (iblk2 V c 0 t) := by
  rw [← after2_0 V c t]
theorem leaves2_1 (c : Dev nD) (t : Fin cfg2.N) :
    (dat2 V c).leavesExact 1 t = owns (c : Thread nD τ) (ms2_1 t) fullShare (iblk2 V c 1 t) := by
  rw [← after2_1 V c t]
theorem leaves2_2 (c : Dev nD) (t : Fin cfg2.N) :
    (dat2 V c).leavesExact 2 t = owns (c : Thread nD τ) (ms2_2 t) fullShare (iblk2 V c 2 t) := by
  rw [← after2_2 V c t]
theorem leaves2_3 (c : Dev nD) (t : Fin cfg2.N) :
    (dat2 V c).leavesExact 3 t = owns (c : Thread nD τ) (ms2_3 t) fullShare (iblk2 V c 3 t) := by
  rw [← after2_3 V c t]
/-- For the output window where it is live: its buffer at the output payload. -/
theorem leaves2_4 (c : Dev nD) (t : Fin cfg2.N) (h : cond2_1 (grid2.coords t)) :
    (dat2 V c).leavesExact 4 t = owns (c : Thread nD τ) (ms2_4 t) fullShare
      (k2_pay3 (iblk2 V c 2 t) (sAt2 V c t.val t.isLt) (iblk2 V c 3 t)) := by
  rw [← after2_4 V c t]; unfold Dat.leavesExact; rw [liveAt2_4 t h]

/-! ## The accumulator out of the scoped rest -/

/-- The scoped rest hands out the accumulator at some contents, and what is left takes it back at any contents. -/
theorem scoped2_take (c : Dev nD) :
    (Pipeline.scopedRest (Ix := Unit) (Name := ℕ) (U := UR sig nD τ) (Lvl := ℕ) (Val := Elt F) spec2 c : sProp 𝕄)
      ⊢ iprop((∃ d, owns (c : Thread nD τ) scM2 fullShare d)
          ∗ (iprop(∃ f, owns (c : Thread nD τ) scM2 fullShare f)
              -∗ Pipeline.scopedRest (Ix := Unit) (Name := ℕ) (U := UR sig nD τ) (Lvl := ℕ) (Val := Elt F) spec2 c)) := by
  rw [scopedRest2_eq]
  simp only [scM2, owns_whole]
  iintro ⟨H1, H2, H3, H4, H5, H6, H7, H8, H9, H10, H11, H12, HS⟩
  isplitl [HS]; · iexact HS
  iintro HS
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact HS

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point. The inputs' memrefs hold their blocks; the point's position in its node chunk selects the
    case. At the first edge block the accumulator comes at anything (out of the scoped rest before the very first point,
    at what the point before left otherwise) and is left at the block's product added to zeros; at a later block it comes
    at what the point before left and is left at the block's product added to that; at the last block the output buffer is
    moreover stored at the output payload, and elsewhere handed back as found. The other scoped buffers (as what takes the
    accumulator back) and the generator register pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [Phi2_succ, PhiS2_succ, Phi2_castSucc]
  rw [leaves2_0, leaves2_1, leaves2_2, leaves2_3]
  by_cases h0 : t.val % 416 = 0
  · have h1 : ¬t.val % 416 = 415 := by omega
    rw [Dat.leavesExact_idle (dat2 V c) 4 t (idleAt2_4 t (fun h => h1 ((hcond2_1 t).mp h))) (noFlush2_4 t h1)]
    rw [sAt2_reset V c t h0]
    by_cases hz : t.val = 0
    · rw [PhiS2_zero V c _ _ hz]; unfold Pipeline.ΦA
      iintro ⟨⟨Hsc, Hg⟩, Ho, ⟨%d0, H0⟩, ⟨%d1, H1⟩, ⟨%d2, H2⟩, ⟨%d3, H3⟩, ⟨%d4, H4⟩⟩
      ihave Hsc' := (scoped2_take (F := F) c) $$ Hsc
      icases Hsc' with ⟨HS, Hw⟩
      iapply (kernelRun2_A c (grid2.coords t) (ms2_0 t) (hs2_0 t) (ms2_1 t) (hs2_1 t) (ms2_2 t) (hs2_2 t) (ms2_3 t) (hs2_3 t)
        (ms2_4 t) (hs2_4 t) scM2 (Memref.isWhole_whole _) ((hcond2_0 t).mpr h0) (fun h => h1 ((hcond2_1 t).mp h))
        (iblk2 V c 0 t) (iblk2 V c 1 t) Set.univ _)
      isplitl [H0]; · iexact H0
      isplitl [H1]; · iexact H1
      isplitl [HS]; · iexact HS
      iintro ⟨H0, H1, HS⟩
      isplitl [HS Hw Hg]
      · isplitl [HS]; · iexact HS
        isplitl [Hw]; · iexact Hw
        iexact Hg
      isplitl [Ho]; · iexact Ho
      isplitl [H0]; · iexact H0
      isplitl [H1]; · iexact H1
      isplitl [H2]; · iexact H2
      isplitl [H3]; · iexact H3
      iexists _; iexact H4
    · rw [PhiS2_pos V c _ _ hz]
      iintro ⟨⟨HS, Hw, Hg⟩, Ho, ⟨%d0, H0⟩, ⟨%d1, H1⟩, ⟨%d2, H2⟩, ⟨%d3, H3⟩, ⟨%d4, H4⟩⟩
      iapply (kernelRun2_A c (grid2.coords t) (ms2_0 t) (hs2_0 t) (ms2_1 t) (hs2_1 t) (ms2_2 t) (hs2_2 t) (ms2_3 t) (hs2_3 t)
        (ms2_4 t) (hs2_4 t) scM2 (Memref.isWhole_whole _) ((hcond2_0 t).mpr h0) (fun h => h1 ((hcond2_1 t).mp h))
        (iblk2 V c 0 t) (iblk2 V c 1 t) Set.univ _)
      isplitl [H0]; · iexact H0
      isplitl [H1]; · iexact H1
      isplitl [HS]; · iexists _; iexact HS
      iintro ⟨H0, H1, HS⟩
      isplitl [HS Hw Hg]
      · isplitl [HS]; · iexact HS
        isplitl [Hw]; · iexact Hw
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [PhiS2_pos V c _ _ hz, sAt2_acc V c t h0]
    by_cases h1 : t.val % 416 = 415
    · rw [leaves2_4 V c t ((hcond2_1 t).mpr h1), sAt2_acc V c t h0]
      iintro ⟨⟨HS, Hw, Hg⟩, Ho, ⟨%d0, H0⟩, ⟨%d1, H1⟩, ⟨%d2, H2⟩, ⟨%d3, H3⟩, ⟨%d4, H4⟩⟩
      iapply (kernelRun2_C c (grid2.coords t) (ms2_0 t) (hs2_0 t) (ms2_1 t) (hs2_1 t) (ms2_2 t) (hs2_2 t) (ms2_3 t) (hs2_3 t)
        (ms2_4 t) (hs2_4 t) scM2 (Memref.isWhole_whole _) (fun h => h0 ((hcond2_0 t).mp h)) ((hcond2_1 t).mpr h1)
        (iblk2 V c 0 t) (iblk2 V c 1 t) (iblk2 V c 2 t) (iblk2 V c 3 t)
        (sAt2 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hw Hg]
      · isplitl [HS]; · iexact HS
        isplitl [Hw]; · iexact Hw
        iexact Hg
      isplitl [Ho]; · iexact Ho
      isplitl [H0]; · iexact H0
      isplitl [H1]; · iexact H1
      isplitl [H2]; · iexact H2
      isplitl [H3]; · iexact H3
      iexact H4
    · rw [Dat.leavesExact_idle (dat2 V c) 4 t (idleAt2_4 t (fun h => h1 ((hcond2_1 t).mp h))) (noFlush2_4 t h1)]
      iintro ⟨⟨HS, Hw, Hg⟩, Ho, ⟨%d0, H0⟩, ⟨%d1, H1⟩, ⟨%d2, H2⟩, ⟨%d3, H3⟩, ⟨%d4, H4⟩⟩
      iapply (kernelRun2_B c (grid2.coords t) (ms2_0 t) (hs2_0 t) (ms2_1 t) (hs2_1 t) (ms2_2 t) (hs2_2 t) (ms2_3 t) (hs2_3 t)
        (ms2_4 t) (hs2_4 t) scM2 (Memref.isWhole_whole _) (fun h => h0 ((hcond2_0 t).mp h)) (fun h => h1 ((hcond2_1 t).mp h))
        (iblk2 V c 0 t) (iblk2 V c 1 t)
        (sAt2 V c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [HS Hw Hg]
      · isplitl [HS]; · iexact HS
        isplitl [Hw]; · iexact Hw
        iexact Hg
      isplitl [Ho]; · iexact Ho
      isplitl [H0]; · iexact H0
      isplitl [H1]; · iexact H1
      isplitl [H2]; · iexact H2
      isplitl [H3]; · iexact H3
      iexists _; iexact H4

end Obl2

open Obl2 in
/-- The library's body obligation for region 2's proof data, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frame

end
-- ==== Proof.KI.Run.lean ====
/- The run of the idealized kernel's @main over its six segments. -/
import proofs.«419787_j49813030699305_2_alg».proof.Proof.KI.FoldLemmas
import proofs.«419787_j49813030699305_2_alg».proof.Proof.KI.Oblig0
import proofs.«419787_j49813030699305_2_alg».proof.Proof.KI.Oblig1
import proofs.«419787_j49813030699305_2_alg».proof.Proof.KI.Oblig2
import proofs.«419787_j49813030699305_2_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V4 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it is left
    with those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the `owes`: every unscoped buffer at the last boundary's contents `W6`, the
    generator register at some state. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- REGION 0 over the thread state: entered from every unscoped buffer at `W3`, left at `W4`. Its arrays are split
    out of the unscoped buffers and put back at the exit contents; the generator register goes into the invariant and
    comes out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W4`, left at `W5`. Its arrays are split
    out of the unscoped buffers and put back at the exit contents; the generator register goes into the invariant and
    comes out (the scratch accumulator, held apart at the last point, is given back to the scoped rest); nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none,
      show (pdats m 1 c).Φ (Fin.last _) = PhiS1 (V4 m) c cfg1.N (Nat.le_refl _) from rfl,
      PhiS1_pos (V4 m) c cfg1.N (Nat.le_refl _) (by rw [show cfg1.N = grid1.N from rfl, N_1]; decide)]
    iintro ⟨Hs, Hw, Hp⟩
    isplitl [Hp]; · iexact Hp
    isplitr; · iempintro
    iapply Hw
    iexists _; iexact Hs
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`. Its arrays are split
    out of the unscoped buffers and put back at the exit contents; the generator register goes into the invariant and
    comes out (the scratch accumulator, held apart at the last point, is given back to the scoped rest); nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none,
      show (pdats m 2 c).Φ (Fin.last _) = PhiS2 (V5 m) c cfg2.N (Nat.le_refl _) from rfl,
      PhiS2_pos (V5 m) c cfg2.N (Nat.le_refl _) (by rw [show cfg2.N = grid2.N from rfl, N_2]; decide)]
    iintro ⟨Hs, Hw, Hp⟩
    isplitl [Hp]; · iexact Hp
    isplitr; · iempintro
    iapply Hw
    iexists _; iexact Hs
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order: the three host stretches from their boundaries' contents, then the three regions. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .region (reg1 m),
    .region (reg2 m) ]
/-- @main is the run of the segments. -/
theorem main_run (c : Dev nD) : main (F := F) c = Pipeline.Seg.run (segs m) := (main_chain c).trans (by chain_rfl)

set_option backward.isDefEq.respectTransparency.types false in
/-- Every weakly fair execution of @main from `m` with zero counters terminates, nothing faulting, and every final
    memory holds each unscoped TensorCore buffer at the last boundary's contents `W6`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

end Cert.KernelIdeal.Frame

end
-- ==== Proof.Spec.lean ====
/-
  The mathematics of the certificate, stated over plain index functions and importing no program.

  The kernel computes, for node `i` and feature `j`,
    out i j = (∑ e, [dstp e = i] · (∑ n, [srcp e = n] · (∑ k, h n k · W k j))) · norm2 i + b j
  where `srcp`, `dstp` are the edge lists padded with the out-of-range node id 100000 (a padded edge selects no node),
  `norm2 i = 1 / deg i` when the out-degree `deg i` is positive and `0` otherwise.
  The reference computes
    out i j = (∑ k, (nrm i · agg i k) · W k j) · nrm i + b j
  with `agg i k = ∑ e, [dst e = i] · h (src e) k` and `nrm i = (deg i) ^ (-1/2)`.
  Over finite inputs and source ids inside the node range the two agree: the indicator sums select the same rows, the
  projection commutes with the row sums by distributivity over the reals, and `((deg i)^(-1/2))² = 1 / deg i` for a
  positive count while both sides vanish at a zero count (the real power `0 ^ (-1/2)` is `0`).
-/
import Idealize.ShloMosaic.PureOps.Ideal
import Idealize.ShloMosaic.Lib.ValueIdx

noncomputable section

namespace Cert.Spec

open Idealize.ShloMosaic Idealize.ShloMosaic.ValueIdx

/-- The projected features `g = h · W`: row `n`, column `j`. -/
def proj (h : (⟨2, ![100000, 128]⟩ : Shape).Idx → EReal) (W : (⟨2, ![128, 128]⟩ : Shape).Idx → EReal) :
    (⟨2, ![100000, 128]⟩ : Shape).Idx → EReal :=
  fun i => ∑ k : Fin 128, h (ix2 (i 0) k) * W (ix2 k (i 1))

/-- The rows of `g` selected edge by edge: row `sp e` when that word is a node id below 100000, the zero row otherwise. -/
def gath (sp : (⟨1, ![1703936]⟩ : Shape).Idx → BitVec 32) (g : (⟨2, ![100000, 128]⟩ : Shape).Idx → EReal) :
    (⟨2, ![1703936, 128]⟩ : Shape).Idx → EReal :=
  fun i => ∑ n : Fin 100000, (if sp (ix1 (i 0)) = BitVec.ofNat 32 n.val then (1 : EReal) else 0) * g (ix2 n (i 1))

/-- The rows summed into their destination node, scaled by the node's factor, plus the bias. -/
def scat (dp : (⟨1, ![1703936]⟩ : Shape).Idx → BitVec 32) (ga : (⟨2, ![1703936, 128]⟩ : Shape).Idx → EReal)
    (nrm2 : (⟨2, ![100000, 1]⟩ : Shape).Idx → EReal) (b : (⟨1, ![128]⟩ : Shape).Idx → EReal) :
    (⟨2, ![100000, 128]⟩ : Shape).Idx → EReal :=
  fun i => (∑ e : Fin 1703936, (if BitVec.ofNat 32 (i 0).val = dp (ix1 e) then (1 : EReal) else 0) * ga (ix2 e (i 1)))
    * nrm2 (ix2 (i 0) 0) + b (ix1 (i 1))

/-- An edge list padded to 1703936 entries with the node id 100000, which names no node. -/
def pad (s : (⟨1, ![1700000]⟩ : Shape).Idx → BitVec 32) : (⟨1, ![1703936]⟩ : Shape).Idx → BitVec 32 :=
  fun i => if h : (i 0).val < 1700000 then s (ix1 ⟨(i 0).val, h⟩) else 100000#32

/-- The out-degree of node `i`: how many edges have it as their source. -/
def deg (src : (⟨1, ![1700000]⟩ : Shape).Idx → BitVec 32) : (⟨1, ![100000]⟩ : Shape).Idx → EReal :=
  fun i => ∑ e : Fin 1700000, if src (ix1 e) = BitVec.ofNat 32 (i 0).val then (1 : EReal) else 0

/-- The kernel's factor: the reciprocal of a positive degree, zero at degree zero. -/
def norm2 (src : (⟨1, ![1700000]⟩ : Shape).Idx → BitVec 32) : (⟨2, ![100000, 1]⟩ : Shape).Idx → EReal :=
  fun i => if 0 < deg src (ix1 (i 0)) then Ideal.div 1 (deg src (ix1 (i 0))) else 0

/-- The reference's factor: the degree to the power `-1/2`. -/
def nrm (src : (⟨1, ![1700000]⟩ : Shape).Idx → BitVec 32) : (⟨1, ![100000]⟩ : Shape).Idx → EReal :=
  fun i => Ideal.pow (deg src i) (((-1 / 2 : ℝ)) : EReal)

/-- The reference's aggregate: the source rows of `h` summed into their destination node (source ids in range). -/
def agg (h : (⟨2, ![100000, 128]⟩ : Shape).Idx → EReal) (src : (⟨1, ![1700000]⟩ : Shape).Idx → BitVec 32)
    (hsrc : ∀ e : Fin 1700000, (src (ix1 e)).toNat < 100000) (dst : (⟨1, ![1700000]⟩ : Shape).Idx → BitVec 32) :
    (⟨2, ![100000, 128]⟩ : Shape).Idx → EReal :=
  fun i => ∑ e : Fin 1700000, (if dst (ix1 e) = BitVec.ofNat 32 (i 0).val then (1 : EReal) else 0)
    * h (ix2 ⟨(src (ix1 e)).toNat, hsrc e⟩ (i 1))

/-- What the kernel's three calls compute, composed. -/
def kerOut (h : (⟨2, ![100000, 128]⟩ : Shape).Idx → EReal) (W : (⟨2, ![128, 128]⟩ : Shape).Idx → EReal)
    (b : (⟨1, ![128]⟩ : Shape).Idx → EReal) (src dst : (⟨1, ![1700000]⟩ : Shape).Idx → BitVec 32) :
    (⟨2, ![100000, 128]⟩ : Shape).Idx → EReal :=
  scat (pad dst) (gath (pad src) (proj h W)) (norm2 src) b

/-- What the reference computes. -/
def refOut (h : (⟨2, ![100000, 128]⟩ : Shape).Idx → EReal) (W : (⟨2, ![128, 128]⟩ : Shape).Idx → EReal)
    (b : (⟨1, ![128]⟩ : Shape).Idx → EReal) (src : (⟨1, ![1700000]⟩ : Shape).Idx → BitVec 32)
    (hsrc : ∀ e : Fin 1700000, (src (ix1 e)).toNat < 100000) (dst : (⟨1, ![1700000]⟩ : Shape).Idx → BitVec 32) :
    (⟨2, ![100000, 128]⟩ : Shape).Idx → EReal :=
  fun i => (∑ k : Fin 128, (nrm src (ix1 (i 0)) * agg h src hsrc dst (ix2 (i 0) k)) * W (ix2 k (i 1)))
    * nrm src (ix1 (i 0)) + b (ix1 (i 1))

end Cert.Spec

end
-- ==== Proof.KI.Value0.lean ====
/- Region 0's result array at Ideal: the projected features. -/
import proofs.«419787_j49813030699305_2_alg».proof.Proof.KI.Dat
import proofs.«419787_j49813030699305_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! ## The block product at an entry

The body multiplies a 2000×128 block of `h` by the whole 128×128 matrix `W`, contracting the block's columns
against the matrix's rows into a zero accumulator. Over the extended reals the changes of float format are the
identity and adding to zero changes nothing, so entry `(p, q)` of the product is `∑ k, x0 (p, k) · x1 (k, q)`. -/

/-- Row axis of the left operand: the output's row. -/
theorem proj_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl

/-- Column axis of the left operand: the contraction position. -/
theorem proj_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

/-- Row axis of the right operand: the contraction position. -/
theorem proj_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

/-- Column axis of the right operand: the output's column. -/
theorem proj_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry `(p, q)` of the block product: row `p` of the left block against column `q` of the right one. -/
theorem proj_pay_ix (x0 : Vec Ideal S2000x128 .f32) (x1 : Vec Ideal S128x128 .f32) (p : Fin 2000) (q : Fin 128) :
    k0_pay1 x0 x1 (ix2 p q) = ∑ k : Fin 128, x0 (ix2 p k) * x1 (ix2 k q) := by
  unfold k0_pay1
  refine (truncf_apply (φ := .f32) (ψ := .bf16) _ bitsLt_bf16_f32 (ix2 p q)).trans ?_
  refine (Ideal.matmul_constant_zero_apply dot_S2000x128_S128x128_S2000x128_1_0_0_1_n_n none _ _ (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact proj_lhs_0 _ _
    | ⟨1, _⟩ => exact (proj_lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (proj_rhs_0 _ _).trans hk
    | ⟨1, _⟩ => exact proj_rhs_1 _ _)
  rw [el, er]
  rfl

/-- The same at any index of the block, through its two coordinates. -/
theorem proj_pay_apply (x0 : Vec Ideal S2000x128 .f32) (x1 : Vec Ideal S128x128 .f32) (y : S2000x128.Idx) :
    k0_pay1 x0 x1 y = ∑ k : Fin 128, x0 (ix2 (y 0) k) * x1 (ix2 k (y 1)) := by
  obtain ⟨p, q, rfl⟩ : ∃ (p : Fin 2000) (q : Fin 128), y = ix2 p q := ⟨y 0, y 1, eq_ix2 y⟩
  exact proj_pay_ix x0 x1 p q

/-- The target function at an index, spelt out. -/
theorem proj_apply (h : (⟨2, ![100000, 128]⟩ : Shape).Idx → EReal) (W : (⟨2, ![128, 128]⟩ : Shape).Idx → EReal)
    (i : (⟨2, ![100000, 128]⟩ : Shape).Idx) :
    Cert.Spec.proj h W i = ∑ k : Fin 128, h (ix2 (i 0) k) * W (ix2 k (i 1)) := rfl

variable (V : (c : Dev nD) → (b : Ref sig .tc) → Buf (Elt Ideal) ((c : Thread nD τ).loc b))

/-! ## From the blocks to the array

Point `t` of the 50 reads rows `2000 t … 2000 t + 1999` of `h`, all of `W`, and writes the same rows of the result. -/

/-- The block indices over the grid: the row block of `h` and of the result is the point, every other block index is zero. -/
theorem proj_idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The result's block is written back at every point. -/
theorem proj_flush : ∀ t : Fin cfg0.N, (cfg0.win 2).flush t = true :=
  (by decide +kernel : ∀ t : Fin grid0.N, win0_2.flush t = true)

/-- Entry `(p, k)` of the block of `h` at point `t` is entry `(2000 t + p, k)` of `h`. -/
theorem proj_hblk_apply (c : Dev nD) (t : Fin cfg0.N) (p : Fin 2000) (k : Fin 128) (n : Fin 100000)
    (hn : n.val = t.val * 2000 + p.val) :
    iblk0 V c 0 t (ix2 p k) = V c main_arg0 (ix2 n k) := by
  obtain ⟨e0, e1, -⟩ := proj_idx_facts t
  show V c main_arg0 (((cfg0.win 0).blk t).view.emb (ix2 p k)) = V c main_arg0 (ix2 n k)
  refine congrArg (V c main_arg0) (funext fun a => Fin.ext ?_)
  match a with
  | ⟨0, _⟩ => show win0_0.index t (0 : Fin 2) * 2000 + 1 * p.val = n.val; omega
  | ⟨1, _⟩ => show win0_0.index t (1 : Fin 2) * 128 + 1 * k.val = k.val; omega

/-- The block of `W` at every point is `W`. -/
theorem proj_wblk_apply (c : Dev nD) (t : Fin cfg0.N) (k : Fin 128) (q : Fin 128) :
    iblk0 V c 1 t (ix2 k q) = V c main_arg1 (ix2 k q) := by
  obtain ⟨-, -, e2, e3, -⟩ := proj_idx_facts t
  show V c main_arg1 (((cfg0.win 1).blk t).view.emb (ix2 k q)) = V c main_arg1 (ix2 k q)
  refine congrArg (V c main_arg1) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- What point `t` writes back is block `t` of `h · W`. -/
theorem proj_flushed_eq (c : Dev nD) (t : Fin cfg0.N) :
    (dat0 (F := Ideal) V c).flushed 2 t
      = ((cfg0.win 2).blk t).view.read (Elt Ideal) (Cert.Spec.proj (V c main_arg0) (V c main_arg1)) := by
  show (cfg0.win 2).cut (grid0.coords t) ((dat0 (F := Ideal) V c).after 2 t) = _
  rw [after0_2]
  obtain ⟨-, -, -, -, e4, e5⟩ := proj_idx_facts t
  funext j
  refine (proj_pay_apply (iblk0 V c 0 t) (iblk0 V c 1 t) ((cfg0.win 2).xinj (grid0.coords t) j)).trans ?_
  refine Eq.trans ?_ (proj_apply (V c main_arg0) (V c main_arg1) (((cfg0.win 2).blk t).view.emb j)).symm
  refine Finset.sum_congr rfl fun k _ => ?_
  refine congrArg₂ (fun a b : EReal => a * b) ?_ ?_
  · exact proj_hblk_apply V c t ((cfg0.win 2).xinj (grid0.coords t) j 0) k (((cfg0.win 2).blk t).view.emb j 0) (by
      show win0_2.index t (0 : Fin 2) * 2000 + 1 * (j 0).val = t.val * 2000 + (j 0).val; omega)
  · refine (proj_wblk_apply V c t k ((cfg0.win 2).xinj (grid0.coords t) j 1)).trans ?_
    refine congrArg (V c main_arg1) (funext fun a => Fin.ext ?_)
    match a with
    | ⟨0, _⟩ => rfl
    | ⟨1, _⟩ => show (j 1).val = win0_2.index t (1 : Fin 2) * 128 + 1 * (j 1).val; omega

/-- An index of the result is in point `t`'s block iff each coordinate is in the block's range on its axis. -/
theorem proj_mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v13).slice (win0_2.rect t)).set ↔ _
  rw [View.set_slice_whole, Rect.mem_set_unit]
  exact Iff.rfl

/-- The 50 row blocks cover the result: row `r` is in the block of point `r / 2000`. -/
theorem proj_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hlt : (i 0).val / 2000 < grid0.N := by rw [N_0]; omega
  obtain ⟨t, ht⟩ : ∃ t : Fin cfg0.N, t.val = (i 0).val / 2000 := ⟨⟨(i 0).val / 2000, hlt⟩, rfl⟩
  obtain ⟨-, -, -, -, e4, e5⟩ := proj_idx_facts t
  refine ⟨t, proj_flush t, ?_⟩
  rw [proj_mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- After region 0 its result array holds `h · W` of the arrays it was entered with. -/
theorem value0 (c : Dev nD) :
    (dat0 (F := Ideal) V c).arrAt 2 cfg0.N = Cert.Spec.proj (V c main_arg0) (V c main_arg1) :=
  (dat0 (F := Ideal) V c).arrAt_eq_of_cover 2 (Cert.Spec.proj (V c main_arg0) (V c main_arg1))
    (fun t _ => proj_flushed_eq V c t) (proj_cover)

end Cert.KernelIdeal.Frame

end
-- ==== Proof.KI.Value1.lean ====
/- Region 1's result array at Ideal: the gathered rows. -/
import proofs.«419787_j49813030699305_2_alg».proof.Proof.KI.Dat
import proofs.«419787_j49813030699305_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

namespace Gather

/-! ## The one-hot test, word by word -/

/-- Lane `l` of node chunk `k` carries the node id `k · 2000 + l`, as a 32-bit word. -/
theorem node_word (k l : ℕ) :
    IntOp.addi (Scalar.muli (BitVec.ofNat 32 k) 2000#32) (BitVec.ofNat 32 l) = BitVec.ofNat 32 (k * 2000 + l) := by
  show BitVec.ofNat 32 k * BitVec.ofNat 32 2000 + BitVec.ofNat 32 l = _
  rw [← BitVec.ofNat_mul, ← BitVec.ofNat_add]

/-- The comparison of two words, widened and converted, is the indicator of their equality. -/
theorem onehot_word (a b : BitVec 32) :
    FloatOps.sitofp (F := Ideal) .f32 ((IntOp.cmpi .eq a b).setWidth 32) = if a = b then (1 : EReal) else 0 := by
  show ((((BitVec.ofBool (a == b)).setWidth 32).toInt : ℝ) : EReal) = _
  by_cases h : a = b
  · rw [if_pos h, beq_iff_eq.mpr h, show ((BitVec.ofBool true).setWidth 32).toInt = 1 from by decide]
    simp
  · rw [if_neg h, beq_eq_false_iff_ne.mpr h, show ((BitVec.ofBool false).setWidth 32).toInt = 0 from by decide]
    simp

/-! ## The matmul's operand indices -/

theorem lhs_dot1_0 (i : S4096x128.Idx) (q : dot_S4096x2000_S2000x128_S4096x128_1_0_0_1_n_n.contr.Idx) :
    (dot_S4096x2000_S2000x128_S4096x128_1_0_0_1_n_n.lhsIdx i q 0).val = (i 0).val := by
  unfold DotDims.lhsIdx
  rw [dif_neg (show ¬(0 : Fin S4096x2000.rank) ∈ dot_S4096x2000_S2000x128_S4096x128_1_0_0_1_n_n.lhsBatch by decide), dif_pos (show (0 : Fin S4096x2000.rank) ∈ dot_S4096x2000_S2000x128_S4096x128_1_0_0_1_n_n.lhsNonContracting by decide)]
  rfl
theorem lhs_dot1_1 (i : S4096x128.Idx) (q : dot_S4096x2000_S2000x128_S4096x128_1_0_0_1_n_n.contr.Idx) :
    (dot_S4096x2000_S2000x128_S4096x128_1_0_0_1_n_n.lhsIdx i q 1).val = (q ⟨0, by decide⟩).val :=
  dot_S4096x2000_S2000x128_S4096x128_1_0_0_1_n_n.lhsIdx_val_of_single rfl i q
theorem rhs_dot1_0 (i : S4096x128.Idx) (q : dot_S4096x2000_S2000x128_S4096x128_1_0_0_1_n_n.contr.Idx) :
    (dot_S4096x2000_S2000x128_S4096x128_1_0_0_1_n_n.rhsIdx i q 0).val = (q ⟨0, by decide⟩).val :=
  dot_S4096x2000_S2000x128_S4096x128_1_0_0_1_n_n.rhsIdx_val_of_single rfl i q
theorem rhs_dot1_1 (i : S4096x128.Idx) (q : dot_S4096x2000_S2000x128_S4096x128_1_0_0_1_n_n.contr.Idx) :
    (dot_S4096x2000_S2000x128_S4096x128_1_0_0_1_n_n.rhsIdx i q 1).val = (i 1).val := by
  unfold DotDims.rhsIdx
  rw [dif_neg (show ¬(1 : Fin S2000x128.rank) ∈ dot_S4096x2000_S2000x128_S4096x128_1_0_0_1_n_n.rhsBatch by decide), dif_pos (show (1 : Fin S2000x128.rank) ∈ dot_S4096x2000_S2000x128_S4096x128_1_0_0_1_n_n.rhsNonContracting by decide)]
  rfl

/-! ## One chunk's product at an entry -/

/-- The one-hot factor at edge row `p`, lane `l`: whether the row's source word is the lane's node id. -/
theorem onehot_apply (i : grid1.Coords) (v4 : Vec Ideal S4096 .i32) (p : Fin 4096) (l : Fin 2000) :
    (truncf .bf16 (sitofp (F := Ideal) .f32 (extui 32 (cmpi .eq
        (broadcastTo S4096x2000 (shapeCast S4096x1 (shapeCast S4096 v4 shapeCasts_S4096_S4096) shapeCasts_S4096_S4096x1) broadcasts_S4096x1_S4096x2000)
        (broadcastTo S4096x2000 (addi (broadcast S1x2000 (Scalar.muli (BitVec.ofNat 32 (i 1).val) 2000#32)) (iota .tc S1x2000 32 [1] iota_S1x2000_d1_w32)) broadcasts_S1x2000_S4096x2000))
        natLt_1_32)) bitsLt_bf16_f32 : FVec Ideal S4096x2000 .bf16) (ix2 p l)
      = if v4 (ix1 p) = BitVec.ofNat 32 ((i 1).val * 2000 + l.val) then (1 : EReal) else 0 := by
  have e1 : broadcastTo S4096x2000 (shapeCast S4096x1 (shapeCast S4096 v4 shapeCasts_S4096_S4096) shapeCasts_S4096_S4096x1) broadcasts_S4096x1_S4096x2000 (ix2 p l) = v4 (ix1 p) := by
    refine (broadcastTo_apply _ broadcasts_S4096x1_S4096x2000 (ix2 p l) (ix2 p (0 : Fin 1)) (fun a => by
      match a with
      | ⟨0, _⟩ => rfl
      | ⟨1, _⟩ => rfl)).trans ?_
    refine (shapeCast_apply _ shapeCasts_S4096_S4096x1 (ix2 p (0 : Fin 1)) (ix1 p) (by
      rw [Shape.rowMajor_val_one, Shape.rowMajor_val_two]; show p.val = p.val * 1 + 0; omega)).trans ?_
    rw [shapeCast_self]
  have e2 : broadcastTo S4096x2000 (addi (broadcast S1x2000 (Scalar.muli (BitVec.ofNat 32 (i 1).val) 2000#32)) (iota .tc S1x2000 32 [1] iota_S1x2000_d1_w32)) broadcasts_S1x2000_S4096x2000 (ix2 p l)
      = BitVec.ofNat 32 ((i 1).val * 2000 + l.val) := by
    refine (broadcastTo_apply _ broadcasts_S1x2000_S4096x2000 (ix2 p l) (ix2 (0 : Fin 1) l) (fun a => by
      match a with
      | ⟨0, _⟩ => rfl
      | ⟨1, _⟩ => rfl)).trans ?_
    show IntOp.addi (Scalar.muli (BitVec.ofNat 32 (i 1).val) 2000#32) (iota .tc S1x2000 32 [1] iota_S1x2000_d1_w32 (ix2 (0 : Fin 1) l)) = _
    rw [iota_single_apply]
    exact node_word (i 1).val l.val
  show FloatOps.sitofp (F := Ideal) .f32 ((IntOp.cmpi .eq
      (broadcastTo S4096x2000 (shapeCast S4096x1 (shapeCast S4096 v4 shapeCasts_S4096_S4096) shapeCasts_S4096_S4096x1) broadcasts_S4096x1_S4096x2000 (ix2 p l))
      (broadcastTo S4096x2000 (addi (broadcast S1x2000 (Scalar.muli (BitVec.ofNat 32 (i 1).val) 2000#32)) (iota .tc S1x2000 32 [1] iota_S1x2000_d1_w32)) broadcasts_S1x2000_S4096x2000 (ix2 p l))).setWidth 32) = _
  rw [e1, e2]
  exact onehot_word _ _

/-- The accumulator after one grid point, at edge row `p` and feature `q`: what it held plus, over the chunk's 2000 lanes,
    the one-hot factor times the chunk's row of projected features. -/
theorem pay2_apply (i : grid1.Coords) (v4 : Vec Ideal S4096 .i32) (v16 : Vec Ideal S2000x128 .bf16) (v18 : Vec Ideal S4096x128 .f32)
    (p : Fin 4096) (q : Fin 128) :
    k1_pay2 i v4 v16 v18 (ix2 p q)
      = v18 (ix2 p q) + ∑ l : Fin 2000, (if v4 (ix1 p) = BitVec.ofNat 32 ((i 1).val * 2000 + l.val) then (1 : EReal) else 0) * v16 (ix2 l q) := by
  unfold k1_pay2
  refine (congrFun (shapeCast_self _ shapeCasts_S4096x128_S4096x128) (ix2 p q)).trans ?_
  refine (addf_apply _ _ (ix2 p q)).trans ?_
  refine congrArg (v18 (ix2 p q) + ·) ?_
  refine (Ideal.matmul_constant_zero_apply dot_S4096x2000_S2000x128_S4096x128_1_0_0_1_n_n none _ _ (ix2 p q)).trans ?_
  rw [← Equiv.sum_comp (contrEquiv1 dot_S4096x2000_S2000x128_S4096x128_1_0_0_1_n_n 2000 rfl rfl).symm]
  refine Finset.sum_congr rfl fun l _ => ?_
  have hk := contrEquiv1_symm_val dot_S4096x2000_S2000x128_S4096x128_1_0_0_1_n_n 2000 rfl rfl l
  have el : dot_S4096x2000_S2000x128_S4096x128_1_0_0_1_n_n.lhsIdx (ix2 p q) ((contrEquiv1 dot_S4096x2000_S2000x128_S4096x128_1_0_0_1_n_n 2000 rfl rfl).symm l) = ix2 p l :=
    funext fun a => Fin.ext (by
      match a with
      | ⟨0, _⟩ => exact lhs_dot1_0 _ _
      | ⟨1, _⟩ => exact (lhs_dot1_1 _ _).trans hk)
  have er : dot_S4096x2000_S2000x128_S4096x128_1_0_0_1_n_n.rhsIdx (ix2 p q) ((contrEquiv1 dot_S4096x2000_S2000x128_S4096x128_1_0_0_1_n_n 2000 rfl rfl).symm l) = ix2 l q :=
    funext fun a => Fin.ext (by
      match a with
      | ⟨0, _⟩ => exact (rhs_dot1_0 _ _).trans hk
      | ⟨1, _⟩ => exact rhs_dot1_1 _ _)
  rw [el, er]
  refine congrArg₂ (· * ·) (onehot_apply i v4 p l) ?_
  exact congrFun (shapeCast_self v16 shapeCasts_S2000x128_S2000x128) (ix2 l q)

variable (V : (c : Dev nD) → (b : Ref sig .tc) → Buf (Elt Ideal) ((c : Thread nD τ).loc b))

/-- The padded source list as region 1 finds it. -/
abbrev srcA (c : Dev nD) : S1703936.Idx → BitVec 32 := V c main_v11
/-- The projected features as region 1 finds them. -/
abbrev gA (c : Dev nD) : S100000x128.Idx → EReal := V c main_v13

/-- Whether the source word `w` names node `n`. -/
def hit (w : BitVec 32) (n : ℕ) : EReal := if w = BitVec.ofNat 32 n then 1 else 0
/-- Feature `q` of node `n`, zero past the last node. -/
def feat (g : S100000x128.Idx → EReal) (q : Fin 128) (n : ℕ) : EReal := if h : n < 100000 then g (ix2 ⟨n, h⟩ q) else 0

/-! ## Where point `t` sits: edge block `t / 50`, node chunk `t % 50` -/

theorem pt_lt (t : Fin cfg1.N) : t.val < 20800 := by
  have hN : cfg1.N = 20800 := N_1
  have := t.isLt
  omega

theorem coord1_1 (t : Fin cfg1.N) : ((grid1.coords t) 1).val = t.val % 50 := by
  show t.val / grid1.stride 1 % 50 = t.val % 50
  rw [show grid1.stride 1 = 1 from by decide, Nat.div_one]

theorem index1_0 (t : Fin cfg1.N) : win1_0.index t (0 : Fin 1) = t.val / 50 := by
  have ht := pt_lt t
  show (BitVec.ofNat 32 (t.val / grid1.stride 0 % 416)).toNat = t.val / 50
  rw [show grid1.stride 0 = 50 from by decide, BitVec.toNat_ofNat]
  omega

theorem index1_1_0 (t : Fin cfg1.N) : win1_1.index t (0 : Fin 2) = t.val % 50 := by
  show (BitVec.ofNat 32 (t.val / grid1.stride 1 % 50)).toNat = t.val % 50
  rw [show grid1.stride 1 = 1 from by decide, BitVec.toNat_ofNat, Nat.div_one]
  omega

theorem index1_1_1 (t : Fin cfg1.N) : win1_1.index t (1 : Fin 2) = 0 := rfl

theorem index1_2_0 (t : Fin cfg1.N) : win1_2.index t (0 : Fin 2) = t.val / 50 := by
  have ht := pt_lt t
  show (BitVec.ofNat 32 (t.val / grid1.stride 0 % 416)).toNat = t.val / 50
  rw [show grid1.stride 0 = 50 from by decide, BitVec.toNat_ofNat]
  omega

theorem index1_2_1 (t : Fin cfg1.N) : win1_2.index t (1 : Fin 2) = 0 := rfl

/-! ## The input blocks at point `t`, read off their arrays -/

/-- Row `p` of the source block at `t` is entry `(t / 50) · 4096 + p` of the padded source list. -/
theorem src_blk_apply (c : Dev nD) (t : Fin cfg1.N) (p : Fin 4096) (e : Fin 1703936) (he : e.val = t.val / 50 * 4096 + p.val) :
    (iblk1 V c 0 t : Vec Ideal S4096 .i32) (ix1 p) = srcA V c (ix1 e) := by
  unfold iblk1
  rw [View.read_apply]
  show V c main_v11 (((cfg1.win 0).blk t).view.emb (ix1 p)) = V c main_v11 (ix1 e)
  refine congrArg (V c main_v11) (funext fun a => Fin.ext ?_)
  match a with
  | ⟨0, _⟩ =>
    show win1_0.index t (0 : Fin 1) * 4096 + 1 * p.val = e.val
    rw [index1_0, he]; omega

/-- Row `l` of the feature block at `t` is row `(t % 50) · 2000 + l` of the projected features. -/
theorem g_blk_apply (c : Dev nD) (t : Fin cfg1.N) (l : Fin 2000) (q : Fin 128) (n : Fin 100000) (hn : n.val = t.val % 50 * 2000 + l.val) :
    (iblk1 V c 1 t : Vec Ideal S2000x128 .bf16) (ix2 l q) = gA V c (ix2 n q) := by
  unfold iblk1
  rw [View.read_apply]
  show V c main_v13 (((cfg1.win 1).blk t).view.emb (ix2 l q)) = V c main_v13 (ix2 n q)
  refine congrArg (V c main_v13) (funext fun a => Fin.ext ?_)
  match a with
  | ⟨0, _⟩ =>
    show win1_1.index t (0 : Fin 2) * 2000 + 1 * l.val = n.val
    rw [index1_1_0, hn]; omega
  | ⟨1, _⟩ =>
    show win1_1.index t (1 : Fin 2) * 128 + 1 * q.val = q.val
    rw [index1_1_1]; omega

/-- The result window is written back exactly after the last chunk of an edge block: there the block index moves on (or the grid ends). -/
theorem flush_iff (t : Fin cfg1.N) : (cfg1.win 2).flush t = true ↔ t.val % 50 = 49 := by
  have hN : grid1.N = 20800 := N_1
  have hlt : t.val < grid1.N := t.isLt
  show win1_2.flush t = true ↔ _
  unfold Pipeline.Window.flush
  rw [show win1_2.isOut = true from rfl, Bool.true_and, Bool.or_eq_true, decide_eq_true_eq, decide_eq_true_eq]
  constructor
  · rintro (h | ⟨h, hne⟩)
    · omega
    · by_contra h49
      apply hne
      funext a
      match a with
      | ⟨0, _⟩ =>
        show win1_2.index ⟨t.val + 1, h⟩ (0 : Fin 2) = win1_2.index t (0 : Fin 2)
        rw [index1_2_0, index1_2_0]
        show (t.val + 1) / 50 = t.val / 50
        omega
      | ⟨1, _⟩ => rfl
  · intro h49
    by_cases hl : t.val + 1 = grid1.N
    · exact Or.inl hl
    · refine Or.inr ⟨by omega, fun he => ?_⟩
      have h0 : win1_2.index ⟨t.val + 1, by omega⟩ (0 : Fin 2) = win1_2.index t (0 : Fin 2) := congrFun he (0 : Fin 2)
      rw [index1_2_0, index1_2_0] at h0
      have h0' : (t.val + 1) / 50 = t.val / 50 := h0
      omega

/-! ## One grid point, then the chunks of one edge block -/

/-- The zero block the first chunk starts from. -/
theorem zero_apply (p : Fin 4096) (q : Fin 128) : (k1_pay1 (F := Ideal)) (ix2 p q) = 0 := by
  unfold k1_pay1
  refine (congrFun (shapeCast_self _ shapeCasts_S4096x128_S4096x128) (ix2 p q)).trans ?_
  show Ideal.ofBits .f32 0x00000000#32 = 0
  exact Ideal.ofBits_zero_f32

/-- The accumulator after the body at point `t`, at edge row `p` (edge `e` of the list) and feature `q`: what it held plus the
    indicator-weighted sum over the nodes of chunk `t % 50`. -/
theorem point_apply (c : Dev nD) (t : Fin cfg1.N) (acc : Vec Ideal S4096x128 .f32) (p : Fin 4096) (q : Fin 128) (e : Fin 1703936)
    (he : e.val = t.val / 50 * 4096 + p.val) :
    k1_pay2 (grid1.coords t) (iblk1 V c 0 t) (iblk1 V c 1 t) acc (ix2 p q)
      = acc (ix2 p q) + ∑ l ∈ Finset.range 2000,
          hit (srcA V c (ix1 e)) (t.val % 50 * 2000 + l) * feat (gA V c) q (t.val % 50 * 2000 + l) := by
  refine (pay2_apply (grid1.coords t) (iblk1 V c 0 t) (iblk1 V c 1 t) acc p q).trans ?_
  refine congrArg (acc (ix2 p q) + ·) ?_
  rw [Finset.sum_range]
  refine Finset.sum_congr rfl fun l _ => ?_
  have hl : t.val % 50 * 2000 + l.val < 100000 := by have := l.isLt; omega
  rw [src_blk_apply V c t p e he, coord1_1, g_blk_apply V c t l q ⟨_, hl⟩ rfl]
  unfold hit feat
  rw [dif_pos hl]

/-- After chunk `k` of an edge block the accumulator holds, at each edge row, the indicator-weighted sum over the nodes below
    `(k + 1) · 2000`: by induction on the chunk, the first chunk starting from the zero block. -/
theorem scratch_apply (c : Dev nD) : ∀ (k : ℕ) (t : Fin cfg1.N), t.val % 50 = k → ∀ (p : Fin 4096) (q : Fin 128) (e : Fin 1703936),
    e.val = t.val / 50 * 4096 + p.val →
    sAt1 V c t.val t.isLt (ix2 p q) = ∑ n ∈ Finset.range ((k + 1) * 2000), hit (srcA V c (ix1 e)) n * feat (gA V c) q n
  | 0, t, ht, p, q, e, he => by
    rw [sAt1_reset V c t ht]
    refine (point_apply V c t (k1_pay1 (F := Ideal)) p q e he).trans ?_
    rw [zero_apply, zero_add, ht]
    simp only [Nat.zero_mul, Nat.zero_add, Nat.one_mul]
  | k + 1, t, ht, p, q, e, he => by
    have hne : ¬ t.val % 50 = 0 := by omega
    have hlt := pt_lt t
    have hN : cfg1.N = 20800 := N_1
    rw [sAt1_acc V c t hne]
    refine (point_apply V c t _ p q e he).trans ?_
    have ih := scratch_apply c k ⟨t.val - 1, by omega⟩ (by show (t.val - 1) % 50 = k; omega) p q e
      (by show e.val = (t.val - 1) / 50 * 4096 + p.val; omega)
    rw [show sAt1 V c (t.val - 1) _ (ix2 p q) = _ from ih, ht,
      show (k + 1 + 1) * 2000 = (k + 1) * 2000 + 2000 from by ring, Finset.sum_range_add]

/-- After the last chunk the sum runs over every node. -/
theorem full_sum (w : BitVec 32) (g : S100000x128.Idx → EReal) (q : Fin 128) :
    ∑ n ∈ Finset.range ((49 + 1) * 2000), hit w n * feat g q n
      = ∑ n : Fin 100000, (if w = BitVec.ofNat 32 n.val then (1 : EReal) else 0) * g (ix2 n q) := by
  rw [show (49 + 1) * 2000 = 100000 from rfl, Finset.sum_range]
  refine Finset.sum_congr rfl fun n _ => ?_
  unfold hit feat
  rw [dif_pos n.isLt]

/-- The gathered array at an index whose coordinates are known. -/
theorem gath_at (sp : S1703936.Idx → BitVec 32) (g : S100000x128.Idx → EReal) (i : S1703936x128.Idx) (e : Fin 1703936) (q : Fin 128)
    (he : (i 0).val = e.val) (hq : (i 1).val = q.val) :
    Cert.Spec.gath sp g i = ∑ n : Fin 100000, (if sp (ix1 e) = BitVec.ofNat 32 n.val then (1 : EReal) else 0) * g (ix2 n q) := by
  have h0 : i 0 = e := Fin.ext he
  have h1 : i 1 = q := Fin.ext hq
  unfold Cert.Spec.gath
  rw [h0, h1]

/-- A block of the result array read back, entry by entry. -/
theorem out_blk_read (G : S1703936x128.Idx → EReal) (t : Fin cfg1.N) (y : ((cfg1.win 2).xblock (grid1.coords t)).Idx) :
    ((cfg1.win 2).blk t).view.read (Elt Ideal) G y = G (((cfg1.win 2).blk t).view.emb y) := rfl

/-! ## From the flushed blocks to the array -/

/-- The point after the last chunk of an edge block writes back that block of the gathered array. -/
theorem flushed_eq (c : Dev nD) (t : Fin cfg1.N) (h49 : t.val % 50 = 49) :
    (dat1 (F := Ideal) V c).flushed 2 t
      = ((cfg1.win 2).blk t).view.read (Elt Ideal) (Cert.Spec.gath (V c main_v11) (V c main_v13)) := by
  have ht := pt_lt t
  show (cfg1.win 2).cut (grid1.coords t) ((dat1 (F := Ideal) V c).after 2 t) = _
  rw [after1_2]
  funext y
  have h0 : (y 0).val < 4096 := (y 0).isLt
  have h1 : (y 1).val < 128 := (y 1).isLt
  have hx : (cfg1.win 2).xinj (grid1.coords t) y = (ix2 ⟨(y 0).val, h0⟩ ⟨(y 1).val, h1⟩ : S4096x128.Idx) :=
    funext fun a => Fin.ext (by
      match a with
      | ⟨0, _⟩ => rfl
      | ⟨1, _⟩ => rfl)
  refine (show _ = sAt1 V c t.val t.isLt (ix2 ⟨(y 0).val, h0⟩ ⟨(y 1).val, h1⟩) from
    congrArg (sAt1 V c t.val t.isLt) hx).trans ?_
  have hE : t.val / 50 * 4096 + (y 0).val < 1703936 := by omega
  refine (scratch_apply V c 49 t h49 ⟨(y 0).val, h0⟩ ⟨(y 1).val, h1⟩ ⟨t.val / 50 * 4096 + (y 0).val, hE⟩ rfl).trans ?_
  refine (full_sum _ _ _).trans ?_
  have c0 : ((((cfg1.win 2).blk t).view.emb y : S1703936x128.Idx) 0).val = t.val / 50 * 4096 + (y 0).val := by
    show win1_2.index t (0 : Fin 2) * 4096 + 1 * (y 0).val = t.val / 50 * 4096 + (y 0).val
    rw [index1_2_0]; omega
  have c1 : ((((cfg1.win 2).blk t).view.emb y : S1703936x128.Idx) 1).val = (y 1).val := by
    show win1_2.index t (1 : Fin 2) * 128 + 1 * (y 1).val = (y 1).val
    rw [index1_2_1]; omega
  have hg := gath_at (V c main_v11) (V c main_v13) (((cfg1.win 2).blk t).view.emb y)
    ⟨t.val / 50 * 4096 + (y 0).val, hE⟩ ⟨(y 1).val, h1⟩ c0 c1
  exact hg.symm.trans (out_blk_read (Cert.Spec.gath (V c main_v11) (V c main_v13)) t y).symm

/-- An index of the array is in point `t`'s block iff each coordinate is in the block's range on its axis. -/
theorem mem_blk (t : Fin cfg1.N) (i : S1703936x128.Idx) :
    i ∈ ((cfg1.win 2).blk t).view.set ↔ ∀ a : Fin 2, win1_2.index t a * S4096x128.size a ≤ (i a).val ∧ (i a).val < win1_2.index t a * S4096x128.size a + S4096x128.size a := by
  show i ∈ ((View.whole main_v14).slice (win1_2.rect t)).set ↔ _
  rw [View.set_slice_whole, Rect.mem_set_unit]
  exact Iff.rfl

end Gather

variable (V : (c : Dev nD) → (b : Ref sig .tc) → Buf (Elt Ideal) ((c : Thread nD τ).loc b))

/-- After region 1 its result array holds, edge by edge, the row of the projected features the padded source list names. -/
theorem value1 (c : Dev nD) :
    (dat1 (F := Ideal) V c).arrAt 2 cfg1.N = Cert.Spec.gath (V c main_v11) (V c main_v13) :=
  (dat1 (F := Ideal) V c).arrAt_eq_of_cover 2 (Cert.Spec.gath (V c main_v11) (V c main_v13))
    (fun t hf => Gather.flushed_eq V c t ((Gather.flush_iff t).mp hf))
    (fun i => by
      have hi0 : (i 0).val < 1703936 := (i 0).isLt
      have hi1 : (i 1).val < 128 := (i 1).isLt
      have hN : cfg1.N = 20800 := N_1
      have hlt : (i 0).val / 4096 * 50 + 49 < cfg1.N := by omega
      refine ⟨⟨(i 0).val / 4096 * 50 + 49, hlt⟩, (Gather.flush_iff _).mpr (by show ((i 0).val / 4096 * 50 + 49) % 50 = 49; omega), ?_⟩
      rw [Gather.mem_blk]
      intro a
      match a with
      | ⟨0, _⟩ =>
        show win1_2.index ⟨(i 0).val / 4096 * 50 + 49, hlt⟩ (0 : Fin 2) * 4096 ≤ (i 0).val
          ∧ (i 0).val < win1_2.index ⟨(i 0).val / 4096 * 50 + 49, hlt⟩ (0 : Fin 2) * 4096 + 4096
        rw [Gather.index1_2_0]
        show ((i 0).val / 4096 * 50 + 49) / 50 * 4096 ≤ (i 0).val ∧ (i 0).val < ((i 0).val / 4096 * 50 + 49) / 50 * 4096 + 4096
        omega
      | ⟨1, _⟩ =>
        show win1_2.index ⟨(i 0).val / 4096 * 50 + 49, hlt⟩ (1 : Fin 2) * 128 ≤ (i 1).val
          ∧ (i 1).val < win1_2.index ⟨(i 0).val / 4096 * 50 + 49, hlt⟩ (1 : Fin 2) * 128 + 128
        rw [Gather.index1_2_1]
        omega)

end Cert.KernelIdeal.Frame

end
-- ==== Proof.KI.Value2.lean ====
/- Region 2's result array at Ideal: the rows summed by destination, scaled, plus the bias.

   The grid's point `t` is node chunk `t / 416` and edge block `t % 416`. Across the 416 edge blocks of one node chunk
   the accumulator's row `r` collects, block by block, the gathered rows of the edges whose destination word is the word of
   node `2000·(t / 416) + r`: the product of a selection matrix (one where the node's word meets the edge's destination
   word) with the block of gathered rows is exactly that sum over the block's 4096 edges. After the last edge block the sum
   runs over all 416 · 4096 = 1703936 edges; the closing payload scales it by the node's factor and adds the bias, and the
   fifty blocks written back at those points tile the 100000 rows of the result. -/
import proofs.«419787_j49813030699305_2_alg».proof.Proof.KI.Dat
import proofs.«419787_j49813030699305_2_alg».proof.Proof.Spec
import proofs.«419787_j49813030699305_2_alg».proof.Proof.Gen.KernelIdeal.Points
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

namespace Scatter

/-! ## The three payloads of the scatter, read at an entry -/

/-- A column `[a, 1]` laid along `b` lanes reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The accumulator's reset value is zero everywhere. -/
theorem pay1_apply (r : Fin 2000) (j : Fin 128) : (k2_pay1 (F := Ideal)) (ix2 r j) = (0 : EReal) := by
  unfold k2_pay1
  simp only [shapeCast_self]
  exact Ideal.ofBits_zero_f32

/-- The closing payload: the accumulated row entry times the row's factor, plus the column's bias. -/
theorem pay3_apply (v27 : Vec Ideal S2000x1 .f32) (v29 : Vec Ideal S2000x128 .f32) (v32 : Vec Ideal S128 .f32)
    (r : Fin 2000) (j : Fin 128) :
    k2_pay3 v27 v29 v32 (ix2 r j) = (v29 (ix2 r j) * v27 (ix2 r (0 : Fin 1)) + v32 (ix1 j) : EReal) := by
  unfold k2_pay3
  simp only [shapeCast_self]
  refine (addf_apply _ _ _).trans ?_
  refine congrArg₂ (· + ·) ((mulf_apply _ _ _).trans (congrArg (v29 (ix2 r j) * ·) (broadcastTo_a1_ab_apply v27 _ r j))) ?_
  exact (broadcastTo_1b_ab_apply _ _ r j).trans (shapeCast_a_1a_apply v32 _ 0 j)

/-- The dimension numbers of the scatter's product: rows × 4096 edges against 4096 edges × 128 lanes. -/
abbrev DS := dot_S2000x4096_S4096x128_S2000x128_1_0_0_1_n_n

theorem lhsDS_0 (j : S2000x128.Idx) (k : DS.contr.Idx) : (DS.lhsIdx j k 0 : ℕ) = j 0 := by
  simp [DotDims.lhsIdx, DS, dot_S2000x4096_S4096x128_S2000x128_1_0_0_1_n_n]; rfl
theorem lhsDS_1 (j : S2000x128.Idx) (k : DS.contr.Idx) : (DS.lhsIdx j k 1 : ℕ) = k ⟨0, by decide⟩ := by
  simp [DotDims.lhsIdx, DS, dot_S2000x4096_S4096x128_S2000x128_1_0_0_1_n_n]; rfl
theorem rhsDS_0 (j : S2000x128.Idx) (k : DS.contr.Idx) : (DS.rhsIdx j k 0 : ℕ) = k ⟨0, by decide⟩ := by
  simp [DotDims.rhsIdx, DS, dot_S2000x4096_S4096x128_S2000x128_1_0_0_1_n_n]; rfl
theorem rhsDS_1 (j : S2000x128.Idx) (k : DS.contr.Idx) : (DS.rhsIdx j k 1 : ℕ) = j 1 := by
  simp [DotDims.rhsIdx, DS, dot_S2000x4096_S4096x128_S2000x128_1_0_0_1_n_n]; rfl

/-- The product into the zero accumulator, at row `r` and lane `j`: the sum over the block's 4096 edges. -/
theorem matmulDS_apply (A : FVec Ideal S2000x4096 .bf16) (B : FVec Ideal S4096x128 .bf16) (r : Fin 2000) (j : Fin 128) :
    matmul DS none A B (constant (F := Ideal) S2000x128 .f32 0x00000000#32) (ix2 r j)
      = ∑ q : Fin 4096, A (ix2 r q) * B (ix2 q j) := by
  refine (Ideal.matmul_constant_zero_apply DS none A B (ix2 r j)).trans ?_
  rw [← Equiv.sum_comp (contrEquiv1 DS 4096 rfl rfl).symm]
  refine Finset.sum_congr rfl fun q _ => ?_
  have hq := contrEquiv1_symm_val DS 4096 rfl rfl q
  have l : DS.lhsIdx (ix2 r j) ((contrEquiv1 DS 4096 rfl rfl).symm q) = ix2 r q := by
    apply Shape.idx_ext₂
    · exact lhsDS_0 _ _
    · exact (lhsDS_1 _ _).trans hq
  have rr : DS.rhsIdx (ix2 r j) ((contrEquiv1 DS 4096 rfl rfl).symm q) = ix2 q j := by
    apply Shape.idx_ext₂
    · exact (rhsDS_0 _ _).trans hq
    · exact rhsDS_1 _ _
  rw [l, rr]

/-- A comparison for equality, widened to a word and converted: one where the words agree, zero where they differ. -/
theorem eqWord_val (a b : BitVec 32) :
    ((((IntOp.cmpi .eq a b).setWidth 32).toInt : ℝ) : EReal) = if a = b then 1 else 0 := by
  by_cases h : a = b
  · have e : IntOp.cmpi .eq a b = 1#1 := by
      show BitVec.ofBool (a == b) = 1#1
      rw [beq_iff_eq.mpr h]; rfl
    have e1 : ((1#1 : BitVec 1).setWidth 32).toInt = 1 := by decide
    rw [e, if_pos h, e1]; norm_num
  · have e : IntOp.cmpi .eq a b = 0#1 := by
      show BitVec.ofBool (a == b) = 0#1
      rw [beq_eq_false_iff_ne.mpr h]; rfl
    have e0 : ((0#1 : BitVec 1).setWidth 32).toInt = 0 := by decide
    rw [e, if_neg h, e0]; norm_num

/-- The selection matrix of node chunk `i 0` against an edge block with destination words `v4`. -/
def sel (i : grid2.Coords) (v4 : Vec Ideal S4096 .i32) : FVec Ideal S2000x4096 .bf16 :=
  truncf .bf16 (sitofp .f32 (extui 32 (cmpi .eq
    (broadcastTo S2000x4096 (addi (broadcast S2000x1 (Scalar.muli (BitVec.ofNat 32 (i 0).val) 2000#32))
      (iota .tc S2000x1 32 [0] iota_S2000x1_d0_w32)) broadcasts_S2000x1_S2000x4096)
    (broadcastTo S2000x4096 (shapeCast S1x4096 v4 shapeCasts_S4096_S1x4096) broadcasts_S1x4096_S2000x4096))
    natLt_1_32)) bitsLt_bf16_f32

/-- Its entry `(r, q)`: one when node `2000·(i 0) + r`, as a word, is edge `q`'s destination word, zero otherwise. -/
theorem sel_apply (i : grid2.Coords) (v4 : Vec Ideal S4096 .i32) (r : Fin 2000) (q : Fin 4096) :
    sel i v4 (ix2 r q) = if BitVec.ofNat 32 ((i 0).val * 2000 + r.val) = v4 (ix1 q) then (1 : EReal) else 0 := by
  have e1 : broadcastTo S2000x4096 (addi (broadcast S2000x1 (Scalar.muli (BitVec.ofNat 32 (i 0).val) 2000#32))
      (iota .tc S2000x1 32 [0] iota_S2000x1_d0_w32)) broadcasts_S2000x1_S2000x4096 (ix2 r q)
      = BitVec.ofNat 32 ((i 0).val * 2000 + r.val) := by
    refine (broadcastTo_a1_ab_apply _ _ r q).trans ?_
    show IntOp.addi (Scalar.muli (BitVec.ofNat 32 (i 0).val) 2000#32) (iota .tc S2000x1 32 [0] iota_S2000x1_d0_w32 (ix2 r (0 : Fin 1))) = _
    rw [iota_single_apply]
    show BitVec.ofNat 32 (i 0).val * BitVec.ofNat 32 2000 + BitVec.ofNat 32 r.val = _
    rw [BitVec.ofNat_add, BitVec.ofNat_mul]
  have e2 : broadcastTo S2000x4096 (shapeCast S1x4096 v4 shapeCasts_S4096_S1x4096) broadcasts_S1x4096_S2000x4096 (ix2 r q)
      = v4 (ix1 q) :=
    (broadcastTo_1b_ab_apply _ _ r q).trans (shapeCast_a_1a_apply v4 _ 0 q)
  show ((((IntOp.cmpi .eq _ _).setWidth 32).toInt : ℝ) : EReal) = _
  rw [e1, e2]
  exact eqWord_val _ _

/-- The accumulating payload is the accumulator plus the selection matrix times the gathered rows' block. -/
theorem pay2_eq (i : grid2.Coords) (v4 : Vec Ideal S4096 .i32) (v16 : FVec Ideal S4096x128 .bf16) (v18 : FVec Ideal S2000x128 .f32) :
    k2_pay2 i v4 v16 v18 = addf v18 (matmul DS none (sel i v4) v16 (constant (F := Ideal) S2000x128 .f32 0x00000000#32)) := by
  unfold k2_pay2 sel
  simp only [shapeCast_self]

/-- The accumulating payload at row `r`, lane `j`: the accumulator there plus the block's rows whose destination is
    node `2000·(i 0) + r`. -/
theorem pay2_apply (i : grid2.Coords) (v4 : Vec Ideal S4096 .i32) (v16 : FVec Ideal S4096x128 .bf16) (v18 : FVec Ideal S2000x128 .f32)
    (r : Fin 2000) (j : Fin 128) :
    k2_pay2 i v4 v16 v18 (ix2 r j)
      = (v18 (ix2 r j) + ∑ q : Fin 4096, (if BitVec.ofNat 32 ((i 0).val * 2000 + r.val) = v4 (ix1 q) then (1 : EReal) else 0) * v16 (ix2 q j) : EReal) := by
  rw [pay2_eq]
  refine (addf_apply _ _ _).trans (congrArg (v18 (ix2 r j) + ·) ?_)
  refine (matmulDS_apply (sel i v4) v16 r j).trans ?_
  exact Finset.sum_congr rfl fun q _ => by rw [sel_apply]

/-! ## Where each window's block sits at a point -/

/-- Point `t` is node chunk `t / 416`, edge block `t % 416`; the destination words' and the gathered rows' blocks
    move with the edge block, the node factors' and the result's with the node chunk, the bias does not move. -/
theorem idx_facts (t : Fin cfg2.N) :
    ((grid2.coords t) 0).val = t.val / 416 ∧ ((grid2.coords t) 1).val = t.val % 416
    ∧ win2_0.index t (0 : Fin 1) = t.val % 416
    ∧ win2_1.index t (0 : Fin 2) = t.val % 416 ∧ win2_1.index t (1 : Fin 2) = 0
    ∧ win2_2.index t (0 : Fin 2) = t.val / 416 ∧ win2_2.index t (1 : Fin 2) = 0
    ∧ win2_3.index t (0 : Fin 1) = 0
    ∧ win2_4.index t (0 : Fin 2) = t.val / 416 ∧ win2_4.index t (1 : Fin 2) = 0 := by
  have hN : t.val < 20800 := lt_of_lt_of_eq t.isLt N_2
  have s0 : grid2.stride 0 = 416 := by decide
  have s1 : grid2.stride 1 = 1 := by decide
  have c0 : ((grid2.coords t) 0).val = t.val / 416 := by
    show t.val / grid2.stride 0 % 50 = _
    rw [s0]; omega
  have c1 : ((grid2.coords t) 1).val = t.val % 416 := by
    show t.val / grid2.stride 1 % 416 = _
    rw [s1]; omega
  have w0 : (BitVec.ofNat 32 ((grid2.coords t) 0).val).toNat = t.val / 416 := by
    rw [c0, BitVec.toNat_ofNat]; omega
  have w1 : (BitVec.ofNat 32 ((grid2.coords t) 1).val).toNat = t.val % 416 := by
    rw [c1, BitVec.toNat_ofNat]; omega
  exact ⟨c0, c1, w1, w1, rfl, w0, rfl, rfl, w0, rfl⟩

/-! ## The blocks, read off their arrays -/

/-- The destination words' block at point `t`, lane `q`: the word of edge `4096·(t % 416) + q`. -/
theorem dstBlk_apply (c : Dev nD) (t : Fin cfg2.N) (q : Fin 4096) (k : S1703936.Idx)
    (hk : (k 0).val = t.val % 416 * 4096 + q.val) :
    (iblk2 V c 0 t : Vec Ideal S4096 .i32) (ix1 q) = (V c main_v12 : S1703936.Idx → BitVec 32) k := by
  obtain ⟨-, -, e0, -⟩ := idx_facts t
  unfold iblk2
  rw [View.read_apply]
  show V c main_v12 _ = V c main_v12 _
  congr 1
  funext a
  apply Fin.ext
  match a with
  | ⟨0, _⟩ => show win2_0.index t (0 : Fin 1) * 4096 + 1 * q.val = (k 0).val; rw [e0, hk]; omega

/-- The gathered rows' block at point `t`, entry `(q, j)`: row `4096·(t % 416) + q`, lane `j`. -/
theorem rowBlk_apply (c : Dev nD) (t : Fin cfg2.N) (q : Fin 4096) (j : Fin 128) (k : S1703936x128.Idx)
    (hk0 : (k 0).val = t.val % 416 * 4096 + q.val) (hk1 : (k 1).val = j.val) :
    (iblk2 V c 1 t : Vec Ideal S4096x128 .bf16) (ix2 q j) = (V c main_v14 : S1703936x128.Idx → EReal) k := by
  obtain ⟨-, -, -, e0, e1, -⟩ := idx_facts t
  unfold iblk2
  rw [View.read_apply]
  show V c main_v14 _ = V c main_v14 _
  congr 1
  funext a
  apply Fin.ext
  match a with
  | ⟨0, _⟩ => show win2_1.index t (0 : Fin 2) * 4096 + 1 * q.val = (k 0).val; rw [e0, hk0]; omega
  | ⟨1, _⟩ => show win2_1.index t (1 : Fin 2) * 128 + 1 * j.val = (k 1).val; rw [e1, hk1]; omega

/-- The node factors' block at point `t`, row `r`: the factor of node `2000·(t / 416) + r`. -/
theorem facBlk_apply (c : Dev nD) (t : Fin cfg2.N) (r : Fin 2000) (k : S100000x1.Idx)
    (hk0 : (k 0).val = t.val / 416 * 2000 + r.val) :
    (iblk2 V c 2 t : Vec Ideal S2000x1 .f32) (ix2 r (0 : Fin 1)) = (V c main_v9 : S100000x1.Idx → EReal) k := by
  obtain ⟨-, -, -, -, -, e0, e1, -⟩ := idx_facts t
  unfold iblk2
  rw [View.read_apply]
  show V c main_v9 _ = V c main_v9 _
  congr 1
  funext a
  apply Fin.ext
  match a with
  | ⟨0, _⟩ => show win2_2.index t (0 : Fin 2) * 2000 + 1 * r.val = (k 0).val; rw [e0, hk0]; omega
  | ⟨1, _⟩ => show win2_2.index t (1 : Fin 2) * 1 + 1 * 0 = (k 1).val; rw [e1]; have h1 : (k 1).val < 1 := (k 1).isLt; omega

/-- The bias's block is the bias. -/
theorem biasBlk_apply (c : Dev nD) (t : Fin cfg2.N) (j : Fin 128) :
    (iblk2 V c 3 t : Vec Ideal S128 .f32) (ix1 j) = (V c main_arg2 : S128.Idx → EReal) (ix1 j) := by
  obtain ⟨-, -, -, -, -, -, -, e0, -⟩ := idx_facts t
  unfold iblk2
  rw [View.read_apply]
  show V c main_arg2 _ = V c main_arg2 _
  congr 1
  funext a
  apply Fin.ext
  match a with
  | ⟨0, _⟩ => show win2_3.index t (0 : Fin 1) * 128 + 1 * j.val = j.val; rw [e0]; omega

/-! ## The sums the accumulator runs through -/

/-- Edge `e`'s contribution to node `n`, lane `j`: the gathered row's entry when the edge's destination word is the
    node's word, nothing otherwise; nothing past the last edge. -/
def contrib (dp : S1703936.Idx → BitVec 32) (ga : S1703936x128.Idx → EReal) (n : ℕ) (j : Fin 128) (e : ℕ) : EReal :=
  if h : e < 1703936 then (if BitVec.ofNat 32 n = dp (ix1 ⟨e, h⟩) then (1 : EReal) else 0) * ga (ix2 ⟨e, h⟩ j) else 0

/-- Consecutive blocks of `b` terms each are one run of terms. -/
theorem sum_blocks {M : Type*} [AddCommMonoid M] (g : ℕ → M) (b : ℕ) :
    ∀ m : ℕ, ∑ s ∈ Finset.range m, ∑ q ∈ Finset.range b, g (s * b + q) = ∑ e ∈ Finset.range (m * b), g e
  | 0 => by rw [Finset.sum_range_zero, Nat.zero_mul, Finset.sum_range_zero]
  | m + 1 => by rw [Finset.sum_range_succ, sum_blocks g b m, Nat.succ_mul, Finset.sum_range_add]

/-- All 416 blocks of 4096 edges: the sum over every edge. -/
theorem sum_all (dp : S1703936.Idx → BitVec 32) (ga : S1703936x128.Idx → EReal) (n : ℕ) (j : Fin 128) :
    ∑ s ∈ Finset.range 416, ∑ q ∈ Finset.range 4096, contrib dp ga n j (s * 4096 + q)
      = ∑ e : Fin 1703936, (if BitVec.ofNat 32 n = dp (ix1 e) then (1 : EReal) else 0) * ga (ix2 e j) := by
  rw [sum_blocks (contrib dp ga n j) 4096 416, ← Fin.sum_univ_eq_sum_range (contrib dp ga n j) (416 * 4096)]
  refine Finset.sum_congr rfl fun e _ => ?_
  unfold contrib
  rw [dif_pos e.isLt]

/-! ## The accumulator after each point -/

/-- One point's update of the accumulator, at row `r`, lane `j`: what was there plus the contributions of the point's
    4096 edges to node `2000·(t / 416) + r`. -/
theorem step_apply (c : Dev nD) (t : Fin cfg2.N) (acc : FVec Ideal S2000x128 .f32) (r : Fin 2000) (j : Fin 128) :
    k2_pay2 (grid2.coords t) (iblk2 V c 0 t) (iblk2 V c 1 t) acc (ix2 r j)
      = (acc (ix2 r j) + ∑ q ∈ Finset.range 4096,
          contrib (V c main_v12) (V c main_v14) (t.val / 416 * 2000 + r.val) j (t.val % 416 * 4096 + q) : EReal) := by
  obtain ⟨ec, -⟩ := idx_facts t
  refine (pay2_apply (grid2.coords t) (iblk2 V c 0 t) (iblk2 V c 1 t) acc r j).trans ?_
  refine congrArg (acc (ix2 r j) + ·) ?_
  rw [← Fin.sum_univ_eq_sum_range (fun q => contrib (V c main_v12) (V c main_v14) (t.val / 416 * 2000 + r.val) j (t.val % 416 * 4096 + q)) 4096]
  refine Finset.sum_congr rfl fun q _ => ?_
  have hq : t.val % 416 * 4096 + q.val < 1703936 := by have := q.isLt; omega
  unfold contrib
  rw [dif_pos hq, ec, dstBlk_apply V c t q (ix1 ⟨_, hq⟩) rfl, rowBlk_apply V c t q j (ix2 ⟨_, hq⟩ j) rfl rfl]

/-- After point `n` the accumulator's row `r` holds the contributions to node `2000·(n / 416) + r` of the edge
    blocks `0 … n % 416`: zero plus the first block at the chunk's first point, one more block at each later point. -/
theorem acc_apply (c : Dev nD) : ∀ (n : ℕ) (hn : n < cfg2.N) (r : Fin 2000) (j : Fin 128),
    (sAt2 V c n hn : FVec Ideal S2000x128 .f32) (ix2 r j)
      = ∑ s ∈ Finset.range (n % 416 + 1), ∑ q ∈ Finset.range 4096,
          contrib (V c main_v12) (V c main_v14) (n / 416 * 2000 + r.val) j (s * 4096 + q)
  | 0, hn, r, j => by
    refine (congrFun (sAt2_reset V c ⟨0, hn⟩ rfl) (ix2 r j)).trans ?_
    refine (step_apply V c ⟨0, hn⟩ (k2_pay1 (F := Ideal)) r j).trans ?_
    rw [pay1_apply, zero_add]
    show _ = ∑ s ∈ Finset.range 1, _
    rw [Finset.sum_range_one]
    rfl
  | n + 1, hn, r, j => by
    by_cases h : (n + 1) % 416 = 0
    · refine (congrFun (sAt2_reset V c ⟨n + 1, hn⟩ h) (ix2 r j)).trans ?_
      refine (step_apply V c ⟨n + 1, hn⟩ (k2_pay1 (F := Ideal)) r j).trans ?_
      rw [pay1_apply, zero_add]
      show ∑ q ∈ Finset.range 4096, contrib _ _ ((n + 1) / 416 * 2000 + r.val) j ((n + 1) % 416 * 4096 + q) = _
      rw [h, Finset.sum_range_one]
    · refine (congrFun (sAt2_acc V c ⟨n + 1, hn⟩ h) (ix2 r j)).trans ?_
      refine (step_apply V c ⟨n + 1, hn⟩ (sAt2 V c n (Nat.lt_of_succ_lt hn)) r j).trans ?_
      have h1 : (n + 1) / 416 = n / 416 := by omega
      have h2 : (n + 1) % 416 = n % 416 + 1 := by omega
      rw [acc_apply c n (Nat.lt_of_succ_lt hn) r j]
      show _ + ∑ q ∈ Finset.range 4096, contrib _ _ ((n + 1) / 416 * 2000 + r.val) j ((n + 1) % 416 * 4096 + q) = _
      rw [h1, h2, Finset.sum_range_succ _ (n % 416 + 1)]

/-! ## What a node chunk's last point writes back, and the array -/

/-- At the last edge block of a node chunk the output block's entry `(r, j)` is the specification's entry of node
    `2000·(t / 416) + r`, lane `j`: every edge's contribution, times the node's factor, plus the bias. -/
theorem out_apply (c : Dev nD) (t : Fin cfg2.N) (hf : t.val % 416 = 415) (r : Fin 2000) (j : Fin 128)
    (hb : t.val / 416 * 2000 + r.val < 100000) :
    k2_pay3 (iblk2 V c 2 t) (sAt2 V c t.val t.isLt) (iblk2 V c 3 t) (ix2 r j)
      = Cert.Spec.scat (V c main_v12) (V c main_v14) (V c main_v9) (V c main_arg2) (ix2 ⟨t.val / 416 * 2000 + r.val, hb⟩ j) := by
  refine (pay3_apply (iblk2 V c 2 t) (sAt2 V c t.val t.isLt) (iblk2 V c 3 t) r j).trans ?_
  rw [acc_apply V c t.val t.isLt r j, hf, sum_all, facBlk_apply V c t r (ix2 ⟨_, hb⟩ (0 : Fin 1)) rfl, biasBlk_apply V c t j]
  rfl

/-- A block of a whole-array function, read at an entry, is the function at the entry's place in the array. -/
theorem outBlk_read (G : S100000x128.Idx → EReal) (t : Fin cfg2.N) (y : ((cfg2.win 4).xblock (grid2.coords t)).Idx) :
    ((cfg2.win 4).blk t).view.read (Elt Ideal) G y = G (((cfg2.win 4).blk t).view.emb y) := rfl

/-- What point `t` would write back is its block of a whole-array function `G` as soon as the output block's entry
    `(r, j)` is `G` at row `2000·(t / 416) + r`, lane `j`. -/
theorem flushed_eq_of (G : S100000x128.Idx → EReal) (c : Dev nD) (t : Fin cfg2.N)
    (hG : ∀ (r : Fin 2000) (j : Fin 128) (hb : t.val / 416 * 2000 + r.val < 100000),
      k2_pay3 (iblk2 V c 2 t) (sAt2 V c t.val t.isLt) (iblk2 V c 3 t) (ix2 r j) = G (ix2 ⟨t.val / 416 * 2000 + r.val, hb⟩ j)) :
    (dat2 V c).flushed 4 t = ((cfg2.win 4).blk t).view.read (Elt Ideal) G := by
  obtain ⟨-, -, -, -, -, -, -, -, e0, e1⟩ := idx_facts t
  have hN : t.val < 20800 := lt_of_lt_of_eq t.isLt N_2
  show (cfg2.win 4).cut (grid2.coords t) ((dat2 V c).after 4 t) = _
  rw [after2_4]
  funext y
  refine Eq.trans ?_ (outBlk_read G t y).symm
  have hy0 : (y 0).val < 2000 := (y 0).isLt
  have hy1 : (y 1).val < 128 := (y 1).isLt
  have hb : t.val / 416 * 2000 + (y 0).val < 100000 := by omega
  have hx : (cfg2.win 4).xinj (grid2.coords t) y = ix2 (⟨(y 0).val, hy0⟩ : Fin 2000) (⟨(y 1).val, hy1⟩ : Fin 128) := by
    funext a
    match a with
    | ⟨0, _⟩ => rfl
    | ⟨1, _⟩ => rfl
  have hemb : ((cfg2.win 4).blk t).view.emb y
      = ix2 (⟨t.val / 416 * 2000 + (y 0).val, hb⟩ : Fin 100000) (⟨(y 1).val, hy1⟩ : Fin 128) := by
    funext a
    apply Fin.ext
    match a with
    | ⟨0, _⟩ => show win2_4.index t (0 : Fin 2) * 2000 + 1 * (y 0).val = t.val / 416 * 2000 + (y 0).val; rw [e0]; omega
    | ⟨1, _⟩ => show win2_4.index t (1 : Fin 2) * 128 + 1 * (y 1).val = (y 1).val; rw [e1]; omega
  rw [hemb]
  show k2_pay3 (iblk2 V c 2 t) (sAt2 V c t.val t.isLt) (iblk2 V c 3 t) ((cfg2.win 4).xinj (grid2.coords t) y) = _
  rw [hx]
  exact hG ⟨(y 0).val, hy0⟩ ⟨(y 1).val, hy1⟩ hb

/-- What the last point of a node chunk writes back is its block of the specification's array. -/
theorem flushed_eq (c : Dev nD) (t : Fin cfg2.N) (hf : t.val % 416 = 415) :
    (dat2 V c).flushed 4 t = ((cfg2.win 4).blk t).view.read (Elt Ideal)
      (Cert.Spec.scat (V c main_v12) (V c main_v14) (V c main_v9) (V c main_arg2)) :=
  flushed_eq_of V (Cert.Spec.scat (V c main_v12) (V c main_v14) (V c main_v9) (V c main_arg2)) c t
    (fun r j hb => out_apply V c t hf r j hb)

/-- An entry of the result is in point `t`'s block when its row is among the node chunk's 2000 rows. -/
theorem mem_blk (t : Fin cfg2.N) (i : S100000x128.Idx) :
    i ∈ ((cfg2.win 4).blk t).view.set ↔ ∀ a : Fin 2, win2_4.index t a * S2000x128.size a ≤ (i a).val
      ∧ (i a).val < win2_4.index t a * S2000x128.size a + S2000x128.size a := by
  show i ∈ ((View.whole main_v15).slice (win2_4.rect t)).set ↔ _
  rw [View.set_slice_whole, Rect.mem_set_unit]
  exact Iff.rfl

/-- Every entry of the result is in the block some node chunk's last point writes back: row `ρ` in chunk `ρ / 2000`'s. -/
theorem cover (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  have ht : (i 0).val / 2000 * 416 + 415 < cfg2.N := lt_of_lt_of_eq (by omega) N_2.symm
  obtain ⟨-, -, -, -, -, -, -, -, e0, e1⟩ := idx_facts ⟨(i 0).val / 2000 * 416 + 415, ht⟩
  refine ⟨⟨(i 0).val / 2000 * 416 + 415, ht⟩,
    (flush2_4 _).mpr (by show ((i 0).val / 2000 * 416 + 415) % 416 = 415; omega), ?_⟩
  rw [mem_blk]
  intro a
  match a with
  | ⟨0, _⟩ =>
    show win2_4.index ⟨(i 0).val / 2000 * 416 + 415, ht⟩ (0 : Fin 2) * 2000 ≤ (i 0).val
      ∧ (i 0).val < win2_4.index ⟨(i 0).val / 2000 * 416 + 415, ht⟩ (0 : Fin 2) * 2000 + 2000
    rw [e0]
    show ((i 0).val / 2000 * 416 + 415) / 416 * 2000 ≤ (i 0).val
      ∧ (i 0).val < ((i 0).val / 2000 * 416 + 415) / 416 * 2000 + 2000
    omega
  | ⟨1, _⟩ =>
    show win2_4.index ⟨(i 0).val / 2000 * 416 + 415, ht⟩ (1 : Fin 2) * 128 ≤ (i 1).val
      ∧ (i 1).val < win2_4.index ⟨(i 0).val / 2000 * 416 + 415, ht⟩ (1 : Fin 2) * 128 + 128
    rw [e1]
    omega

end Scatter

/-- After region 2 its result array holds the gathered rows summed into their destination nodes, scaled by the node
    factors, plus the bias. -/
theorem value2 (c : Dev nD) :
    (dat2 (F := Ideal) V c).arrAt 4 cfg2.N = Cert.Spec.scat (V c main_v12) (V c main_v14) (V c main_v9) (V c main_arg2) :=
  (dat2 V c).arrAt_eq_of_cover 4 (Cert.Spec.scat (V c main_v12) (V c main_v14) (V c main_v9) (V c main_arg2))
    (fun t hf => Scatter.flushed_eq V c t ((flush2_4 t).mp hf)) Scatter.cover

end Cert.KernelIdeal.Frame

end
-- ==== Proof.IdxLemmas.lean ====
/- The host's accumulating scatters and its row gather, for this certificate's dimension numbers, read at an index at
   Ideal: an update lands on the row its index word names (read signed, dropped outside the operand); a gathered row is
   the operand's row the start index names (in range: no clamping). -/
import proofs.«419787_j49813030699305_2_alg».proof.Proof.Spec
import Idealize.ShloMosaic.PureOps.Ideal
import Idealize.ShloMosaic.PureOps.Ideal.Laws
import Idealize.ShloMosaic.Lib.ValueIdx
import Idealize.ShloMosaic.Lib.ValueIdxRank1
import Idealize.ShloMosaic.Lib.ValueLayout
import Idealize.ShloMosaic.Lib.StableHlo.Predicate

set_option maxRecDepth 16384

noncomputable section

namespace Cert.IdxLemmas

open Idealize.ShloMosaic Idealize.ShloMosaic.ValueIdx

/-- Row p of an [n × 1] column of index words. -/
abbrev ixC {n : Nat} (p : Fin n) : (⟨2, ![n, 1]⟩ : Shape).Idx := fun | ⟨0, _⟩ => p | ⟨1, _⟩ => (0 : Fin 1)

/-- A vector laid as an [n × 1] column reads, at (p, 0), the vector at p. -/
theorem bcast_col {α : Type} {n : Nat} (bc : (⟨1, ![n]⟩ : Shape).BroadcastsInDim (⟨2, ![n, 1]⟩ : Shape) (![0] : Fin 1 → Fin 2))
    (v : (⟨1, ![n]⟩ : Shape).Idx → α) (p : Fin n) :
    broadcastInDim (⟨2, ![n, 1]⟩ : Shape) ![0] bc v (ixC p) = v (ix1 p) := by
  simp only [broadcastInDim]
  refine congrArg v (funext fun a => ?_)
  match a with
  | ⟨0, _⟩ =>
    apply Fin.ext
    have hp := p.isLt
    split
    · next h1 => change n = 1 at h1; show (0 : Nat) = p.val; omega
    · rfl

/-- A 32-bit word read signed is the small natural k exactly when it is the word of k. -/
theorem toInt_eq_natCast_iff (w : BitVec 32) (k : Nat) (hk : k < 2 ^ 31) : w.toInt = (k : Int) ↔ w = BitVec.ofNat 32 k := by
  constructor
  · intro h
    have : w = BitVec.ofInt 32 w.toInt := (BitVec.ofInt_toInt).symm
    rw [this, h]; rfl
  · intro h; rw [h]; exact StableHlo.Predicate.toInt_ofNat_small k hk

/-- The histogram scatter's dimension numbers over generic extents: one inserted operand axis, no window axes. -/
abbrev countDims (N n : Nat)
    (wf : ScatterDims.WF (⟨1, ![N]⟩ : Shape) (⟨2, ![n, 1]⟩ : Shape) (⟨1, ![n]⟩ : Shape) [] [0] [0] 1) :
    ScatterDims (⟨1, ![N]⟩ : Shape) (⟨2, ![n, 1]⟩ : Shape) (⟨1, ![n]⟩ : Shape) :=
  { updateWindowDims := [], insertedWindowDims := [0], scatterDimsToOperandDims := [0], indexVectorDim := 1, wf := wf }

theorem countDims_start {N n w : Nat}
    (wf : ScatterDims.WF (⟨1, ![N]⟩ : Shape) (⟨2, ![n, 1]⟩ : Shape) (⟨1, ![n]⟩ : Shape) [] [0] [0] 1)
    (idx : IVec (⟨2, ![n, 1]⟩ : Shape) w) (e : Fin n) :
    (countDims N n wf).start (ix1 e) idx 0 = (idx (ixC e)).toInt := by
  unfold ScatterDims.start
  rw [dif_pos (show (0 : Fin 1) ∈ (countDims N n wf).scatterDimsToOperandDims from List.mem_singleton.mpr rfl)]
  refine congrArg (fun x => (idx x).toInt) (funext fun b => ?_)
  match b with
  | ⟨0, _⟩ => rfl
  | ⟨1, _⟩ => rfl

theorem countDims_window {N n : Nat}
    (wf : ScatterDims.WF (⟨1, ![N]⟩ : Shape) (⟨2, ![n, 1]⟩ : Shape) (⟨1, ![n]⟩ : Shape) [] [0] [0] 1)
    (e : Fin n) :
    (countDims N n wf).window (ix1 e) 0 = 0 := by
  unfold ScatterDims.window
  rw [dif_neg (show (0 : Fin 1) ∉ (countDims N n wf).sKept from
    (by decide : (0 : Fin 1) ∉ (List.finRange 1).filter (· ∉ [(0 : Fin 1)])))]

/-- The histogram scatter's landing index: update e lands on row i exactly when its index word, read signed, is i. -/
theorem resultIdx?_count {N n w : Nat}
    (wf : ScatterDims.WF (⟨1, ![N]⟩ : Shape) (⟨2, ![n, 1]⟩ : Shape) (⟨1, ![n]⟩ : Shape) [] [0] [0] 1)
    (idx : IVec (⟨2, ![n, 1]⟩ : Shape) w) (e : Fin n) (i : Fin N) :
    (countDims N n wf).resultIdx? (ix1 e) idx = some (ix1 i) ↔ (idx (ixC e)).toInt = (i.val : Int) := by
  have hs := countDims_start wf idx e
  have hw := countDims_window wf e
  have hi := i.isLt
  unfold ScatterDims.resultIdx?
  split
  · next h =>
    have h0 := h 0
    rw [hs, hw] at h0
    constructor
    · intro hsome
      have h1 : ((countDims N n wf).start (ix1 e) idx 0 + ((countDims N n wf).window (ix1 e) 0 : Nat)).toNat = i.val :=
        congrArg (fun f : (⟨1, ![N]⟩ : Shape).Idx => (f 0).val) (Option.some.inj hsome)
      rw [hs, hw] at h1
      omega
    · intro heq
      refine congrArg some (funext fun a => ?_)
      obtain rfl : a = 0 := Subsingleton.elim _ _
      apply Fin.ext
      show ((countDims N n wf).start (ix1 e) idx 0 + ((countDims N n wf).window (ix1 e) 0 : Nat)).toNat = i.val
      rw [hs, hw, heq]; omega
  · next h =>
    constructor
    · intro hsome; exact absurd hsome (by simp)
    · intro heq
      exfalso; apply h; intro a
      obtain rfl : a = 0 := Subsingleton.elim _ _
      rw [hs, hw, heq]
      show (0 : Int) ≤ (i.val : Int) + ((0 : Nat) : Int) ∧ (i.val : Int) + ((0 : Nat) : Int) < (N : Int)
      omega

/-- The histogram scatter at generic extents: ones scattered into zeros count, per row, the index words naming it. -/
theorem scatterAdd_count_gen {N n : Nat} (hN : N ≤ 2 ^ 31)
    (wf : ScatterDims.WF (⟨1, ![N]⟩ : Shape) (⟨2, ![n, 1]⟩ : Shape) (⟨1, ![n]⟩ : Shape) [] [0] [0] 1)
    (bc : (⟨1, ![n]⟩ : Shape).BroadcastsInDim (⟨2, ![n, 1]⟩ : Shape) (![0] : Fin 1 → Fin 2))
    (src : (⟨1, ![n]⟩ : Shape).Idx → BitVec 32) (i : Fin N) :
    Host.scatterAdd (F := Ideal) (φ := .f32) (countDims N n wf) (fun _ => (0 : EReal))
      (broadcastInDim (⟨2, ![n, 1]⟩ : Shape) ![0] bc src) (fun _ => (1 : EReal)) (ix1 i)
    = ∑ e : Fin n, if src (ix1 e) = BitVec.ofNat 32 i.val then (1 : EReal) else 0 := by
  show Ideal.hostScatterAdd (countDims N n wf) (fun _ => (0 : EReal))
      (broadcastInDim (⟨2, ![n, 1]⟩ : Shape) ![0] bc src) (fun _ => (1 : EReal)) (ix1 i) = _
  unfold Ideal.hostScatterAdd
  refine (zero_add _).trans ?_
  rw [Finset.sum_filter]
  refine (Equiv.sum_comp (idxEquiv1 (n := n)).symm _).symm.trans (Finset.sum_congr rfl fun e _ => ?_)
  show (if (countDims N n wf).resultIdx? (ix1 e) (broadcastInDim (⟨2, ![n, 1]⟩ : Shape) ![0] bc src) = some (ix1 i)
      then (1 : EReal) else 0) = _
  have hi := i.isLt
  refine if_congr ((resultIdx?_count wf _ e i).trans ?_) rfl rfl
  rw [bcast_col bc src e]
  exact toInt_eq_natCast_iff _ _ (by omega)

/-- The row scatter's dimension numbers over generic extents: operand axis 0 inserted and indexed, axis 1 the window. -/
abbrev rowsDims (N C n : Nat)
    (wf : ScatterDims.WF (⟨2, ![N, C]⟩ : Shape) (⟨2, ![n, 1]⟩ : Shape) (⟨2, ![n, C]⟩ : Shape) [1] [0] [0] 1) :
    ScatterDims (⟨2, ![N, C]⟩ : Shape) (⟨2, ![n, 1]⟩ : Shape) (⟨2, ![n, C]⟩ : Shape) :=
  { updateWindowDims := [1], insertedWindowDims := [0], scatterDimsToOperandDims := [0], indexVectorDim := 1, wf := wf }

section Rows
variable {N C n w : Nat}
  (wf : ScatterDims.WF (⟨2, ![N, C]⟩ : Shape) (⟨2, ![n, 1]⟩ : Shape) (⟨2, ![n, C]⟩ : Shape) [1] [0] [0] 1)
  (idx : IVec (⟨2, ![n, 1]⟩ : Shape) w) (e : Fin n) (c : Fin C)

theorem rowsDims_start0 : (rowsDims N C n wf).start (ix2 e c) idx 0 = (idx (ixC e)).toInt := by
  unfold ScatterDims.start
  rw [dif_pos (show (0 : Fin 2) ∈ (rowsDims N C n wf).scatterDimsToOperandDims from List.mem_singleton.mpr rfl)]
  refine congrArg (fun x => (idx x).toInt) (funext fun b => ?_)
  match b with
  | ⟨0, _⟩ => rfl
  | ⟨1, _⟩ => rfl

theorem rowsDims_start1 : (rowsDims N C n wf).start (ix2 e c) idx 1 = 0 := by
  unfold ScatterDims.start
  rw [dif_neg (show (1 : Fin 2) ∉ (rowsDims N C n wf).scatterDimsToOperandDims from
    (by decide : (1 : Fin 2) ∉ [(0 : Fin 2)]))]

theorem rowsDims_window0 : (rowsDims N C n wf).window (ix2 e c) 0 = 0 := by
  unfold ScatterDims.window
  rw [dif_neg (show (0 : Fin 2) ∉ (rowsDims N C n wf).sKept from
    (by decide : (0 : Fin 2) ∉ (List.finRange 2).filter (· ∉ [(0 : Fin 2)])))]

theorem rowsDims_window1 : (rowsDims N C n wf).window (ix2 e c) 1 = c.val := by
  unfold ScatterDims.window
  rw [dif_pos (show (1 : Fin 2) ∈ (rowsDims N C n wf).sKept from
    (by decide : (1 : Fin 2) ∈ (List.finRange 2).filter (· ∉ [(0 : Fin 2)])))]
  rfl

/-- The row scatter's landing index: update (e, c) lands on (i, k) exactly when e's index word, read signed, is i and c = k. -/
theorem resultIdx?_rows (i : Fin N) (k : Fin C) :
    (rowsDims N C n wf).resultIdx? (ix2 e c) idx = some (ix2 i k) ↔ (idx (ixC e)).toInt = (i.val : Int) ∧ c = k := by
  have hs0 := rowsDims_start0 wf idx e c
  have hs1 := rowsDims_start1 wf idx e c
  have hw0 := rowsDims_window0 wf e c
  have hw1 := rowsDims_window1 wf e c
  have hi := i.isLt
  have hk := k.isLt
  have hc := c.isLt
  unfold ScatterDims.resultIdx?
  split
  · next h =>
    have h0 := h 0
    rw [hs0, hw0] at h0
    constructor
    · intro hsome
      have e0 : ((rowsDims N C n wf).start (ix2 e c) idx 0 + ((rowsDims N C n wf).window (ix2 e c) 0 : Nat)).toNat = i.val :=
        congrArg (fun f : (⟨2, ![N, C]⟩ : Shape).Idx => (f 0).val) (Option.some.inj hsome)
      have e1 : ((rowsDims N C n wf).start (ix2 e c) idx 1 + ((rowsDims N C n wf).window (ix2 e c) 1 : Nat)).toNat = k.val :=
        congrArg (fun f : (⟨2, ![N, C]⟩ : Shape).Idx => (f 1).val) (Option.some.inj hsome)
      rw [hs0, hw0] at e0
      rw [hs1, hw1] at e1
      exact ⟨by omega, Fin.ext (by omega)⟩
    · rintro ⟨heq, rfl⟩
      refine congrArg some (funext fun a => ?_)
      match a with
      | ⟨0, _⟩ =>
        apply Fin.ext
        show ((rowsDims N C n wf).start (ix2 e c) idx 0 + ((rowsDims N C n wf).window (ix2 e c) 0 : Nat)).toNat = i.val
        rw [hs0, hw0, heq]; omega
      | ⟨1, _⟩ =>
        apply Fin.ext
        show ((rowsDims N C n wf).start (ix2 e c) idx 1 + ((rowsDims N C n wf).window (ix2 e c) 1 : Nat)).toNat = c.val
        rw [hs1, hw1]; omega
  · next h =>
    constructor
    · intro hsome; exact absurd hsome (by simp)
    · rintro ⟨heq, rfl⟩
      exfalso; apply h; intro a
      match a with
      | ⟨0, _⟩ =>
        show (0 : Int) ≤ (rowsDims N C n wf).start (ix2 e c) idx 0 + ((rowsDims N C n wf).window (ix2 e c) 0 : Nat)
          ∧ (rowsDims N C n wf).start (ix2 e c) idx 0 + ((rowsDims N C n wf).window (ix2 e c) 0 : Nat) < (N : Int)
        rw [hs0, hw0, heq]; omega
      | ⟨1, _⟩ =>
        show (0 : Int) ≤ (rowsDims N C n wf).start (ix2 e c) idx 1 + ((rowsDims N C n wf).window (ix2 e c) 1 : Nat)
          ∧ (rowsDims N C n wf).start (ix2 e c) idx 1 + ((rowsDims N C n wf).window (ix2 e c) 1 : Nat) < (C : Int)
        rw [hs1, hw1]; omega

end Rows

/-- The row scatter at generic extents: entry (i, k) of the result sums column k of the update rows whose index word names i. -/
theorem scatterAdd_rows_gen {N C n : Nat} (hN : N ≤ 2 ^ 31)
    (wf : ScatterDims.WF (⟨2, ![N, C]⟩ : Shape) (⟨2, ![n, 1]⟩ : Shape) (⟨2, ![n, C]⟩ : Shape) [1] [0] [0] 1)
    (bc : (⟨1, ![n]⟩ : Shape).BroadcastsInDim (⟨2, ![n, 1]⟩ : Shape) (![0] : Fin 1 → Fin 2))
    (dst : (⟨1, ![n]⟩ : Shape).Idx → BitVec 32) (upd : (⟨2, ![n, C]⟩ : Shape).Idx → EReal) (i : Fin N) (k : Fin C) :
    Host.scatterAdd (F := Ideal) (φ := .f32) (rowsDims N C n wf) (fun _ => (0 : EReal))
      (broadcastInDim (⟨2, ![n, 1]⟩ : Shape) ![0] bc dst) upd (ix2 i k)
    = ∑ e : Fin n, (if dst (ix1 e) = BitVec.ofNat 32 i.val then (1 : EReal) else 0) * upd (ix2 e k) := by
  show Ideal.hostScatterAdd (rowsDims N C n wf) (fun _ => (0 : EReal))
      (broadcastInDim (⟨2, ![n, 1]⟩ : Shape) ![0] bc dst) upd (ix2 i k) = _
  unfold Ideal.hostScatterAdd
  refine (zero_add _).trans ?_
  rw [Finset.sum_filter, sum_idx2]
  refine Finset.sum_congr rfl fun e _ => ?_
  have hi := i.isLt
  have hiff : ∀ c : Fin C, (rowsDims N C n wf).resultIdx? (ix2 e c) (broadcastInDim (⟨2, ![n, 1]⟩ : Shape) ![0] bc dst) = some (ix2 i k)
      ↔ dst (ix1 e) = BitVec.ofNat 32 i.val ∧ c = k := fun c => by
    refine (resultIdx?_rows wf _ e c i k).trans (and_congr_left' ?_)
    rw [bcast_col bc dst e]
    exact toInt_eq_natCast_iff _ _ (by omega)
  calc (∑ c : Fin C, if (rowsDims N C n wf).resultIdx? (ix2 e c) (broadcastInDim (⟨2, ![n, 1]⟩ : Shape) ![0] bc dst) = some (ix2 i k)
          then upd (ix2 e c) else 0)
      = ∑ c : Fin C, if c = k then (if dst (ix1 e) = BitVec.ofNat 32 i.val then upd (ix2 e c) else 0) else 0 :=
        Finset.sum_congr rfl fun c _ => by
          rw [if_congr (hiff c) rfl rfl]
          by_cases hc : c = k <;> by_cases hd : dst (ix1 e) = BitVec.ofNat 32 i.val <;> simp [hc, hd]
    _ = (if dst (ix1 e) = BitVec.ofNat 32 i.val then upd (ix2 e k) else 0) := by
        rw [Finset.sum_ite_eq']; simp
    _ = (if dst (ix1 e) = BitVec.ofNat 32 i.val then (1 : EReal) else 0) * upd (ix2 e k) := by
        split <;> simp

/-- The row gather's dimension numbers over generic extents: operand axis 0 collapsed and indexed, axis 1 the offset axis. -/
abbrev rowGatherDims (N C n : Nat)
    (wf : GatherDims.WF (⟨2, ![N, C]⟩ : Shape) (⟨2, ![n, 1]⟩ : Shape) (⟨2, ![n, C]⟩ : Shape) [1] [0] [] [0] [] 1 ![1, C]) :
    GatherDims (⟨2, ![N, C]⟩ : Shape) (⟨2, ![n, 1]⟩ : Shape) (⟨2, ![n, C]⟩ : Shape) :=
  { offsetDims := [1], collapsedSliceDims := [0], operandBatchingDims := [], startIndicesBatchingDims := [],
    startIndexMap := [0], indexVectorDim := 1, sliceSizes := ![1, C], wf := wf }

section RowGather
variable {N C n w : Nat}
  (wf : GatherDims.WF (⟨2, ![N, C]⟩ : Shape) (⟨2, ![n, 1]⟩ : Shape) (⟨2, ![n, C]⟩ : Shape) [1] [0] [] [0] [] 1 ![1, C])
  (idx : IVec (⟨2, ![n, 1]⟩ : Shape) w) (e : Fin n) (k : Fin C)

theorem rowGatherDims_start0 :
    (rowGatherDims N C n wf).start (ix2 e k) idx 0 = min (idx (ixC e)).toInt.toNat (N - 1) := by
  unfold GatherDims.start
  rw [dif_pos (show (0 : Fin 2) ∈ (rowGatherDims N C n wf).startIndexMap from List.mem_singleton.mpr rfl)]
  have hsi : (rowGatherDims N C n wf).siIdx (ix2 e k) ⟨List.idxOf (0 : Fin 2) (rowGatherDims N C n wf).startIndexMap,
      List.idxOf_lt_length_iff.2 (List.mem_singleton.mpr rfl)⟩ = ixC e := by
    funext b; refine Fin.ext ?_
    match b with
    | ⟨0, _⟩ => rfl
    | ⟨1, _⟩ => rfl
  rw [hsi]
  rfl

theorem rowGatherDims_start1 : (rowGatherDims N C n wf).start (ix2 e k) idx 1 = 0 := by
  unfold GatherDims.start
  rw [dif_neg (show (1 : Fin 2) ∉ (rowGatherDims N C n wf).startIndexMap from
    (by decide : (1 : Fin 2) ∉ [(0 : Fin 2)]))]

theorem rowGatherDims_off0 : (rowGatherDims N C n wf).offCoord (ix2 e k) 0 = 0 :=
  GatherDims.offCoord_eq_zero _ _ _ (fun hm => ((GatherDims.mem_sKept _ _).mp hm).1 (List.mem_singleton.mpr rfl))

theorem rowGatherDims_off1 : (rowGatherDims N C n wf).offCoord (ix2 e k) 1 = k.val := by
  unfold GatherDims.offCoord
  rw [dif_pos (show (1 : Fin 2) ∈ (rowGatherDims N C n wf).sKept from
    (by decide : (1 : Fin 2) ∈ (List.finRange 2).filter (· ∉ ([(0 : Fin 2)] ++ []))))]
  rfl

end RowGather

/-- The row gather at generic extents: result (e, k) is the operand at column k of the row e's index word names, read
    signed and clamped into the operand. -/
theorem gather_rows_gen {α : Type} {N C n w : Nat} (hN : 0 < N)
    (wf : GatherDims.WF (⟨2, ![N, C]⟩ : Shape) (⟨2, ![n, 1]⟩ : Shape) (⟨2, ![n, C]⟩ : Shape) [1] [0] [] [0] [] 1 ![1, C])
    (h : (⟨2, ![N, C]⟩ : Shape).Idx → α) (idx : IVec (⟨2, ![n, 1]⟩ : Shape) w) (e : Fin n) (k : Fin C) :
    Host.gather (rowGatherDims N C n wf) h idx (ix2 e k)
      = h (ix2 ⟨min (idx (ixC e)).toInt.toNat (N - 1), by omega⟩ k) := by
  unfold Host.gather
  refine congrArg h (funext fun a => ?_)
  match a with
  | ⟨0, _⟩ =>
    apply Fin.ext
    show (rowGatherDims N C n wf).start (ix2 e k) idx 0 + (rowGatherDims N C n wf).batchCoord (ix2 e k) 0
        + (rowGatherDims N C n wf).offCoord (ix2 e k) 0 = min (idx (ixC e)).toInt.toNat (N - 1)
    rw [GatherDims.batchCoord_eq_zero _ _ _ List.not_mem_nil, rowGatherDims_off0, rowGatherDims_start0]
    rfl
  | ⟨1, _⟩ =>
    apply Fin.ext
    show (rowGatherDims N C n wf).start (ix2 e k) idx 1 + (rowGatherDims N C n wf).batchCoord (ix2 e k) 1
        + (rowGatherDims N C n wf).offCoord (ix2 e k) 1 = k.val
    rw [GatherDims.batchCoord_eq_zero _ _ _ List.not_mem_nil, rowGatherDims_off1, rowGatherDims_start1]
    omega

/-- The degree histogram: ones scattered by the source word into a zero vector count, per node, the edges whose source word is that node. -/
theorem scatterAdd_count
    (wf : ScatterDims.WF (⟨1, ![100000]⟩ : Shape) (⟨2, ![1700000, 1]⟩ : Shape) (⟨1, ![1700000]⟩ : Shape) [] [0] [0] 1)
    (bc : (⟨1, ![1700000]⟩ : Shape).BroadcastsInDim (⟨2, ![1700000, 1]⟩ : Shape) (![0] : Fin 1 → Fin 2))
    (src : (⟨1, ![1700000]⟩ : Shape).Idx → BitVec 32) :
    Host.scatterAdd (F := Ideal) (φ := .f32)
      ({ updateWindowDims := [], insertedWindowDims := [0], scatterDimsToOperandDims := [0], indexVectorDim := 1, wf := wf } :
        ScatterDims (⟨1, ![100000]⟩ : Shape) (⟨2, ![1700000, 1]⟩ : Shape) (⟨1, ![1700000]⟩ : Shape))
      (fun _ => (0 : EReal)) (broadcastInDim (⟨2, ![1700000, 1]⟩ : Shape) ![0] bc src) (fun _ => (1 : EReal))
    = Cert.Spec.deg src := by
  funext j
  obtain ⟨i, rfl⟩ : ∃ i : Fin 100000, j = ix1 i := ⟨j 0, eq_ix1 j⟩
  exact scatterAdd_count_gen (N := 100000) (n := 1700000) (by omega) wf bc src i

/-- The row scatter: update row `e` is added into the operand row its destination word names. -/
theorem scatterAdd_rows
    (wf : ScatterDims.WF (⟨2, ![100000, 128]⟩ : Shape) (⟨2, ![1700000, 1]⟩ : Shape) (⟨2, ![1700000, 128]⟩ : Shape) [1] [0] [0] 1)
    (bc : (⟨1, ![1700000]⟩ : Shape).BroadcastsInDim (⟨2, ![1700000, 1]⟩ : Shape) (![0] : Fin 1 → Fin 2))
    (dst : (⟨1, ![1700000]⟩ : Shape).Idx → BitVec 32) (upd : (⟨2, ![1700000, 128]⟩ : Shape).Idx → EReal)
    (i : Fin 100000) (k : Fin 128) :
    Host.scatterAdd (F := Ideal) (φ := .f32)
      ({ updateWindowDims := [1], insertedWindowDims := [0], scatterDimsToOperandDims := [0], indexVectorDim := 1, wf := wf } :
        ScatterDims (⟨2, ![100000, 128]⟩ : Shape) (⟨2, ![1700000, 1]⟩ : Shape) (⟨2, ![1700000, 128]⟩ : Shape))
      (fun _ => (0 : EReal)) (broadcastInDim (⟨2, ![1700000, 1]⟩ : Shape) ![0] bc dst) upd (ix2 i k)
    = ∑ e : Fin 1700000, (if dst (ix1 e) = BitVec.ofNat 32 i.val then (1 : EReal) else 0) * upd (ix2 e k) :=
  scatterAdd_rows_gen (N := 100000) (C := 128) (n := 1700000) (by omega) wf bc dst upd i k

/-- The row gather at a start index inside the operand: the operand's row of that number. -/
theorem gather_rows
    (wf : GatherDims.WF (⟨2, ![100000, 128]⟩ : Shape) (⟨2, ![1700000, 1]⟩ : Shape) (⟨2, ![1700000, 128]⟩ : Shape) [1] [0] [] [0] [] 1 ![1, 128])
    (bc : (⟨1, ![1700000]⟩ : Shape).BroadcastsInDim (⟨2, ![1700000, 1]⟩ : Shape) (![0] : Fin 1 → Fin 2))
    (h : (⟨2, ![100000, 128]⟩ : Shape).Idx → EReal) (idx : (⟨1, ![1700000]⟩ : Shape).Idx → BitVec 32)
    (e : Fin 1700000) (k : Fin 128) (hlt : (idx (ix1 e)).toNat < 100000) :
    Host.gather
      ({ offsetDims := [1], collapsedSliceDims := [0], operandBatchingDims := [], startIndicesBatchingDims := [],
         startIndexMap := [0], indexVectorDim := 1, sliceSizes := ![1, 128], wf := wf } :
        GatherDims (⟨2, ![100000, 128]⟩ : Shape) (⟨2, ![1700000, 1]⟩ : Shape) (⟨2, ![1700000, 128]⟩ : Shape))
      h (broadcastInDim (⟨2, ![1700000, 1]⟩ : Shape) ![0] bc idx) (ix2 e k)
    = h (ix2 ⟨(idx (ix1 e)).toNat, hlt⟩ k) := by
  have key := gather_rows_gen (N := 100000) (C := 128) (n := 1700000) (Nat.succ_pos _) wf h
    (broadcastInDim (⟨2, ![1700000, 1]⟩ : Shape) ![0] bc idx) e k
  refine key.trans ?_
  refine congrArg (fun r : Fin 100000 => h (ix2 r k)) (Fin.ext ?_)
  show min (broadcastInDim (⟨2, ![1700000, 1]⟩ : Shape) ![0] bc idx (ixC e)).toInt.toNat (100000 - 1) = (idx (ix1 e)).toNat
  rw [bcast_col bc idx e, StableHlo.Predicate.toInt_eq_toNat_of_lt (by omega), Int.toNat_natCast]
  omega

end Cert.IdxLemmas

end
-- ==== Proof.KI.HostVals.lean ====
/- What the host operations before the first region leave, at Ideal: the padded edge lists and the node factors. -/
import proofs.«419787_j49813030699305_2_alg».proof.Proof.KI.Fold
import proofs.«419787_j49813030699305_2_alg».proof.Proof.IdxLemmas
import proofs.«419787_j49813030699305_2_alg».proof.Proof.Spec
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

namespace HostVals

/-- Two edge lists laid end to end, the second the constant 100000: entry i is the first list's for i below 1700000,
    the constant beyond. -/
theorem concat_pad (a : (⟨1, ![1700000]⟩ : Shape).Idx → BitVec 32)
    (h : Shape.Concatenates [(⟨1, ![1700000]⟩ : Shape), ⟨1, ![3936]⟩] ⟨1, ![1703936]⟩ 0)
    (bc : (⟨0, ![]⟩ : Shape).BroadcastsInDim ⟨1, ![3936]⟩ ![]) :
    concatenate (⟨1, ![1703936]⟩ : Shape) 0
      [⟨⟨1, ![1700000]⟩, a⟩, ⟨⟨1, ![3936]⟩, broadcastInDim ⟨1, ![3936]⟩ ![] bc (constantI ⟨0, ![]⟩ 32 100000#32)⟩] h
      = Cert.Spec.pad a := by
  funext j
  unfold Cert.Spec.pad
  by_cases hj : (j 0).val < 1700000
  · rw [dif_pos hj]
    exact concatenate_pair_apply_left 0 _ _ h j rfl (ix1 ⟨(j 0).val, hj⟩) (fun b => by
      match b with
      | ⟨0, _⟩ => rfl)
  · rw [dif_neg hj]
    have hlt : (j 0).val < 1703936 := (j 0).isLt
    refine (concatenate_pair_apply_right 0 _ _ h j rfl rfl (ix1 ⟨(j 0).val - 1700000, by omega⟩) (fun b hb => ?_) ?_).trans ?_
    · match b with
      | ⟨0, _⟩ => exact absurd rfl hb
    · show (j 0).val - 1700000 + 1700000 = (j 0).val
      omega
    · rw [broadcastInDim_scalar_apply]; rfl

/-- The scalar zero pattern broadcast reads the real zero everywhere. -/
theorem bcast_zero {T : Shape} (bc : (⟨0, ![]⟩ : Shape).BroadcastsInDim T ![]) :
    (broadcastInDim T ![] bc (constant (F := Ideal) ⟨0, ![]⟩ .f32 0x00000000#32) : T.Idx → EReal) = fun _ => (0 : EReal) := by
  funext j
  rw [broadcastInDim_scalar_apply]
  exact Ideal.ofBits_zero_f32

/-- The scalar one pattern broadcast reads the real one everywhere. -/
theorem bcast_one {T : Shape} (bc : (⟨0, ![]⟩ : Shape).BroadcastsInDim T ![]) :
    (broadcastInDim T ![] bc (constant (F := Ideal) ⟨0, ![]⟩ .f32 0x3F800000#32) : T.Idx → EReal) = fun _ => (1 : EReal) := by
  funext j
  rw [broadcastInDim_scalar_apply]
  exact Ideal.ofBits_one_f32

/-- The guarded reciprocal of a count vector read at an entry. -/
theorem guarded_recip_at (d : (⟨1, ![100000]⟩ : Shape).Idx → EReal)
    (bc : (⟨1, ![100000]⟩ : Shape).BroadcastsInDim ⟨2, ![100000, 1]⟩ (![0] : Fin 1 → Fin 2))
    (i : (⟨2, ![100000, 1]⟩ : Shape).Idx) :
    broadcastInDim (⟨2, ![100000, 1]⟩ : Shape) ![0] bc
      (select (cmpf (F := Ideal) (φ := .f32) .ogt d (fun _ => (0 : EReal)))
        (Host.divf (F := Ideal) (φ := .f32) (fun _ => (1 : EReal)) d) (fun _ => (0 : EReal))) i
      = Scalar.select (Ideal.cmp .ogt (d (ix1 (i 0))) 0) (Ideal.div 1 (d (ix1 (i 0)))) 0 := by
  rw [broadcastInDim_apply _ bc _ i (ix1 (i 0)) (fun a => by
    match a with
    | ⟨0, _⟩ => exact (if_neg (show ¬ ((100000 : ℕ) = 1) by decide)).symm)]
  rfl

/-- The guarded reciprocal of the degree vector, as a column, is the node factor. -/
theorem guarded_recip (src : S1700000.Idx → BitVec 32) :
    broadcastInDim S100000x1 ![0] bcast_S100000_S100000x1_0
      (select (cmpf (F := Ideal) (φ := .f32) .ogt (Cert.Spec.deg src) (fun _ => (0 : EReal)))
        (Host.divf (F := Ideal) (φ := .f32) (fun _ => (1 : EReal)) (Cert.Spec.deg src)) (fun _ => (0 : EReal)))
      = Cert.Spec.norm2 src := by
  funext i
  rw [guarded_recip_at]
  unfold Cert.Spec.norm2
  generalize Cert.Spec.deg src (ix1 (i 0)) = x
  unfold Scalar.select Ideal.cmp
  by_cases hpos : 0 < x
  · rw [if_pos hpos]
    simp only [hpos, decide_true, BitVec.ofBool_true, if_true]
  · rw [if_neg hpos]
    simp only [hpos, decide_false, BitVec.ofBool_false]
    rfl

/-- The degree histogram as the program writes it: ones scattered by the source word into zeros. -/
theorem hist (src : S1700000.Idx → BitVec 32) :
    Host.scatterAdd (F := Ideal) (φ := .f32) scatter_S100000_S1700000x1_S1700000_n_0_0_1 (fun _ => (0 : EReal))
      (broadcastInDim S1700000x1 ![0] bcast_S1700000_S1700000x1_0 src) (fun _ => (1 : EReal)) = Cert.Spec.deg src := by
  unfold scatter_S100000_S1700000x1_S1700000_n_0_0_1
  exact Cert.IdxLemmas.scatterAdd_count _ _ src

/-- The third stretch at the column of factors: the second stretch's vector of factors, as a column. -/
theorem stretch3_v9 (V2 : Valuation τ sig (Elt Ideal)) :
    (StableHlo.after hostOps0_2 V2 main_v9 : S100000x1.Idx → EReal)
      = broadcastInDim S100000x1 ![0] bcast_S100000_S100000x1_0 (V2 main_v8 : S100000.Idx → EReal) := by
  after_results
  try rfl

/-- The second stretch at the vector of factors: the guarded choice between the first stretch's reciprocal and its zero. -/
theorem stretch2_v8 (V1 : Valuation τ sig (Elt Ideal)) :
    (StableHlo.after hostOps0_1 V1 main_v8 : S100000.Idx → EReal)
      = select (V1 main_v5 : IVec S100000 1) (V1 main_v7 : S100000.Idx → EReal)
          (broadcastInDim S100000 ![] bcast_S_S100000 (V1 main_cst_3 : S_.Idx → EReal)) := by
  after_results
  try rfl

variable (m : (ℓ : Loc nD τ sig) → Buf (Elt Ideal) ℓ)

/-- The first stretch leaves the degree vector's positivity mask. -/
theorem W1_v5 (c : Dev nD) :
    (W1 m c main_v5 : IVec S100000 1)
      = cmpf (F := Ideal) (φ := .f32) .ogt (Cert.Spec.deg (W0 m c main_arg3)) (fun _ => (0 : EReal)) := by
  dsimp only [W1]
  after_results
  rw [bcast_zero bcast_S_S100000, bcast_one bcast_S_S1700000, hist]

/-- The first stretch leaves the degree vector's reciprocal. -/
theorem W1_v7 (c : Dev nD) :
    (W1 m c main_v7 : S100000.Idx → EReal)
      = Host.divf (F := Ideal) (φ := .f32) (fun _ => (1 : EReal)) (Cert.Spec.deg (W0 m c main_arg3)) := by
  dsimp only [W1]
  after_results
  rw [bcast_zero bcast_S_S100000, bcast_one bcast_S_S1700000, bcast_one bcast_S_S100000, hist]

/-- The first stretch leaves the scalar zero the guarded choice falls back to. -/
theorem W1_cst3 (c : Dev nD) :
    (W1 m c main_cst_3 : S_.Idx → EReal) = constant (F := Ideal) S_ .f32 0x00000000#32 := by
  dsimp only [W1]
  after_results
  try rfl

end HostVals

open HostVals

variable (m : (ℓ : Loc nD τ sig) → Buf (Elt Ideal) ℓ)

/-- The padded source list region 1 reads. -/
theorem V3_v11 (c : Dev nD) : V3 m c main_v11 = Cert.Spec.pad (m ((c : Thread nD τ).loc main_arg3)) := by
  dsimp only [V3, W3]
  after_results
  exact concat_pad _ _ _

/-- The padded destination list region 2 reads. -/
theorem V3_v12 (c : Dev nD) : V3 m c main_v12 = Cert.Spec.pad (m ((c : Thread nD τ).loc main_arg4)) := by
  dsimp only [V3, W3]
  after_results
  exact concat_pad _ _ _

/-- The node factors region 2 reads: the reciprocal of a positive out-degree, zero at degree zero. -/
theorem V3_v9 (c : Dev nD) : V3 m c main_v9 = Cert.Spec.norm2 (m ((c : Thread nD τ).loc main_arg3)) := by
  refine (stretch3_v9 (W2 m c)).trans ?_
  refine (congrArg _ (stretch2_v8 (W1 m c))).trans ?_
  rw [W1_v5, W1_v7, W1_cst3, bcast_zero bcast_S_S100000]
  exact guarded_recip _

end Cert.KernelIdeal.Frame

end
-- ==== Proof.KI.Algebraic.lean ====
/- The idealized kernel's result buffer at the end of @main, as the specification's composed function of the arguments:
   each region's result array read back through the boundaries' contents. -/
import proofs.«419787_j49813030699305_2_alg».proof.Proof.KI.FoldLemmas
import proofs.«419787_j49813030699305_2_alg».proof.Proof.KI.Value0
import proofs.«419787_j49813030699305_2_alg».proof.Proof.KI.Value1
import proofs.«419787_j49813030699305_2_alg».proof.Proof.KI.Value2
import proofs.«419787_j49813030699305_2_alg».proof.Proof.KI.HostVals
import proofs.«419787_j49813030699305_2_alg».proof.Proof.Spec

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-- At the end of @main the result buffer holds the scatter of the gathered projected rows, scaled, plus the bias. -/
theorem kernel_value (c : Dev nD) :
    W6 m c (Proc.devRef .tc main_v15)
      = Cert.Spec.kerOut (m ((c : Thread nD τ).loc main_arg0)) (m ((c : Thread nD τ).loc main_arg1))
          (m ((c : Thread nD τ).loc main_arg2)) (m ((c : Thread nD τ).loc main_arg3)) (m ((c : Thread nD τ).loc main_arg4)) := by
  rw [W6_v15, value2 (V5 m) c, V5_v12, V5_v14, V5_v9, V5_arg2, value1 (V4 m) c, V4_v11, V4_v13, value0 (V3 m) c,
    V3_arg0, V3_arg1, V3_v11, V3_v12, V3_v9]
  rfl

end Cert.KernelIdeal.Frame

end
-- ==== Proof.Ref.lean ====
/- The reference's run at Ideal, its result read as the specification's function of the arguments. -/
import proofs.«419787_j49813030699305_2_alg».proof.Proof.Gen.ReferenceIdeal.Run
import proofs.«419787_j49813030699305_2_alg».proof.Proof.Gen.ReferenceIdeal.Read
import proofs.«419787_j49813030699305_2_alg».proof.Proof.IdxLemmas
import proofs.«419787_j49813030699305_2_alg».proof.Proof.Spec
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-! ## The constants and the sign test -/

/-- The pattern of `-0.5` denotes the real `-1/2`. -/
theorem ofBits_neg_half : Ideal.ofBits .f32 0xBF000000#32 = (((-1 / 2 : ℝ)) : EReal) := by
  simp [Ideal.ofBits, Ideal.ieee, -EReal.coe_mul]; norm_num

/-- The pattern of `1.0` denotes `1`. -/
theorem ofBits_one : Ideal.ofBits .f32 0x3F800000#32 = 1 := by
  simp [Ideal.ofBits, Ideal.ieee, -EReal.coe_mul]; norm_num

/-- A word below 100000 is below 2^31, so read signed it is not negative. -/
theorem slt_zero_of_lt (w : BitVec 32) (h : w.toNat < 100000) : IntOp.cmpi .slt w 0#32 = 0#1 := by
  have : w.slt 0#32 = false := by
    rw [BitVec.slt_eq_decide]
    have h1 : w.toInt = (w.toNat : Int) := by
      rw [BitVec.toInt_eq_toNat_cond]; split <;> omega
    simp [h1]
  simp [IntOp.cmpi, this]

/-! ## The stages the index lemmas read -/

/-- The source list with negative words wrapped by 100000 is the source list itself: no word is negative. -/
theorem wrapped_eq (x3 : (⟨S1700000, .i32⟩ : BufTy).Contents (Elt Ideal))
    (h : ∀ e : Fin 1700000, (x3 (ix1 e)).toNat < 100000) : val_main_v4 (F := Ideal) x3 = x3 := by
  funext i
  obtain ⟨e, rfl⟩ : ∃ e : Fin 1700000, i = ix1 e := ⟨i 0, eq_ix1 i⟩
  rw [val_main_v4_apply, val_main_v1_apply, val_main_v0_apply, val_main_c_apply, slt_zero_of_lt _ (h e), select_zero]

/-- The row scatter's operand is the zero array. -/
theorem zeros_rows : val_main_v7 (F := Ideal) = fun _ => (0 : EReal) := by
  funext i
  rw [val_main_v7_apply, val_main_cst_apply, Ideal.ofBits_def, Ideal.ofBits_zero_f32]

/-- The histogram's operand is the zero vector. -/
theorem zeros_count : val_main_v11 (F := Ideal) = fun _ => (0 : EReal) := by
  funext i
  rw [val_main_v11_apply, val_main_cst_2_apply, Ideal.ofBits_def, Ideal.ofBits_zero_f32]

/-- The histogram's updates are all one. -/
theorem ones_count : val_main_v10 (F := Ideal) = fun _ => (1 : EReal) := by
  funext i
  rw [val_main_v10_apply, val_main_cst_1_apply, Ideal.ofBits_def, ofBits_one]

/-- The histogram of the source words is the out-degree. -/
theorem count_eq (x3 : (⟨S1700000, .i32⟩ : BufTy).Contents (Elt Ideal)) :
    val_main_v13 (F := Ideal) x3 = Cert.Spec.deg x3 := by
  unfold val_main_v13 val_main_v12
  rw [zeros_count, ones_count]
  exact Cert.IdxLemmas.scatterAdd_count _ _ x3

/-- The degree to the power `-1/2` is the reference's factor. -/
theorem nrm_eq (x3 : (⟨S1700000, .i32⟩ : BufTy).Contents (Elt Ideal)) :
    val_main_v15 (F := Ideal) x3 = Cert.Spec.nrm x3 := by
  funext i
  rw [val_main_v15_apply, count_eq, val_main_v14_apply, val_main_cst_3_apply, Ideal.hostPowf_def, Ideal.ofBits_def,
    ofBits_neg_half]
  rfl

/-- A gathered row is the row of `h` its source word names. -/
theorem gathered_eq (x0 : (⟨S100000x128, .f32⟩ : BufTy).Contents (Elt Ideal))
    (x3 : (⟨S1700000, .i32⟩ : BufTy).Contents (Elt Ideal))
    (h : ∀ e : Fin 1700000, (x3 (ix1 e)).toNat < 100000) (e : Fin 1700000) (k : Fin 128) :
    val_main_v6 (F := Ideal) x0 x3 (ix2 e k) = x0 (ix2 ⟨(x3 (ix1 e)).toNat, h e⟩ k) := by
  unfold val_main_v6 val_main_v5
  rw [wrapped_eq x3 h]
  exact Cert.IdxLemmas.gather_rows _ _ x0 x3 e k (h e)

/-- The row scatter of the gathered rows is the reference's aggregate. -/
theorem agg_eq (x0 : (⟨S100000x128, .f32⟩ : BufTy).Contents (Elt Ideal))
    (x3 x4 : (⟨S1700000, .i32⟩ : BufTy).Contents (Elt Ideal))
    (h : ∀ e : Fin 1700000, (x3 (ix1 e)).toNat < 100000) (p : Fin 100000) (k : Fin 128) :
    val_main_v9 (F := Ideal) x0 x3 x4 (ix2 p k) = Cert.Spec.agg x0 x3 h x4 (ix2 p k) := by
  unfold val_main_v9 val_main_v8
  rw [zeros_rows]
  refine (Cert.IdxLemmas.scatterAdd_rows _ _ x4 (val_main_v6 (F := Ideal) x0 x3) p k).trans ?_
  show _ = ∑ e : Fin 1700000, (if x4 (ix1 e) = BitVec.ofNat 32 p.val then (1 : EReal) else 0)
    * x0 (ix2 ⟨(x3 (ix1 e)).toNat, h e⟩ k)
  refine Finset.sum_congr rfl fun e _ => ?_
  rw [gathered_eq x0 x3 h e k]

/-! ## The result, index by index -/

/-- The reference's result is the specification's function of its arguments. -/
theorem term_eq (x0 : (⟨S100000x128, .f32⟩ : BufTy).Contents (Elt Ideal)) (x1 : (⟨S128x128, .f32⟩ : BufTy).Contents (Elt Ideal))
    (x2 : (⟨S128, .f32⟩ : BufTy).Contents (Elt Ideal)) (x3 x4 : (⟨S1700000, .i32⟩ : BufTy).Contents (Elt Ideal))
    (h : ∀ e : Fin 1700000, (x3 (ix1 e)).toNat < 100000) :
    val_main_v24 (F := Ideal) x0 x1 x2 x3 x4 = Cert.Spec.refOut x0 x1 x2 x3 h x4 := by
  funext i
  obtain ⟨p, q, rfl⟩ : ∃ (p : Fin 100000) (q : Fin 128), i = ix2 p q := ⟨i 0, i 1, eq_ix2 i⟩
  have el : ∀ k : Fin 128, lidx_main_v19 (ix2 p q) k = ix2 p k := fun k =>
    funext fun a => Fin.ext (by match a with | ⟨0, _⟩ => rfl | ⟨1, _⟩ => rfl)
  have er : ∀ k : Fin 128, ridx_main_v19 (ix2 p q) k = ix2 k q := fun k =>
    funext fun a => Fin.ext (by match a with | ⟨0, _⟩ => rfl | ⟨1, _⟩ => rfl)
  have ec : ∀ k : Fin 128, idx_main_v16 (idx_main_v17 (ix2 p k)) = ix1 p := fun k =>
    funext fun a => Fin.ext (by match a with | ⟨0, _⟩ => rfl)
  have ec' : idx_main_v16 (idx_main_v20 (ix2 p q)) = ix1 p :=
    funext fun a => Fin.ext (by match a with | ⟨0, _⟩ => rfl)
  have eb : idx_main_v22 (idx_main_v23 (ix2 p q)) = ix1 q :=
    funext fun a => Fin.ext (by match a with | ⟨0, _⟩ => rfl)
  show _ = (∑ k : Fin 128, (Cert.Spec.nrm x3 (ix1 p) * Cert.Spec.agg x0 x3 h x4 (ix2 p k)) * x1 (ix2 k q))
    * Cert.Spec.nrm x3 (ix1 p) + x2 (ix1 q)
  rw [val_main_v24_apply, val_main_v21_apply, val_main_v19_apply, val_main_v20_apply, val_main_v16_apply, ec',
    val_main_v23_apply, val_main_v22_apply, eb, nrm_eq, Ideal.addf_def, Ideal.mulf_def]
  refine congrArg (· + x2 (ix1 q)) (congrArg (· * Cert.Spec.nrm x3 (ix1 p)) (Finset.sum_congr rfl fun k _ => ?_))
  rw [el, er, val_main_v18_apply, val_main_v17_apply, val_main_v16_apply, ec, nrm_eq, agg_eq x0 x3 x4 h, Ideal.mulf_def]

/-! ## The run -/

/-- With every source word a node id, the reference ends with its result at `refOut` of its arguments, the arguments unchanged. -/
theorem run_ref (m : (ℓ : Loc nD τ sig) → Buf (Elt Ideal) ℓ) (ρ : Dev nD → PrngReg)
    (hsrc : ∀ (c : Dev nD) (e : Fin 1700000), ((m ((c.tc : Thread nD τ).loc main_arg3)) (ix1 e)).toNat < 100000) :
    θ_run (defs (F := Ideal)) (onTc (τ := τ) (main (F := Ideal))) ⟨m, fun _ => 0, ρ⟩ (fun r => ∀ c : Dev nD,
      r.2.mem ((c.tc : Thread nD τ).loc main_v24)
          = Cert.Spec.refOut (m ((c.tc : Thread nD τ).loc main_arg0)) (m ((c.tc : Thread nD τ).loc main_arg1))
              (m ((c.tc : Thread nD τ).loc main_arg2)) (m ((c.tc : Thread nD τ).loc main_arg3)) (hsrc c) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨(h c).1.trans ?_, (h c).2⟩) (Cert.ReferenceIdeal.Value.run (F := Ideal) m ρ)
  exact (val_main_v24_eq (F := Ideal) _ _ _ _ _).trans (term_eq _ _ _ _ _ (hsrc c))

end Cert.ReferenceIdeal.RefValue

end
-- ==== Proof.Pre.lean ====
/- The precondition read: every float input a real number, every source word a node id. -/
import proofs.«419787_j49813030699305_2_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

set_option maxRecDepth 16384

noncomputable section

namespace Cert.PreRead

open Idealize.ShloMosaic Idealize.ShloMosaic.ValueIdx

/-- The scalar shape has one index. -/
instance subsingleton_scalar_idx : Subsingleton Cert.Pre_finite_inputs.S_.Idx := ⟨fun _ _ => funext fun d => d.elim0⟩

/-- The f32 pattern `0x7F800000` denotes `+∞`. -/
theorem ofBits_inf_f32 : Ideal.ofBits .f32 0x7F800000#32 = (⊤ : EReal) := by
  simp [Ideal.ofBits, Ideal.ieee]

/-- An extended real whose absolute value `max x (-x)` lies below `+∞` is a real: at `⊤` and at `⊥` the absolute value is `⊤`. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- One element of `|x| < +∞`, as the precondition prints it, says the element is a real. -/
theorem real_of_cmpf (x : Ideal .f32)
    (h : FloatOps.cmpf .olt (FloatOps.hostAbsf x) (FloatOps.ofBits (F := Ideal) .f32 0x7F800000#32) = 1#1) :
    ∃ r : ℝ, x = (r : EReal) := by
  refine real_of_abs_lt_top x ?_
  have h' : BitVec.ofBool (decide (max x (-x) < Ideal.ofBits .f32 0x7F800000#32)) = 1#1 := h
  rw [ofBits_inf_f32] at h'
  exact of_decide_eq_true ((StableHlo.Predicate.ofBool_eq_one_iff _).1 h')

/-- A 32-bit word that, read signed, lies in `[0, 100000)` has its unsigned reading below 100000. -/
theorem toNat_lt_of_signed (w : BitVec 32) (h0 : (0#32 : BitVec 32).toInt ≤ w.toInt)
    (h1 : w.toInt < (100000#32 : BitVec 32).toInt) : w.toNat < 100000 := by
  have e0 : (0#32 : BitVec 32).toInt = 0 := by decide
  have e1 : (100000#32 : BitVec 32).toInt = 100000 := by decide
  rw [e0] at h0
  rw [e1] at h1
  rw [BitVec.toInt_eq_toNat_cond] at h0 h1
  have hw := w.isLt
  by_cases hm : 2 * w.toNat < 2 ^ 32
  · rw [if_pos hm] at h1
    omega
  · rw [if_neg hm] at h0
    omega

/-- The printed precondition all ones: the three float inputs hold reals, and every source word, read signed, lies in
    `[0, 100000)` (so its unsigned reading is below 100000). -/
theorem of_fn (a0 : FVec Ideal Cert.Pre_finite_inputs.S100000x128 .f32) (a1 : FVec Ideal Cert.Pre_finite_inputs.S128x128 .f32)
    (a2 : FVec Ideal Cert.Pre_finite_inputs.S128 .f32) (a3 a4 : IVec Cert.Pre_finite_inputs.S1700000 32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ e : Fin 1700000, (a3 (ix1 e)).toNat < 100000) := by
  have h0 := congrFun h ix0
  dsimp only [Cert.Pre_finite_inputs.fn, Cert.Pre_finite_inputs.fn_part1, andi] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  refine ⟨fun i => ?_, fun i => ?_, fun i => ?_, fun e => ?_⟩
  · exact real_of_cmpf (a0 i) (Host.reduce_andi_all _ _ _ _ _ h1 i)
  · exact real_of_cmpf (a1 i) (Host.reduce_andi_all _ _ _ _ _ h2 i)
  · exact real_of_cmpf (a2 i) (Host.reduce_andi_all _ _ _ _ _ h3 i)
  · have c0 : IntOp.cmpi .sge (a3 (ix1 e)) 0#32 = 1#1 := Host.reduce_andi_all _ _ _ _ _ h4 (ix1 e)
    have c1 : IntOp.cmpi .slt (a3 (ix1 e)) 100000#32 = 1#1 := Host.reduce_andi_all _ _ _ _ _ h5 (ix1 e)
    exact toNat_lt_of_signed _ (IntOp.cmpi_sge.1 c0) (IntOp.cmpi_slt.1 c1)

end Cert.PreRead

end
-- ==== Proof.Math.lean ====
/- The two composed computations agree over finite inputs and in-range source ids. -/
import proofs.«419787_j49813030699305_2_alg».proof.Proof.Spec
import Idealize.ShloMosaic.PureOps.Ideal
import Idealize.ShloMosaic.PureOps.Ideal.Laws
import Idealize.ShloMosaic.Lib.ValueIdx
import Mathlib.Algebra.BigOperators.Fin

noncomputable section

namespace Cert.Spec

open Idealize.ShloMosaic Idealize.ShloMosaic.ValueIdx

/-- The coercion of the reals into the extended reals commutes with finite sums. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The coercion commutes with a case distinction. -/
theorem coe_ite (p : Prop) [Decidable p] (x y : ℝ) :
    ((if p then x else y : ℝ) : EReal) = if p then (x : EReal) else (y : EReal) := by
  split_ifs <;> rfl

/-- A sum over `Fin m` whose terms vanish from `n` on is the sum over `Fin n`. -/
theorem sum_fin_castLE {M : Type*} [AddCommMonoid M] {n m : ℕ} (hnm : n ≤ m) (f : Fin m → M)
    (hf : ∀ e : Fin m, n ≤ e.val → f e = 0) :
    ∑ e : Fin m, f e = ∑ e : Fin n, f (Fin.castLE hnm e) := by
  obtain ⟨k, rfl⟩ := Nat.exists_eq_add_of_le hnm
  rw [Fin.sum_univ_add,
    Finset.sum_eq_zero (s := Finset.univ) (f := fun i : Fin k => f (Fin.natAdd n i)) (fun i _ => hf _ (by simp)),
    add_zero]
  rfl

/-- The indicator sum over node ids selects the row named by an in-range word. -/
theorem sum_ind_ofNat {N : ℕ} (hN : N ≤ 2 ^ 32) (w : BitVec 32) (hw : w.toNat < N) (g : Fin N → EReal) :
    ∑ n : Fin N, (if w = BitVec.ofNat 32 n.val then (1 : EReal) else 0) * g n = g ⟨w.toNat, hw⟩ := by
  rw [Finset.sum_eq_single (⟨w.toNat, hw⟩ : Fin N)]
  · rw [if_pos (by simp), one_mul]
  · intro n _ hne
    rw [if_neg, zero_mul]
    intro heq
    apply hne
    apply Fin.ext
    have h1 := congrArg BitVec.toNat heq
    rw [BitVec.toNat_ofNat, Nat.mod_eq_of_lt (lt_of_lt_of_le n.isLt hN)] at h1
    exact h1.symm
  · intro h; exact absurd (Finset.mem_univ _) h

/-- The padding word names no node. -/
theorem ofNat_ne_pad (a : Fin 100000) : BitVec.ofNat 32 a.val ≠ 100000#32 := by
  intro heq
  have h1 := congrArg BitVec.toNat heq
  simp only [BitVec.toNat_ofNat, Nat.reducePow] at h1
  omega

/-- The square of the power `-1/2` of a nonnegative real is its reciprocal, and zero at zero. -/
theorem rpow_half_sq (d : ℝ) (hd : 0 ≤ d) :
    d ^ ((-1 / 2 : ℝ)) * d ^ ((-1 / 2 : ℝ)) = if 0 < d then 1 / d else 0 := by
  rcases hd.eq_or_lt with h0 | hpos
  · subst h0
    rw [if_neg (lt_irrefl _), Real.zero_rpow (by norm_num), mul_zero]
  · rw [if_pos hpos, ← Real.rpow_add hpos, show (-1 / 2 : ℝ) + -1 / 2 = -1 by norm_num, Real.rpow_neg_one, one_div]

/-- The real identity behind the certificate: the projection commutes with the row sums. -/
theorem real_id {E K : Type*} [Fintype E] [Fintype K] (I : E → ℝ) (H : E → K → ℝ) (W : K → ℝ) (r : ℝ) :
    (∑ e, I e * ∑ k, H e k * W k) * (r * r) = (∑ k, (r * ∑ e, I e * H e k) * W k) * r := by
  simp only [Finset.mul_sum, Finset.sum_mul]
  rw [Finset.sum_comm]
  exact Finset.sum_congr rfl fun k _ => Finset.sum_congr rfl fun e _ => by ring

/-- A padded list read below the original length is the original list. -/
theorem pad_castLE (s : (⟨1, ![1700000]⟩ : Shape).Idx → BitVec 32) (hle : 1700000 ≤ 1703936) (e : Fin 1700000) :
    pad s (ix1 (Fin.castLE hle e)) = s (ix1 e) :=
  dif_pos e.isLt

/-- A padded list read from the original length on is the padding word. -/
theorem pad_ge (s : (⟨1, ![1700000]⟩ : Shape).Idx → BitVec 32) (e : Fin 1703936) (he : 1700000 ≤ e.val) :
    pad s (ix1 e) = 100000#32 :=
  dif_neg (not_lt.mpr he)

/-- The scatter of gathered rows over the padded edge lists is the sum, over the true edges into node `a`, of the
    source rows. -/
theorem scat_gath_sum (src dst : (⟨1, ![1700000]⟩ : Shape).Idx → BitVec 32)
    (hsrc : ∀ e : Fin 1700000, (src (ix1 e)).toNat < 100000) (a : Fin 100000) (g : Fin 100000 → EReal) :
    (∑ e : Fin 1703936, (if BitVec.ofNat 32 a.val = pad dst (ix1 e) then (1 : EReal) else 0) *
      ∑ n : Fin 100000, (if pad src (ix1 e) = BitVec.ofNat 32 n.val then (1 : EReal) else 0) * g n)
    = ∑ e : Fin 1700000, (if dst (ix1 e) = BitVec.ofNat 32 a.val then (1 : EReal) else 0) *
        g ⟨(src (ix1 e)).toNat, hsrc e⟩ := by
  have hle : 1700000 ≤ 1703936 := by norm_num
  rw [sum_fin_castLE hle]
  · refine Finset.sum_congr rfl fun e _ => ?_
    rw [pad_castLE, pad_castLE, sum_ind_ofNat (by norm_num) _ (hsrc e), if_congr eq_comm rfl rfl]
  · intro e he
    rw [pad_ge _ _ he, if_neg (ofNat_ne_pad a), zero_mul]

/-- The out-degree as a real number. -/
def degR (src : (⟨1, ![1700000]⟩ : Shape).Idx → BitVec 32) (a : Fin 100000) : ℝ :=
  ∑ e : Fin 1700000, if src (ix1 e) = BitVec.ofNat 32 a.val then (1 : ℝ) else 0

theorem degR_nonneg (src : (⟨1, ![1700000]⟩ : Shape).Idx → BitVec 32) (a : Fin 100000) : 0 ≤ degR src a :=
  Finset.sum_nonneg fun e _ => by split_ifs <;> norm_num

theorem deg_eq (src : (⟨1, ![1700000]⟩ : Shape).Idx → BitVec 32) (a : Fin 100000) :
    deg src (ix1 a) = ((degR src a : ℝ) : EReal) := by
  show (∑ e : Fin 1700000, if src (ix1 e) = BitVec.ofNat 32 a.val then (1 : EReal) else 0) = _
  rw [degR, coe_sum]
  refine Finset.sum_congr rfl fun e _ => ?_
  rw [coe_ite, EReal.coe_one, EReal.coe_zero]

/-- The kernel's factor is real: the reciprocal of a positive degree, zero at degree zero. -/
theorem norm2_eq (src : (⟨1, ![1700000]⟩ : Shape).Idx → BitVec 32) (a : Fin 100000) :
    norm2 src (ix2 a 0) = ((if 0 < degR src a then 1 / degR src a else 0 : ℝ) : EReal) := by
  show (if 0 < deg src (ix1 a) then Ideal.div 1 (deg src (ix1 a)) else 0) = _
  rw [deg_eq, coe_ite, EReal.coe_zero]
  by_cases hpos : 0 < degR src a
  · rw [if_pos hpos, if_pos (EReal.coe_pos.mpr hpos), Ideal.div_coe hpos.ne', one_mul]
  · rw [if_neg hpos, if_neg (fun hc => hpos (EReal.coe_pos.mp hc))]

/-- The reference's factor is real: the real power `-1/2` of the degree. -/
theorem nrm_eq (src : (⟨1, ![1700000]⟩ : Shape).Idx → BitVec 32) (a : Fin 100000) :
    nrm src (ix1 a) = (((degR src a) ^ ((-1 / 2 : ℝ)) : ℝ) : EReal) := by
  show Ideal.pow (deg src (ix1 a)) (((-1 / 2 : ℝ)) : EReal) = _
  rw [deg_eq, Ideal.pow_coe_coe]
  rfl

/-- Over finite features, weights and bias, with every source word a node id: the kernel's scatter of gathered projected
    rows, scaled by the reciprocal degree, is the reference's projected, twice-normalised aggregate. -/
theorem ker_eq_ref (h : (⟨2, ![100000, 128]⟩ : Shape).Idx → EReal) (W : (⟨2, ![128, 128]⟩ : Shape).Idx → EReal)
    (b : (⟨1, ![128]⟩ : Shape).Idx → EReal) (src dst : (⟨1, ![1700000]⟩ : Shape).Idx → BitVec 32)
    (hh : ∀ i, ∃ r : ℝ, h i = (r : EReal)) (hW : ∀ i, ∃ r : ℝ, W i = (r : EReal)) (hb : ∀ i, ∃ r : ℝ, b i = (r : EReal))
    (hsrc : ∀ e : Fin 1700000, (src (ix1 e)).toNat < 100000) :
    kerOut h W b src dst = refOut h W b src hsrc dst := by
  obtain ⟨hr, rfl⟩ : ∃ hr : (⟨2, ![100000, 128]⟩ : Shape).Idx → ℝ, h = fun i => (hr i : EReal) :=
    ⟨fun i => (hh i).choose, funext fun i => (hh i).choose_spec⟩
  obtain ⟨Wr, rfl⟩ : ∃ Wr : (⟨2, ![128, 128]⟩ : Shape).Idx → ℝ, W = fun i => (Wr i : EReal) :=
    ⟨fun i => (hW i).choose, funext fun i => (hW i).choose_spec⟩
  obtain ⟨br, rfl⟩ : ∃ br : (⟨1, ![128]⟩ : Shape).Idx → ℝ, b = fun i => (br i : EReal) :=
    ⟨fun i => (hb i).choose, funext fun i => (hb i).choose_spec⟩
  funext i
  obtain ⟨a, j, rfl⟩ : ∃ (a : Fin 100000) (j : Fin 128), i = ix2 a j := ⟨i 0, i 1, eq_ix2 i⟩
  show (∑ e : Fin 1703936, (if BitVec.ofNat 32 a.val = pad dst (ix1 e) then (1 : EReal) else 0) *
      ∑ n : Fin 100000, (if pad src (ix1 e) = BitVec.ofNat 32 n.val then (1 : EReal) else 0) *
        ∑ k : Fin 128, (hr (ix2 n k) : EReal) * (Wr (ix2 k j) : EReal)) * norm2 src (ix2 a 0) + (br (ix1 j) : EReal)
    = (∑ k : Fin 128, (nrm src (ix1 a) * ∑ e : Fin 1700000,
        (if dst (ix1 e) = BitVec.ofNat 32 a.val then (1 : EReal) else 0) *
          (hr (ix2 ⟨(src (ix1 e)).toNat, hsrc e⟩ k) : EReal)) * (Wr (ix2 k j) : EReal)) * nrm src (ix1 a)
      + (br (ix1 j) : EReal)
  rw [scat_gath_sum src dst hsrc a (fun n => ∑ k : Fin 128, (hr (ix2 n k) : EReal) * (Wr (ix2 k j) : EReal)),
    norm2_eq, nrm_eq]
  have key := real_id (fun e : Fin 1700000 => if dst (ix1 e) = BitVec.ofNat 32 a.val then (1 : ℝ) else 0)
    (fun e k => hr (ix2 ⟨(src (ix1 e)).toNat, hsrc e⟩ k)) (fun k : Fin 128 => Wr (ix2 k j))
    ((degR src a) ^ ((-1 / 2 : ℝ)))
  rw [rpow_half_sq _ (degR_nonneg src a)] at key
  have key2 := congrArg (fun x : ℝ => ((x + br (ix1 j) : ℝ) : EReal)) key
  simp only [EReal.coe_add, EReal.coe_mul, coe_sum, coe_ite, EReal.coe_one, EReal.coe_zero] at key2 ⊢
  exact key2

end Cert.Spec

end
-- ==== Proof.lean ====
/- A graph-convolution layer: features gathered along edges, summed into their destination nodes, normalised by the
   source degrees and projected by a dense matrix, plus a bias.

   The kernel projects first (`g = h · W`), gathers the rows `g[src e]` by a one-hot product accumulated over node
   chunks, sums them into destinations by a second one-hot product accumulated over edge blocks, and scales node `i` by
   `1 / deg i` (zero at degree zero). The reference sums `h[src e]` into destinations, scales by `(deg i)^(-1/2)`,
   projects, and scales again. Over the extended reals, with finite features, weights and bias and every source id a
   node id (outside that range the reference's gather wraps and clamps where the kernel selects nothing), the two are
   one function: the indicator sums pick the same rows, the projection is linear over the reals, and
   `((deg i)^(-1/2))² = 1 / deg i` for a positive count while at a zero count both factors vanish.
   Destination ids need no range: an id naming no node is dropped by the reference's scatter and matches no node in
   the kernel's comparison.

   The three frames: each kernel region's body is run at every grid point against its proof data (the accumulators'
   contents point by point), the regions and the host stretches chained from the launch memory; the reference is a
   host program. The idealization rewrote nothing, so `preserves` is trivial. -/
import proofs.«419787_j49813030699305_2_alg».proof.Defs
import proofs.«419787_j49813030699305_2_alg».proof.Proof.Gen.Kernel
import proofs.«419787_j49813030699305_2_alg».proof.Proof.Gen.Kernel.Skeleton
import proofs.«419787_j49813030699305_2_alg».proof.Proof.Gen.Kernel.Launch
import proofs.«419787_j49813030699305_2_alg».proof.Proof.Gen.Kernel.Regions
import proofs.«419787_j49813030699305_2_alg».proof.Proof.Gen.Kernel.Points
import proofs.«419787_j49813030699305_2_alg».proof.Proof.Gen.KernelIdeal
import proofs.«419787_j49813030699305_2_alg».proof.Proof.Gen.KernelIdeal.Skeleton
import proofs.«419787_j49813030699305_2_alg».proof.Proof.Gen.KernelIdeal.Launch
import proofs.«419787_j49813030699305_2_alg».proof.Proof.Gen.KernelIdeal.Regions
import proofs.«419787_j49813030699305_2_alg».proof.Proof.Gen.KernelIdeal.Points
import proofs.«419787_j49813030699305_2_alg».proof.Proof.Gen.ReferenceIdeal
import proofs.«419787_j49813030699305_2_alg».proof.Proof.Gen.Pre_finite_inputs
import proofs.«419787_j49813030699305_2_alg».proof.Proof.K.Run
import proofs.«419787_j49813030699305_2_alg».proof.Proof.K.FoldLemmas
import proofs.«419787_j49813030699305_2_alg».proof.Proof.KI.Run
import proofs.«419787_j49813030699305_2_alg».proof.Proof.KI.FoldLemmas
import proofs.«419787_j49813030699305_2_alg».proof.Proof.KI.Algebraic
import proofs.«419787_j49813030699305_2_alg».proof.Proof.Ref
import proofs.«419787_j49813030699305_2_alg».proof.Proof.Pre
import proofs.«419787_j49813030699305_2_alg».proof.Proof.Math
import Idealize.ShloMosaic.Adequacy
import Idealize.ShloMosaic.Init

noncomputable section

namespace Cert.Proof

open Idealize.ShloMosaic Idealize.SL.Sem Idealize.ShloMosaic.ValueIdx

/-- The word-level kernel runs and leaves its arguments as launched: the run over its six segments, each argument
    read back through the boundaries' contents. -/
theorem frame_k : Cert.frame_Kernel := fun m ρ _ =>
  (θ_run (Cert.Kernel.defs (F := Bits)) _ _).mono (fun r h c =>
    ⟨(h c _ (Cert.Kernel.Frame.mem_uc Cert.Kernel.main_arg0 (by decide))).trans (Cert.Kernel.Frame.W6_arg0 m c),
     (h c _ (Cert.Kernel.Frame.mem_uc Cert.Kernel.main_arg1 (by decide))).trans (Cert.Kernel.Frame.W6_arg1 m c),
     (h c _ (Cert.Kernel.Frame.mem_uc Cert.Kernel.main_arg2 (by decide))).trans (Cert.Kernel.Frame.W6_arg2 m c),
     (h c _ (Cert.Kernel.Frame.mem_uc Cert.Kernel.main_arg3 (by decide))).trans (Cert.Kernel.Frame.W6_arg3 m c),
     (h c _ (Cert.Kernel.Frame.mem_uc Cert.Kernel.main_arg4 (by decide))).trans (Cert.Kernel.Frame.W6_arg4 m c)⟩)
    (Cert.Kernel.Frame.run_main (F := Bits) m ρ)

/-- The same for the idealized kernel. -/
theorem frame_ki : Cert.frame_KernelIdeal := fun m ρ _ =>
  (θ_run (Cert.KernelIdeal.defs (F := Ideal)) _ _).mono (fun r h c =>
    ⟨(h c _ (Cert.KernelIdeal.Frame.mem_uc Cert.KernelIdeal.main_arg0 (by decide))).trans (Cert.KernelIdeal.Frame.W6_arg0 m c),
     (h c _ (Cert.KernelIdeal.Frame.mem_uc Cert.KernelIdeal.main_arg1 (by decide))).trans (Cert.KernelIdeal.Frame.W6_arg1 m c),
     (h c _ (Cert.KernelIdeal.Frame.mem_uc Cert.KernelIdeal.main_arg2 (by decide))).trans (Cert.KernelIdeal.Frame.W6_arg2 m c),
     (h c _ (Cert.KernelIdeal.Frame.mem_uc Cert.KernelIdeal.main_arg3 (by decide))).trans (Cert.KernelIdeal.Frame.W6_arg3 m c),
     (h c _ (Cert.KernelIdeal.Frame.mem_uc Cert.KernelIdeal.main_arg4 (by decide))).trans (Cert.KernelIdeal.Frame.W6_arg4 m c)⟩)
    (Cert.KernelIdeal.Frame.run_main (F := Ideal) m ρ)

/-- The reference's run with its result dropped. -/
theorem frame_ri : Cert.frame_ReferenceIdeal := fun m ρ _ =>
  (θ_run (Cert.ReferenceIdeal.defs (F := Ideal)) _ _).mono (fun _ h c => (h c).2) (Cert.ReferenceIdeal.Value.run (F := Ideal) m ρ)

/-- The reference's function does not depend on which proof of the range fact it is given. -/
theorem refOut_congr {h h' : (⟨2, ![100000, 128]⟩ : Shape).Idx → EReal} {W W' : (⟨2, ![128, 128]⟩ : Shape).Idx → EReal}
    {b b' : (⟨1, ![128]⟩ : Shape).Idx → EReal} {src src' dst dst' : (⟨1, ![1700000]⟩ : Shape).Idx → BitVec 32}
    (e0 : h = h') (e1 : W = W') (e2 : b = b') (e3 : src = src') (e4 : dst = dst')
    (hs : ∀ e : Fin 1700000, (src (ix1 e)).toNat < 100000) (hs' : ∀ e : Fin 1700000, (src' (ix1 e)).toNat < 100000) :
    Cert.Spec.refOut h W b src hs dst = Cert.Spec.refOut h' W' b' src' hs' dst' := by
  subst e0 e1 e2 e3 e4; rfl

/-- From memories agreeing on the arguments both programs end with the same result: the kernel's buffer read back
    through its three regions is the composed kernel function, the reference's is the reference function, and the two
    functions agree over finite inputs and in-range source ids. -/
theorem algebraic : Cert.algebraic_KernelIdeal_ReferenceIdeal := by
  intro m ρ m' ρ' hpre hagree
  have hp := fun c => Cert.PreRead.of_fn _ _ _ _ _ (hpre c)
  have hsrc' : ∀ (c : Dev Cert.ReferenceIdeal.nD) (e : Fin 1700000),
      ((m' ((c.tc : Thread Cert.ReferenceIdeal.nD Cert.ReferenceIdeal.τ).loc Cert.ReferenceIdeal.main_arg3)) (ix1 e)).toNat < 100000 :=
    fun c e => by rw [(hagree c).2.2.2.1]; exact (hp c).2.2.2 e
  refine ⟨fun c => Cert.Spec.kerOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run (Cert.KernelIdeal.defs (F := Ideal)) _ _).mono (fun r h c =>
      ⟨(h c _ (Cert.KernelIdeal.Frame.mem_uc Cert.KernelIdeal.main_v15 (by decide))).trans (Cert.KernelIdeal.Frame.kernel_value m c),
       (h c _ (Cert.KernelIdeal.Frame.mem_uc Cert.KernelIdeal.main_arg0 (by decide))).trans (Cert.KernelIdeal.Frame.W6_arg0 m c),
       (h c _ (Cert.KernelIdeal.Frame.mem_uc Cert.KernelIdeal.main_arg1 (by decide))).trans (Cert.KernelIdeal.Frame.W6_arg1 m c),
       (h c _ (Cert.KernelIdeal.Frame.mem_uc Cert.KernelIdeal.main_arg2 (by decide))).trans (Cert.KernelIdeal.Frame.W6_arg2 m c),
       (h c _ (Cert.KernelIdeal.Frame.mem_uc Cert.KernelIdeal.main_arg3 (by decide))).trans (Cert.KernelIdeal.Frame.W6_arg3 m c),
       (h c _ (Cert.KernelIdeal.Frame.mem_uc Cert.KernelIdeal.main_arg4 (by decide))).trans (Cert.KernelIdeal.Frame.W6_arg4 m c)⟩)
      (Cert.KernelIdeal.Frame.run_main (F := Ideal) m ρ)
  · refine (θ_run (Cert.ReferenceIdeal.defs (F := Ideal)) _ _).mono (fun r h c => ⟨(h c).1.trans ?_, (h c).2⟩)
      (Cert.ReferenceIdeal.RefValue.run_ref m' ρ' hsrc')
    exact (refOut_congr (hagree c).1 (hagree c).2.1 (hagree c).2.2.1 (hagree c).2.2.2.1 (hagree c).2.2.2.2 _ (hp c).2.2.2).trans
      (Cert.Spec.ker_eq_ref _ _ _ _ _ (hp c).1 (hp c).2.1 (hp c).2.2.1 (hp c).2.2.2).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
